-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S64 : Shape := ⟨1, ![64]⟩
abbrev S2x1250000 : Shape := ⟨2, ![2, 1250000]⟩
abbrev S1250000 : Shape := ⟨1, ![1250000]⟩
abbrev S50000x256 : Shape := ⟨2, ![50000, 256]⟩
abbrev S_ : Shape := ⟨0, ![]⟩
abbrev S1x1250000 : Shape := ⟨2, ![1, 1250000]⟩

class Facts : Prop where
  bcast_S_S64x256 : S_.BroadcastsInDim S64x256 (![] : Fin 0 → Fin S64x256.rank)
  reducesTo_S64x256_S_d0_1 : S64x256.ReducesTo [0, 1] S_
  h_S_ : 0 < S_.numel
  bcast_S_S64 : S_.BroadcastsInDim S64 (![] : Fin 0 → Fin S64.rank)
  reducesTo_S64_S_d0 : S64.ReducesTo [0] S_
  bcast_S_S1250000 : S_.BroadcastsInDim S1250000 (![] : Fin 0 → Fin S1250000.rank)
  reducesTo_S1250000_S_d0 : S1250000.ReducesTo [0] S_
  bcast_S_S50000x256 : S_.BroadcastsInDim S50000x256 (![] : Fin 0 → Fin S50000x256.rank)
  reducesTo_S50000x256_S_d0_1 : S50000x256.ReducesTo [0, 1] S_
  slices_S2x1250000_S1x1250000_0_0 : S2x1250000.Slices ![0, 0] S1x1250000
  shapeCasts_S1x1250000_S1250000 : S1x1250000.ShapeCasts S1250000

variable [Facts]

def fn_part1 {F : FTy → Type} [FloatOps F] (main_arg2 : IVec S2x1250000 32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : IVec S1x1250000 32 := (extractStridedSlice S1x1250000 ![0, 0] · slices_S2x1250000_S1x1250000_0_0) main_arg2
  let main_v20 : IVec S1250000 32 := shapeCast S1250000 main_v19 shapeCasts_S1x1250000_S1250000
  let main_c_6 : IVec S_ 32 := constantI S_ 32 0#32
  let main_v21 : IVec S1250000 32 := broadcastInDim S1250000 ![] bcast_S_S1250000 main_c_6
  let main_v22 : IVec S1250000 1 := cmpi .sge main_v20 main_v21
  let main_v23 : IVec S1x1250000 32 := (extractStridedSlice S1x1250000 ![0, 0] · slices_S2x1250000_S1x1250000_0_0) main_arg2
  let main_v24 : IVec S1250000 32 := shapeCast S1250000 main_v23 shapeCasts_S1x1250000_S1250000
  let main_c_7 : IVec S_ 32 := constantI S_ 32 50000#32
  let main_v25 : IVec S1250000 32 := broadcastInDim S1250000 ![] bcast_S_S1250000 main_c_7
  let main_v26 : IVec S1250000 1 := cmpi .slt main_v24 main_v25
  let main_v27 : IVec S1250000 1 := andi main_v22 main_v26
  let main_c_8 : IVec S_ 1 := constantI S_ 1 1#1
  let main_v28 : IVec S_ 1 := (fun x v => Host.reduce IntOp.andi x v reducesTo_S1250000_S_d0 h_S_) main_v27 main_c_8
  let main_v29 : IVec S_ 1 := andi main_v18 main_v28
  main_v29

def fn {F : FTy → Type} [FloatOps F] (main_arg0 : FVec F S64x256 .f32) (main_arg1 : FVec F S64 .f32) (main_arg2 : IVec S2x1250000 32) (main_arg3 : FVec F S1250000 .f32) (main_arg4 : FVec F S50000x256 .f32) : IVec S_ 1 :=
  let main_v0 : FVec F S64x256 .f32 := Host.absf main_arg0
  let main_cst : FVec F S_ .f32 := constant S_ .f32 0x7F800000#32
  let main_v1 : FVec F S64x256 .f32 := broadcastInDim S64x256 ![] bcast_S_S64x256 main_cst
  let main_v2 : IVec S64x256 1 := cmpf .olt main_v0 main_v1
  let main_c : IVec S_ 1 := constantI S_ 1 1#1
  let main_v3 : IVec S_ 1 := (fun x v => Host.reduce IntOp.andi x v reducesTo_S64x256_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1250000 .f32 := Host.absf main_arg3
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S50000x256 .f32 := Host.absf main_arg4
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg2 main_v13 main_v16
-- ==== Kernel.lean ====
abbrev S64x256 : Shape := ⟨2, ![64, 256]⟩
abbrev S64 : Shape := ⟨1, ![64]⟩
abbrev S2x1250000 : Shape := ⟨2, ![2, 1250000]⟩
abbrev S1250000 : Shape := ⟨1, ![1250000]⟩
abbrev S50000x256 : Shape := ⟨2, ![50000, 256]⟩
abbrev S_ : Shape := ⟨0, ![]⟩
abbrev S51200x256 : Shape := ⟨2, ![51200, 256]⟩
abbrev S64x51200 : Shape := ⟨2, ![64, 51200]⟩
abbrev S1024x256 : Shape := ⟨2, ![1024, 256]⟩
abbrev S64x1024 : Shape := ⟨2, ![64, 1024]⟩
abbrev S1x1250000 : Shape := ⟨2, ![1, 1250000]⟩
abbrev S1250304 : Shape := ⟨1, ![1250304]⟩
abbrev S64x1250304 : Shape := ⟨2, ![64, 1250304]⟩
abbrev S256 : Shape := ⟨1, ![256]⟩
abbrev S1x256 : Shape := ⟨2, ![1, 256]⟩
abbrev S6400x256 : Shape := ⟨2, ![6400, 256]⟩
abbrev S64x6400 : Shape := ⟨2, ![64, 6400]⟩
abbrev S1024 : Shape := ⟨1, ![1024]⟩
abbrev S64x2048 : Shape := ⟨2, ![64, 2048]⟩
abbrev S1024x1 : Shape := ⟨2, ![1024, 1]⟩
abbrev S1024x2048 : Shape := ⟨2, ![1024, 2048]⟩
abbrev S64x1 : Shape := ⟨2, ![64, 1]⟩
abbrev S51200x64 : Shape := ⟨2, ![51200, 64]⟩
abbrev S50000x64 : Shape := ⟨2, ![50000, 64]⟩

abbrev nBuf : Space → Nat
  | .hbm => 28
  | .vmem => 20
  | .smem => 0
  | _ => 0

abbrev bufTy : (tb : Table) → Fin (tcTables nBuf tb) → BufTy
  | .hbm, ⟨0, _⟩ => ⟨S64x256, .f32⟩
  | .hbm, ⟨1, _⟩ => ⟨S64, .f32⟩
  | .hbm, ⟨2, _⟩ => ⟨S2x1250000, .i32⟩
  | .hbm, ⟨3, _⟩ => ⟨S1250000, .f32⟩
  | .hbm, ⟨4, _⟩ => ⟨S50000x256, .f32⟩
  | .hbm, ⟨5, _⟩ => ⟨S_, .i32⟩
  | .hbm, ⟨6, _⟩ => ⟨S_, .f32⟩
  | .hbm, ⟨7, _⟩ => ⟨S51200x256, .f32⟩
  | .hbm, ⟨8, _⟩ => ⟨S51200x256, .bf16⟩
  | .hbm, ⟨9, _⟩ => ⟨S64x256, .bf16⟩
  | .hbm, ⟨10, _⟩ => ⟨S64x51200, .bf16⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .i32⟩
  | .hbm, ⟨16, _⟩ => ⟨S_, .i32⟩
  | .hbm, ⟨17, _⟩ => ⟨S1250304, .i32⟩
  | .hbm, ⟨18, _⟩ => ⟨S_, .i32⟩
  | .hbm, ⟨19, _⟩ => ⟨S_, .i32⟩
  | .hbm, ⟨20, _⟩ => ⟨S1250304, .i32⟩
  | .hbm, ⟨21, _⟩ => ⟨S_, .f32⟩
  | .hbm, ⟨22, _⟩ => ⟨S_, .f32⟩
  | .hbm, ⟨23, _⟩ => ⟨S1250304, .f32⟩
  | .hbm, ⟨24, _⟩ => ⟨S64x1250304, .f32⟩
  | .hbm, ⟨25, _⟩ => ⟨S64x51200, .f32⟩
  | .hbm, ⟨26, _⟩ => ⟨S51200x64, .f32⟩
  | .hbm, ⟨27, _⟩ => ⟨S50000x64, .f32⟩
  | .local _ .vmem, ⟨0, _⟩ => ⟨S1024x256, .bf16⟩
  | .local _ .vmem, ⟨1, _⟩ => ⟨S1024x256, .bf16⟩
  | .local _ .vmem, ⟨2, _⟩ => ⟨S64x256, .bf16⟩
  | .local _ .vmem, ⟨3, _⟩ => ⟨S64x1024, .bf16⟩
  | .local _ .vmem, ⟨4, _⟩ => ⟨S64x1024, .bf16⟩
  | .local _ .vmem, ⟨5, _⟩ => ⟨S64x51200, .bf16⟩
  | .local _ .vmem, ⟨6, _⟩ => ⟨S256, .i32⟩
  | .local _ .vmem, ⟨7, _⟩ => ⟨S256, .i32⟩
  | .local _ .vmem, ⟨8, _⟩ => ⟨S256, .f32⟩
  | .local _ .vmem, ⟨9, _⟩ => ⟨S256, .f32⟩
  | .local _ .vmem, ⟨10, _⟩ => ⟨S64x256, .f32⟩
  | .local _ .vmem, ⟨11, _⟩ => ⟨S64x256, .f32⟩
  | .local _ .vmem, ⟨12, _⟩ => ⟨S1024, .i32⟩
  | .local _ .vmem, ⟨13, _⟩ => ⟨S1024, .i32⟩
  | .local _ .vmem, ⟨14, _⟩ => ⟨S64x1024, .f32⟩
  | .local _ .vmem, ⟨15, _⟩ => ⟨S64x1024, .f32⟩
  | .local _ .vmem, ⟨16, _⟩ => ⟨S64, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_cst : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4884], ![false]⟩

def k1_mult1 : BitVec 32 :=
  let c0_i32 : BitVec 32 := 0#32
  let c6400_i32 : BitVec 32 := 6400#32
  let v5 : BitVec 32 := Scalar.muli c0_i32 c6400_i32
  v5
def k1_off1 (c0_i32 : BitVec 32) : Fin 2 → Nat :=
  let c0_0 : Index := 0#32
  let c6400_i32 : BitVec 32 := 6400#32
  let v5 : BitVec 32 := Scalar.muli c0_i32 c6400_i32
  let v6 : BitVec 32 := v5
  let v7 : Index := Scalar.indexCast v6
  ![0, v7.toNat]
def k1_mult2 : BitVec 32 :=
  let c1_i32 : BitVec 32 := 1#32
  let c6400_i32_3 : BitVec 32 := 6400#32
  let v20 : BitVec 32 := Scalar.muli c1_i32 c6400_i32_3
  v20
def k1_mult3 : BitVec 32 :=
  let c2_i32 : BitVec 32 := 2#32
  let c6400_i32_7 : BitVec 32 := 6400#32
  let v35 : BitVec 32 := Scalar.muli c2_i32 c6400_i32_7
  v35
def k1_mult4 : BitVec 32 :=
  let c3_i32 : BitVec 32 := 3#32
  let c6400_i32_11 : BitVec 32 := 6400#32
  let v50 : BitVec 32 := Scalar.muli c3_i32 c6400_i32_11
  v50
def k1_mult5 : BitVec 32 :=
  let c4_i32 : BitVec 32 := 4#32
  let c6400_i32_15 : BitVec 32 := 6400#32
  let v65 : BitVec 32 := Scalar.muli c4_i32 c6400_i32_15
  v65
def k1_mult6 : BitVec 32 :=
  let c5_i32 : BitVec 32 := 5#32
  let c6400_i32_19 : BitVec 32 := 6400#32
  let v80 : BitVec 32 := Scalar.muli c5_i32 c6400_i32_19
  v80
def k1_mult7 : BitVec 32 :=
  let c6_i32 : BitVec 32 := 6#32
  let c6400_i32_23 : BitVec 32 := 6400#32
  let v95 : BitVec 32 := Scalar.muli c6_i32 c6400_i32_23
  v95
def k1_mult8 : BitVec 32 :=
  let c7_i32 : BitVec 32 := 7#32
  let c6400_i32_27 : BitVec 32 := 6400#32
  let v110 : BitVec 32 := Scalar.muli c7_i32 c6400_i32_27
  v110
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x51200 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![25, 1221], ![false, false]⟩

def k2_cond2 (i : grid2.Coords) : BitVec 1 :=
  let arg1 : BitVec 32 := BitVec.ofNat 32 (i 1).val
  let c1220_i32 : BitVec 32 := 1220#32
  let v24 : BitVec 1 := Scalar.cmpi .eq arg1 c1220_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  pads_S50000x256_S51200x256_012000_000 : S50000x256.Pads (![0, 0] : Fin 2 → Nat) ![1200, 0] ![0, 0] S51200x256
  h_S_ : 0 < S_.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S64x1024_S64x1024_0_0 : ∀ a, (![0, 0] : Fin 2 → Nat) a + S64x1024.size a ≤ S64x1024.size a
  h_S64x1024 : 0 < S64x1024.numel
  packedbf16_S64x1024_S64x1024_0_0 : (Rect.unit (s := S64x1024) ![0, 0] S64x1024.size inb_S64x1024_S64x1024_0_0).PackedRows (EltTy.packing .bf16)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  pads_S1250000_S1250304_03040 : S1250000.Pads (![0] : Fin 1 → Nat) ![304] ![0] S1250304
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  iota_S6400x256_d0_w32 : S6400x256.Iotas .tc 32 [0]
  h_S64x6400 : 0 < S64x6400.numel
  shapeCasts_S64x6400_S64x6400 : S64x6400.ShapeCasts S64x6400
  broadcasts_S1x256_S6400x256 : S1x256.Broadcasts S6400x256
  natLt_1_32 : 1 < 32
  broadcasts_S1x256_S64x256 : S1x256.Broadcasts S64x256
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  iota_S1024x2048_d1_w32 : S1024x2048.Iotas .tc 32 [1]
  broadcasts_S1024x1_S1024x2048 : S1024x1.Broadcasts S1024x2048
  shapeCasts_S64x1024_S64x1024 : S64x1024.ShapeCasts S64x1024
  inb_S64_S64_0 : ∀ a, (![0] : Fin 1 → Nat) a + S64.size a ≤ S64.size a
  h_S64 : 0 < S64.numel
  shapeCasts_S64_S64x1 : S64.ShapeCasts S64x1
  shapeCasts_S64x1_S64x1 : S64x1.ShapeCasts S64x1
  broadcasts_S64x1_S64x2048 : S64x1.Broadcasts S64x2048
  transposes_S64x51200_S51200x64_1_0 : S64x51200.Transposes [1, 0] S51200x64
  slices_S51200x64_S50000x64_0_0 : S51200x64.Slices ![0, 0] S50000x64
  dot_S64x256_S1024x256_S64x1024_1_1_0_0_n_n_wf : DotDims.WF S64x256 S1024x256 S64x1024 [1] [1] [0] [0] [] []
  dot_S64x6400_S6400x256_S64x256_1_0_0_1_n_n_wf : DotDims.WF S64x6400 S6400x256 S64x256 [1] [0] [0] [1] [] []
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S51200x256.size a
  hwx0_0 : ∀ i : grid0.Coords, EltTy.bits .bf16 = 32 ∨ (Rect.block (s := S51200x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x51200.size a
  hwx0_2 : ∀ i : grid0.Coords, EltTy.bits .bf16 = 32 ∨ (Rect.block (s := S64x51200) S64x1024.size (cc0_transform_2 i) (hinb0_2 i)).WholeWords (EltTy.packing .bf16)
  hrank1 : 0 < grid1.rank
  k1_mult1_dvd : 128 ∣ k1_mult1.toNat
  k1_off1_inb : ∀ (r : Fin 8), ∀ a, (k1_off1 (BitVec.ofNat 32 r.val)) a + S64x6400.size a ≤ S64x51200.size a
  k1_mult2_dvd : 128 ∣ k1_mult2.toNat
  k1_mult3_dvd : 128 ∣ k1_mult3.toNat
  k1_mult4_dvd : 128 ∣ k1_mult4.toNat
  k1_mult5_dvd : 128 ∣ k1_mult5.toNat
  k1_mult6_dvd : 128 ∣ k1_mult6.toNat
  k1_mult7_dvd : 128 ∣ k1_mult7.toNat
  k1_mult8_dvd : 128 ∣ k1_mult8.toNat
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x51200.size a ≤ S64x51200.size a
  hwx1_0 : ∀ i : grid1.Coords, EltTy.bits .bf16 = 32 ∨ (Rect.block (s := S64x51200) S64x51200.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S1250304.size a
  hwx1_1 : ∀ i : grid1.Coords, EltTy.bits .i32 = 32 ∨ (Rect.block (s := S1250304) S256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S1250304.size a
  hwx1_2 : ∀ i : grid1.Coords, EltTy.bits .f32 = 32 ∨ (Rect.block (s := S1250304) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x1250304.size a
  hwx1_3 : ∀ i : grid1.Coords, EltTy.bits .f32 = 32 ∨ (Rect.block (s := S64x1250304) S64x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024.size a ≤ S1250304.size a
  hwx2_0 : ∀ i : grid2.Coords, EltTy.bits .i32 = 32 ∨ (Rect.block (s := S1250304) S1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x1250304.size a
  hwx2_1 : ∀ i : grid2.Coords, EltTy.bits .f32 = 32 ∨ (Rect.block (s := S64x1250304) S64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x2048.size a ≤ S64x51200.size a
  hwx2_3 : ∀ i : grid2.Coords, EltTy.bits .f32 = 32 ∨ (Rect.block (s := S64x51200) S64x2048.size (cc2_transform_3 i) (hinb2_3 i)).WholeWords (EltTy.packing .f32)

variable [Facts₀]

def dot_S64x256_S1024x256_S64x1024_1_1_0_0_n_n : DotDims S64x256 S1024x256 S64x1024 where
  lhsContracting := [1]
  rhsContracting := [1]
  lhsNonContracting := [0]
  rhsNonContracting := [0]
  lhsBatch := []
  rhsBatch := []
  wf := dot_S64x256_S1024x256_S64x1024_1_1_0_0_n_n_wf
def dot_S64x6400_S6400x256_S64x256_1_0_0_1_n_n : DotDims S64x6400 S6400x256 S64x256 where
  lhsContracting := [1]
  rhsContracting := [0]
  lhsNonContracting := [0]
  rhsNonContracting := [1]
  lhsBatch := []
  rhsBatch := []
  wf := dot_S64x6400_S6400x256_S64x256_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S64x51200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S64x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S64x256 : Shape := ⟨2, ![64, 256]⟩
abbrev S64 : Shape := ⟨1, ![64]⟩
abbrev S2x1250000 : Shape := ⟨2, ![2, 1250000]⟩
abbrev S1250000 : Shape := ⟨1, ![1250000]⟩
abbrev S50000x256 : Shape := ⟨2, ![50000, 256]⟩
abbrev S256x64 : Shape := ⟨2, ![256, 64]⟩
abbrev S50000x64 : Shape := ⟨2, ![50000, 64]⟩
abbrev S1x1250000 : Shape := ⟨2, ![1, 1250000]⟩
abbrev S1250000x1 : Shape := ⟨2, ![1250000, 1]⟩
abbrev S_ : Shape := ⟨0, ![]⟩
abbrev S1250000x64 : Shape := ⟨2, ![1250000, 64]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64, .f32⟩
  | .hbm, ⟨2, _⟩ => ⟨S2x1250000, .i32⟩
  | .hbm, ⟨3, _⟩ => ⟨S1250000, .f32⟩
  | .hbm, ⟨4, _⟩ => ⟨S50000x256, .f32⟩
  | .hbm, ⟨5, _⟩ => ⟨S256x64, .f32⟩
  | .hbm, ⟨6, _⟩ => ⟨S50000x64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S1250000x1, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S1250000x64, .f32⟩
  | .hbm, ⟨22, _⟩ => ⟨S1250000x64, .f32⟩
  | .hbm, ⟨23, _⟩ => ⟨S_, .f32⟩
  | .hbm, ⟨24, _⟩ => ⟨S50000x64, .f32⟩
  | .hbm, ⟨25, _⟩ => ⟨S1250000x1, .i32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S64x256_S256x64_1_0 : S64x256.Transposes [1, 0] S256x64
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

class Facts : Prop extends Facts₀ where

variable [Facts]
-- ==== Proof.K.Dats.lean ====
/-
  The proof data of the three kernel regions: for each region, what every window's staging buffer holds after the body at each
  grid point, as a function of the arrays the region finds (`V`).

  Region 0 (h_T = W · x_padᵀ, one block of 1024 node columns per point): the output block is the body's one store.
  Region 1 (msg_T[:, e] = w[e] · h_T[:, src[e]], one block of 256 edges per point): the output block is the body's one store, whose
  payload is the sum over the eight 6400-column slices of h_T of (slice · one-hot of src − 6400 k), scaled by the edge weights.
  Region 2 (agg_T[:, n] = Σ_e msg_T[:, e] · [dst[e] = n] + bias, grid 25 node blocks × 1221 edge blocks, the edge axis innermost):
  a scratch accumulator is carried from point to point — reset to zero at the first edge block of a node block, each point adds
  (msg block · one-hot of dst − 2048 · node block) — and the output block is stored (accumulator + bias) at the last edge block only.
-/
import proofs.«428513_j63428077027476_3_alg».proof.Proof.Gen.Kernel.Launch
import proofs.«428513_j63428077027476_3_alg».proof.Proof.Gen.Kernel.Skeleton
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S64x256 := Rect.unit (s := S64x256) ![0, 0] S64x256.size inb_S64x256_S64x256_0_0
abbrev r0_2 : Rect S64x1024 := Rect.unit (s := S64x1024) ![0, 0] S64x1024.size inb_S64x1024_S64x1024_0_0

/-- The output block after the body, from the node block `x0` and the weight block `x1`: the one store. -/
def out0_2 (x0 : Vec F S1024x256 .bf16) (x1 : Vec F S64x256 .bf16) : Vec F S64x1024 .bf16 :=
  View.canon [⟨r0_2, k0_pay1 (View.ld x1 r0_1) (View.ld x0 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_1 : Rect S256 := Rect.unit (s := S256) ![0] S256.size inb_S256_S256_0
abbrev r1_3 : Rect S64x256 := Rect.unit (s := S64x256) ![0, 0] S64x256.size inb_S64x256_S64x256_0_0
/-- The `k`-th slice of 6400 node columns of the resident h_T. -/
abbrev rH0 : Rect S64x51200 := Rect.unit (s := S64x51200) (k1_off1 0#32) S64x6400.size (k1_off1_inb 0)
abbrev rH1 : Rect S64x51200 := Rect.unit (s := S64x51200) (k1_off1 1#32) S64x6400.size (k1_off1_inb 1)
abbrev rH2 : Rect S64x51200 := Rect.unit (s := S64x51200) (k1_off1 2#32) S64x6400.size (k1_off1_inb 2)
abbrev rH3 : Rect S64x51200 := Rect.unit (s := S64x51200) (k1_off1 3#32) S64x6400.size (k1_off1_inb 3)
abbrev rH4 : Rect S64x51200 := Rect.unit (s := S64x51200) (k1_off1 4#32) S64x6400.size (k1_off1_inb 4)
abbrev rH5 : Rect S64x51200 := Rect.unit (s := S64x51200) (k1_off1 5#32) S64x6400.size (k1_off1_inb 5)
abbrev rH6 : Rect S64x51200 := Rect.unit (s := S64x51200) (k1_off1 6#32) S64x6400.size (k1_off1_inb 6)
abbrev rH7 : Rect S64x51200 := Rect.unit (s := S64x51200) (k1_off1 7#32) S64x6400.size (k1_off1_inb 7)

/-- The message block the body stores, from the resident h_T (`x0`), the block of source indices (`x1`) and of edge weights
    (`x2`): the body's payloads composed in the order the body computes them. -/
def msgBlk (x0 : Vec F S64x51200 .bf16) (x1 : Vec F S256 .i32) (x2 : Vec F S256 .f32) : FVec F S64x256 .f32 :=
  let v0 : Vec F S256 .i32 := View.ld x1 r1_1
  let v3 : IVec S6400x256 32 := iota .tc S6400x256 32 [0] iota_S6400x256_d0_w32
  k1_pay8 (k1_pay1 v0) v3
    (k1_pay5 (k1_pay1 v0) v3 (k1_pay2 v0 (View.ld x0 rH0) (View.ld x0 rH1)) (k1_pay3 (View.ld x0 rH2)) (k1_pay4 v0)
      (View.ld x0 rH3) (View.ld x0 rH4))
    (k1_pay6 (View.ld x0 rH5)) (k1_pay7 (k1_pay1 v0)) (View.ld x0 rH6) (View.ld x0 rH7) (View.ld x2 r1_1)

def out1_3 (x0 : Vec F S64x51200 .bf16) (x1 : Vec F S256 .i32) (x2 : Vec F S256 .f32) : Vec F S64x256 .f32 :=
  View.canon [⟨r1_3, msgBlk x0 x1 x2⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024 := Rect.unit (s := S1024) ![0] S1024.size inb_S1024_S1024_0
abbrev r2_1 : Rect S64x1024 := Rect.unit (s := S64x1024) ![0, 0] S64x1024.size inb_S64x1024_S64x1024_0_0
abbrev r2_2 : Rect S64 := Rect.unit (s := S64) ![0] S64.size inb_S64_S64_0
abbrev r2_3 : Rect S64x2048 := Rect.unit (s := S64x2048) ![0, 0] S64x2048.size inb_S64x2048_S64x2048_0_0

/-- The scratch accumulator as a memref. -/
abbrev scM2 : Memref sig .tc .vmem S64x2048 .f32 := Memref.whole cc2_scratch0

/-- One point's update of the accumulator: the previous contents `prev` plus (msg block · one-hot of the dst block against the
    point's node block). -/
def accStep (i : grid2.Coords) (x0 : Vec F S1024 .i32) (x1 : Vec F S64x1024 .f32) (prev : Vec F S64x2048 .f32) : Vec F S64x2048 .f32 :=
  k2_pay2 i (View.ld x0 r2_0) (View.ld x1 r2_1) (View.ld prev r2_3)

/-- THE ACCUMULATION: what the scratch holds after the body at position `n` — over zero at the first edge block of a node block
    (`n % 1221 = 0`), over what position `n - 1` left otherwise. -/
def acc2 (c : Dev nD) : (n : ℕ) → n < cfg2.N → Vec F S64x2048 .f32
  | 0, hn => accStep (grid2.coords ⟨0, hn⟩) (iblk2 V c 0 ⟨0, hn⟩) (iblk2 V c 1 ⟨0, hn⟩) (k2_pay1 (F := F))
  | n + 1, hn => accStep (grid2.coords ⟨n + 1, hn⟩) (iblk2 V c 0 ⟨n + 1, hn⟩) (iblk2 V c 1 ⟨n + 1, hn⟩)
      (if (n + 1) % 1221 = 0 then k2_pay1 (F := F) else acc2 c n (Nat.lt_of_succ_lt hn))

theorem acc2_zero (c : Dev nD) (hn : 0 < cfg2.N) :
    acc2 V c 0 hn = accStep (grid2.coords ⟨0, hn⟩) (iblk2 V c 0 ⟨0, hn⟩) (iblk2 V c 1 ⟨0, hn⟩) (k2_pay1 (F := F)) := rfl
theorem acc2_succ (c : Dev nD) (n : ℕ) (hn : n + 1 < cfg2.N) :
    acc2 V c (n + 1) hn = accStep (grid2.coords ⟨n + 1, hn⟩) (iblk2 V c 0 ⟨n + 1, hn⟩) (iblk2 V c 1 ⟨n + 1, hn⟩)
      (if (n + 1) % 1221 = 0 then k2_pay1 (F := F) else acc2 V c n (Nat.lt_of_succ_lt hn)) := rfl

/-- The output block the body stores at the last edge block of a node block: accumulator + bias. -/
def out2_3 (acc : Vec F S64x2048 .f32) (x2 : Vec F S64 .f32) : Vec F S64x2048 .f32 :=
  View.canon [⟨r2_3, k2_pay3 (View.ld acc r2_3) (View.ld x2 r2_2)⟩]

/-- The scoped buffers that are no staging buffer of region 2 and not its scratch (the other regions' staging buffers), each
    whole at some contents. -/
def otherStg2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scoped rest with every buffer at anything and the
    generator register; afterwards the same with the scratch at what the point before left in it. -/
def PhiS2 (c : Dev nD) : (n : ℕ) → n ≤ cfg2.N → sProp 𝕄
  | 0, _ => Pipeline.ΦA spec2 c
  | n + 1, hn => iprop(otherStg2 (F := F) c ∗ owns (c : Thread nD τ) scM2 fullShare (acc2 V c n hn) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(otherStg2 (F := F) c ∗ owns (c : Thread nD τ) scM2 fullShare (acc2 V c n hn) ∗ (∃ r, prngReg c r)) := rfl
theorem PhiS2_pos (c : Dev nD) (n : ℕ) (h : n ≤ cfg2.N) (hz : n ≠ 0) :
    PhiS2 V c n h = iprop(otherStg2 (F := F) c ∗ owns (c : Thread nD τ) scM2 fullShare (acc2 V c (n - 1) (by omega)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (acc2 V c t.val t.isLt) (iblk2 V c 2 t) := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.K.R0.lean ====
/-
  Region 0 (h_T = W · x_padᵀ, one block of 1024 node columns per grid point): the body obligation of its pipeline.

  At every point the two input windows' staging buffers hold their blocks of the arrays the region found — the node block is
  fetched at every point, the weight block at the first point only and then never moves, so the buffer still holds it.  The
  body loads both blocks whole, loads the output buffer (a value it never uses) and overwrites the output buffer with one
  store covering it; the buffer therefore reads as the stored payload, whatever it held before.  The region's invariant (the
  scoped rest of the memory and the generator register) and the core's debts are not touched by the body.
-/
import proofs.«428513_j63428077027476_3_alg».proof.Proof.K.Dats
import proofs.«428513_j63428077027476_3_alg».proof.Proof.Gen.Kernel.Points
import Idealize.ShloMosaic.Lib.Pipeline.FrameBody
import Idealize.ShloMosaic.Lib.Tactic
import Idealize.ShloMosaic.Lib.Ring

-- membership of an index in a rectangle with long axes is found by a structural recursion over the coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called -/

/-- The node-block window (window 0, fetched at every point): at every point its current staging buffer holds the point's block
    of the array the region found. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl

/-- The weight window (window 1, one block for the whole grid, fetched at the first point only): the same — where the window is
    not fetched its block index has not moved since the point before, and the body left the block in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl

/-! ## The body's one store covers the output buffer -/

theorem cover0_2 (p : Vec F S64x1024 .bf16) (y : S64x1024.Idx) :
    ∃ pc ∈ ([⟨r0_2, p⟩] : List (View.Piece (Elt F) S64x1024 .bf16)), y ∈ pc.1.set :=
  View.cover_of_tiled [⟨r0_2, p⟩] S64x1024.size (by rfl) y

/-! ## The body's triple -/

set_option maxHeartbeats 1000000 in
/-- The body on whole staging memrefs — the node block's at `x0`, the weight block's at `x1`, the output's at anything — runs to the
    continuation with the inputs as they were and the output's buffer reading `out0_2 x0 x1`: two loads of the inputs, a load of
    the output buffer whose value is dropped, then the store of (weight block · node blockᵀ), rounded to bf16, over the whole
    buffer. -/
theorem sound_kernel0 (c : Dev nD) (E : Set ℕ) (i : grid0.Coords)
    (arg1 : Memref sig .tc .vmem S1024x256 .bf16) (harg1 : arg1.IsWhole)
    (arg2 : Memref sig .tc .vmem S64x256 .bf16) (harg2 : arg2.IsWhole)
    (arg3 : Memref sig .tc .vmem S64x1024 .bf16) (harg3 : arg3.IsWhole)
    (x0 : Vec F S1024x256 .bf16) (x1 : Vec F S64x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- The body at point `t`, on what the pipeline hands it (the invariant, the debts, each window's current staging buffer at what
    it then holds): the inputs' buffers hold their blocks, so the body's triple applies; the invariant and the debts go through
    unread, and every buffer is handed back at what the proof data say the body leaves. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point: the three windows written out. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 (msg_T[:, e] = w[e] · h_T[:, src[e]], one block of 256 edges per grid point): the body obligation of its pipeline.

  At every point the three input windows' staging buffers hold their blocks of the arrays the region found: the resident h_T is
  one block for the whole grid, fetched at the first point and never moved; the block of source indices and the block of edge
  weights are fetched at every point.  The body reads the source indices, eight slices of 6400 node columns of h_T one after the
  other, the edge weights, and the output buffer (a value it never uses), and overwrites the output buffer with one store
  covering it: the sum over the eight slices of (slice · one-hot of src − 6400 k), scaled by the weights.  The buffer therefore
  reads as that payload, whatever it held before.  The region's invariant and the core's debts are not touched by the body.
-/
import proofs.«428513_j63428077027476_3_alg».proof.Proof.K.Dats
import proofs.«428513_j63428077027476_3_alg».proof.Proof.Gen.Kernel.Points
import Idealize.ShloMosaic.Lib.Pipeline.FrameBody
import Idealize.ShloMosaic.Lib.Tactic
import Idealize.ShloMosaic.Lib.Ring

-- membership of an index in a rectangle with long axes is found by a structural recursion over the coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called -/

/-- The resident h_T (window 0, one block for the whole grid, fetched at the first point only): at every point its current staging
    buffer holds that block of the array the region found — where the window is not fetched its block index has not moved since
    the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl

/-- The block of source indices (window 1, fetched at every point): its current staging buffer holds the point's block. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl

/-- The block of edge weights (window 2, fetched at every point): the same. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl

/-! ## The body's one store covers the output buffer -/

theorem cover1_3 (p : Vec F S64x256 .f32) (y : S64x256.Idx) :
    ∃ pc ∈ ([⟨r1_3, p⟩] : List (View.Piece (Elt F) S64x256 .f32)), y ∈ pc.1.set :=
  View.cover_of_tiled [⟨r1_3, p⟩] S64x256.size (by rfl) y

/-! ## The body's triple -/

set_option maxHeartbeats 4000000 in
/-- The body on whole staging memrefs — h_T's at `x0`, the source indices' at `x1`, the edge weights' at `x2`, the output's at
    anything — runs to the continuation with the inputs as they were and the output's buffer reading `out1_3 x0 x1 x2`: the loads
    of its three parts in their order (the source indices and slices 0–2 of h_T; slices 3–5; slices 6–7, the weights and the
    output buffer, whose value is dropped), then the store of the message block over the whole buffer. -/
theorem sound_kernel1 (c : Dev nD) (E : Set ℕ) (i : grid1.Coords)
    (arg1 : Memref sig .tc .vmem S64x51200 .bf16) (harg1 : arg1.IsWhole)
    (arg2 : Memref sig .tc .vmem S256 .i32) (harg2 : arg2.IsWhole)
    (arg3 : Memref sig .tc .vmem S256 .f32) (harg3 : arg3.IsWhole)
    (arg4 : Memref sig .tc .vmem S64x256 .f32) (harg4 : arg4.IsWhole)
    (x0 : Vec F S64x51200 .bf16) (x1 : Vec F S256 .i32) (x2 : Vec F S256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E
          (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- The body at point `t`, on what the pipeline hands it (the invariant, the debts, each window's current staging buffer at what
    it then holds): the inputs' buffers hold their blocks, so the body's triple applies; the invariant and the debts go through
    unread, and every buffer is handed back at what the proof data say the body leaves. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point: the four windows written out. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 (agg_T[:, n] = Σ_e msg_T[:, e] · [dst[e] = n] + bias): the body at a grid point takes the scratch accumulator at what the point
  before left (at anything at a node block's first edge block, where it resets it), leaves it one step further, and stores the output block
  at a node block's last edge block only.
-/
import proofs.«428513_j63428077027476_3_alg».proof.Proof.K.Dats
import proofs.«428513_j63428077027476_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 block, however spelt. -/
theorem hz2 : (![0, 0] : Fin 2 → Nat) = fun _ => 0 := funext fun a => by fin_cases a <;> rfl

/-! ## Whole-buffer stores and loads of the accumulator's shape -/

/-- A store of the whole block, last, leaves its payload: whatever the buffer held and whatever was stored before. -/
theorem read_store2 (v : View sig .tc .vmem S64x2048 .f32) (f : v.ty.Contents (Elt F)) (w : Vec F S64x2048 .f32)
    (L : List (View.Piece (Elt F) S64x2048 .f32)) :
    v.read (Elt F) (v.writes (Elt F) f (⟨r2_3, w⟩ :: L)) = w := by
  rw [View.read_writes_eq_canon _ _ _ (fun y => ⟨_, List.Mem.head _, View.mem_set_unit_zero hz2 inb_S64x2048_S64x2048_0_0 y⟩),
    View.canon_cons_unit_zero (S := S64x2048) hz2]

/-- A load of the whole block reads the contents. -/
theorem ld2 (X : Vec F S64x2048 .f32) : View.ld X r2_3 = X := View.ld_unit_zero (S := S64x2048) hz2 _ X

/-- A load of the whole block after one store of the whole block reads the payload. -/
theorem readCov2 (v : View sig .tc .vmem S64x2048 .f32) (w : Vec F S64x2048 .f32) :
    v.readCov [(⟨r2_3, w⟩ : View.Piece (Elt F) S64x2048 .f32)] r2_3.toLoadRect = w :=
  View.readCov_unit_zero (S := S64x2048) v hz2 _ w

/-- The accumulation payload over what the three loads read of whole memrefs at known contents is one step of the accumulation. -/
theorem pay2_eq (i : grid2.Coords) {arg2 : Memref sig .tc .vmem S1024 .i32} (harg2 : arg2.IsWhole) {arg3 : Memref sig .tc .vmem S64x1024 .f32} (harg3 : arg3.IsWhole)
    {arg6 : Memref sig .tc .vmem S64x2048 .f32} (harg6 : arg6.IsWhole)
    (x0 : Vec F S1024 .i32) (x1 : Vec F S64x1024 .f32) (prev : Vec F S64x2048 .f32) :
    k2_pay2 i (View.readAt (Elt F) arg2.view r2_0.toLoadRect (harg2.unread x0)) (View.readAt (Elt F) arg3.view r2_1.toLoadRect (harg3.unread x1))
        (View.readAt (Elt F) arg6.view r2_3.toLoadRect (harg6.unread prev)) = accStep i x0 x1 prev := by
  unfold accStep
  rw [View.readAt_eq_ld, View.readAt_eq_ld, View.readAt_eq_ld, harg2.read_unread, harg3.read_unread, harg6.read_unread]

/-- The same with the accumulator read back after the reset's store. -/
theorem pay2_reset_eq (i : grid2.Coords) {arg2 : Memref sig .tc .vmem S1024 .i32} (harg2 : arg2.IsWhole) {arg3 : Memref sig .tc .vmem S64x1024 .f32} (harg3 : arg3.IsWhole)
    (v : View sig .tc .vmem S64x2048 .f32)
    (x0 : Vec F S1024 .i32) (x1 : Vec F S64x1024 .f32) :
    k2_pay2 i (View.readAt (Elt F) arg2.view r2_0.toLoadRect (harg2.unread x0)) (View.readAt (Elt F) arg3.view r2_1.toLoadRect (harg3.unread x1))
        (v.readCov [(⟨r2_3, k2_pay1 (F := F)⟩ : View.Piece (Elt F) S64x2048 .f32)] r2_3.toLoadRect) = accStep i x0 x1 (k2_pay1 (F := F)) := by
  unfold accStep
  rw [View.readAt_eq_ld, View.readAt_eq_ld, harg2.read_unread, harg3.read_unread, readCov2, ld2]

/-- The output payload over the accumulator read back after its store and the bias load is the output block. -/
theorem pay3_eq {arg4 : Memref sig .tc .vmem S64 .f32} (harg4 : arg4.IsWhole) (v : View sig .tc .vmem S64x2048 .f32)
    (acc : Vec F S64x2048 .f32) (x2 : Vec F S64 .f32) :
    k2_pay3 (v.readCov [(⟨r2_3, acc⟩ : View.Piece (Elt F) S64x2048 .f32)] r2_3.toLoadRect)
        (View.readAt (Elt F) arg4.view r2_2.toLoadRect (harg4.unread x2)) = out2_3 acc x2 := by
  unfold out2_3
  rw [View.canon_unit_zero (S := S64x2048) hz2, readCov2, ld2, View.readAt_eq_ld, harg4.read_unread]

/-! ## The region's invariant before the first point, the scratch named -/

/-- Separating conjunction reassociated, as an equation. -/
theorem sep_assoc_eq {M : Type} [URA M] (P Q R : sProp M) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitr [HR]
    · isplitl [HP]; · iexact HP
      iexact HQ
    iexact HR
  exact BI.equiv_iff.mp ⟨h₁, h₂⟩

/-- What the launch hands the region: the other regions' staging buffers, the scratch accumulator at some contents, and the generator
    register — the scoped rest with its last buffer (the scratch) read as an owned memref. -/
theorem PhiA2_eq (c : Dev nD) :
    (Pipeline.ΦA spec2 c : sProp 𝕄)
      = iprop(otherStg2 (F := F) c ∗ (∃ d, owns (c : Thread nD τ) scM2 fullShare d) ∗ (∃ r, prngReg c r)) := by
  unfold Pipeline.ΦA; rw [scopedRest2_eq]; unfold otherStg2; simp only [scM2, owns_whole]
  simp only [sep_assoc_eq]
  try rfl

/-! ## The body's two conditions over the grid, and where the output window is idle -/

/-- The first `scf.if`'s condition (the edge-block coordinate is 0), from the coordinates. -/
abbrev cond2_0 (i : grid2.Coords) : Prop := (Scalar.cmpi .ne (Scalar.extui (Scalar.cmpi .eq (BitVec.ofNat 32 (i 1).val) 0#32)) 0#32) = 1#1
/-- The second `scf.if`'s condition (the edge-block coordinate is the last, 1220). -/
abbrev cond2_1 (i : grid2.Coords) : Prop := k2_cond2 i = 1#1

/-- The edge axis is the inner one: the edge-block coordinate of position `t` is `t mod 1221`. -/
theorem coord2_1 (t : Fin cfg2.N) : ((grid2.coords t) 1).val = t.val % 1221 := by
  show t.val / grid2.stride 1 % grid2.bound 1 = t.val % 1221
  rw [show grid2.stride 1 = 1 from by decide, show grid2.bound 1 = 1221 from rfl, Nat.div_one]

/-- The two comparisons, over the edge-block coordinate's range. -/
theorem first_iff : ∀ j : Fin 1221,
    (Scalar.cmpi .ne (Scalar.extui (Scalar.cmpi .eq (BitVec.ofNat 32 j.val) 0#32)) 0#32) = 1#1 ↔ j.val = 0 := by decide +kernel
theorem last_iff : ∀ j : Fin 1221,
    (Scalar.cmpi .ne (Scalar.extui (Scalar.cmpi .eq (BitVec.ofNat 32 j.val) 1220#32)) 0#32) = 1#1 ↔ j.val = 1220 := by decide +kernel

/-- So the first condition holds at the positions ≡ 0 (mod 1221), -/
theorem hcond2_0 (t : Fin cfg2.N) : cond2_0 (grid2.coords t) ↔ t.val % 1221 = 0 :=
  (first_iff ((grid2.coords t) 1)).trans (by rw [coord2_1 t])
/-- the second at the positions ≡ 1220 (mod 1221). -/
theorem hcond2_1 (t : Fin cfg2.N) : cond2_1 (grid2.coords t) ↔ t.val % 1221 = 1220 :=
  (last_iff ((grid2.coords t) 1)).trans (by rw [coord2_1 t])

/-- The three input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output window is idle exactly where the second condition fails, -/
theorem idle2_3_of (i : grid2.Coords) (h : ¬cond2_1 i) : cfg2.idle 3 i = true := by
  show (!(k2_cond2 i == 1#1)) = true
  rw [Bool.not_eq_true', beq_eq_false_iff_ne]; exact h
theorem live2_3_of (i : grid2.Coords) (h : cond2_1 i) : cfg2.idle 3 i = false := by
  show (!(k2_cond2 i == 1#1)) = false
  rw [Bool.not_eq_false', beq_iff_eq]; exact h
/-- and is not written back off the last edge block of a node block. -/
theorem noFlush2_3 (t : Fin cfg2.N) (h : ¬t.val % 1221 = 1220) : (cfg2.win 3).flush t = false :=
  Bool.eq_false_iff.mpr fun hf => h ((flush2_3 t).mp hf)

/-! ## The body on whole memrefs, case by case -/

set_option maxHeartbeats 1000000 in
/-- At a point that starts a node block (the first condition holds, the second does not): the body resets the accumulator, adds the
    point's term, and leaves the output block untouched. -/
theorem run2_A (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : cond2_0 i) (hc1 : ¬cond2_1 i)
    (x0 : Vec F S1024 .i32) (x1 : Vec F S64x1024 .f32) (x2 : Vec F S64 .f32) (xi : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep i x0 x1 (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  exact (read_store2 _ _ _ _).trans (pay2_reset_eq i harg2 harg3 _ x0 x1)

set_option maxHeartbeats 1000000 in
/-- At a point inside a node block (neither condition holds): the body adds the point's term to what the point before left, and
    leaves the output block untouched. -/
theorem run2_B (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : ¬cond2_0 i) (hc1 : ¬cond2_1 i)
    (x0 : Vec F S1024 .i32) (x1 : Vec F S64x1024 .f32) (x2 : Vec F S64 .f32) (xi : Vec F S64x2048 .f32) (prev : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep i x0 x1 prev)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  exact (read_store2 _ _ _ _).trans (pay2_eq i harg2 harg3 harg6 x0 x1 prev)

set_option maxHeartbeats 1000000 in
/-- At a point that ends a node block (the second condition holds, the first does not): the body adds the point's term to what the
    point before left and stores the output block, accumulator plus bias. -/
theorem run2_C (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : ¬cond2_0 i) (hc1 : cond2_1 i)
    (x0 : Vec F S1024 .i32) (x1 : Vec F S64x1024 .f32) (x2 : Vec F S64 .f32) (prev : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare (out2_3 (accStep i x0 x1 prev) x2) ∗ owns (c : Thread nD τ) arg6 fullShare (accStep i x0 x1 prev)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (read_store2 _ _ _ _).trans ?_
    rw [pay2_eq i harg2 harg3 harg6 x0 x1 prev]
    exact pay3_eq harg4 _ _ x2
  iexists _; isplitr
  swap; · iexact HS
  ipureintro
  sl_unfold_words
  exact (read_store2 _ _ _ _).trans (pay2_eq i harg2 harg3 harg6 x0 x1 prev)

/-! ## The input windows' buffers hold their blocks -/

/-- An input window's current staging buffer holds the window's block at every point, fetched there or not: the body leaves the block
    in place, and an unfetched window's block index has not moved. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The accumulation, one step at a point -/

/-- At the first edge block of a node block the accumulation starts over zero; -/
theorem acc2_reset (c : Dev nD) (t : Fin cfg2.N) (h0 : t.val % 1221 = 0) :
    acc2 V c t.val t.isLt = accStep (grid2.coords t) (iblk2 V c 0 t) (iblk2 V c 1 t) (k2_pay1 (F := F)) := by
  obtain ⟨n, hn⟩ := t
  cases n with
  | zero => exact acc2_zero V c hn
  | succ n => exact (acc2_succ V c n hn).trans (congrArg (accStep (grid2.coords ⟨n + 1, hn⟩) (iblk2 V c 0 ⟨n + 1, hn⟩) (iblk2 V c 1 ⟨n + 1, hn⟩)) (if_pos h0))

/-- elsewhere it goes on from what the point before left. -/
theorem acc2_step (c : Dev nD) (t : Fin cfg2.N) (h0 : ¬t.val % 1221 = 0) :
    acc2 V c t.val t.isLt = accStep (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (acc2_succ V c n hn).trans (congrArg (accStep (grid2.coords ⟨n + 1, hn⟩) (iblk2 V c 0 ⟨n + 1, hn⟩) (iblk2 V c 1 ⟨n + 1, hn⟩)) (if_neg h0))

/-! ## The body obligation, at a generic point -/

/-- Each window's current staging memref at point `t`, as the pipeline passes it, and its wholeness. -/
abbrev ms2_0 (t : Fin cfg2.N) : Memref sig .tc .vmem S1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)

/-- What the body is called with at point `t`: the invariant, what the core owes, and each window's current buffer at what it holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the position modulo 1221 says which of the three cases the point is in;
    the invariant hands the body the accumulator at what the point before left (at anything at the very first point, and at a node
    block's first edge block its contents are not used) and takes it back one accumulation step further; the output's buffer is handed
    back untouched except at a node block's last edge block, where it holds accumulator plus bias; the other regions' staging buffers
    and the generator register ride along; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 1221 = 0
  · -- a node block's first edge block: reset, then accumulate
    have hc0 : cond2_0 (grid2.coords t) := (hcond2_0 t).mpr h0
    have hc1 : ¬cond2_1 (grid2.coords t) := fun h => by have := (hcond2_1 t).mp h; omega
    rw [Dat.leavesExact_idle (dat2 V c) 3 t (idle2_3_of _ hc1) (noFlush2_3 t (by omega))]
    rw [acc2_reset V c t h0]
    by_cases hz : t.val = 0
    · rw [PhiS2_castSucc V c t, PhiS2_zero V c _ _ hz, PhiA2_eq]
      iintro ⟨⟨Hoth, ⟨%ds, HS⟩, Hg⟩, Ho, ⟨%d0, H0⟩, ⟨%d1, H1⟩, ⟨%d2, H2⟩, ⟨%d3, H3⟩⟩
      iapply (run2_A c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hoth, HS, Hg⟩, Ho, ⟨%d0, H0⟩, ⟨%d1, H1⟩, ⟨%d2, H2⟩, ⟨%d3, H3⟩⟩
      iapply (run2_A c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun e => h0 (by rw [e])
    rw [acc2_step V c t h0]
    rw [PhiS2_castSucc V c t, PhiS2_pos V c _ _ hz]
    by_cases h2 : t.val % 1221 = 1220
    · -- a node block's last edge block: accumulate, then store the output
      have hc1 : cond2_1 (grid2.coords t) := (hcond2_1 t).mpr h2
      rw [show (dat2 V c).leavesExact 3 t = owns (c : Thread nD τ) (ms2_3 t) fullShare ((dat2 V c).after 3 t) from by
        unfold Dat.leavesExact; rw [live2_3_of _ hc1], after2_3, acc2_step V c t h0]
      iintro ⟨⟨Hoth, HS, Hg⟩, Ho, ⟨%d0, H0⟩, ⟨%d1, H1⟩, ⟨%d2, H2⟩, ⟨%d3, H3⟩⟩
      iapply (run2_C c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- inside a node block: accumulate
      have hc1 : ¬cond2_1 (grid2.coords t) := fun h => h2 ((hcond2_1 t).mp h)
      rw [Dat.leavesExact_idle (dat2 V c) 3 t (idle2_3_of _ hc1) (noFlush2_3 t h2)]
      iintro ⟨⟨Hoth, HS, Hg⟩, Ho, ⟨%d0, H0⟩, ⟨%d1, H1⟩, ⟨%d2, H2⟩, ⟨%d3, H3⟩⟩
      iapply (run2_B c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3)
        (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the scratch's contents forgotten. -/
theorem hout2 (c : Dev nD) : (dat2 V c).Φ (Fin.last cfg2.N) ⊢ Pipeline.ΦA spec2 c := by
  have hN : cfg2.N = 30525 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨Hoth, HS, Hg⟩
  isplitl [Hoth]; · iexact Hoth
  isplitl [HS]; · iexists _; iexact HS
  iexact Hg

end Cert.Kernel.Hand

end
-- ==== Proof.K.Run.lean ====
/-
  The run of the whole program: @main's three kernel regions among its stretches of host operations, from the launch to the return.
  Between two items every unscoped buffer of the core is held at named contents: the launch memory, then each host stretch applied,
  then, after a region, its output array at what the region's write-backs leave (the proof data's `arrAt` at the last point) and every
  other buffer as the region found it. Every weakly fair execution terminates, and the final memory holds the result buffer at the last
  of these contents and every argument as launched.
-/
import proofs.«428513_j63428077027476_3_alg».proof.Proof.K.R0
import proofs.«428513_j63428077027476_3_alg».proof.Proof.K.R1
import proofs.«428513_j63428077027476_3_alg».proof.Proof.K.R2
import proofs.«428513_j63428077027476_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Region 0's entry contents, whole and read at the TensorCore's references. -/
abbrev E0W (c : Dev nD) : Valuation τ sig (Elt F) := V3 m c
abbrev E0 : (c : Dev nD) → (b : Ref sig .tc) → Buf (Elt F) ((c : Thread nD τ).loc b) := fun c b => V3 m c b
/-- After region 0: its output array at what its write-backs leave, every other buffer as entered. -/
def O4 (c : Dev nD) : Valuation τ sig (Elt F) :=
  Function.update (V3 m c) (Proc.devRef .tc main_v3) ((dat0 (E0 m) c).arrAt 2 cfg0.N)
abbrev O4R : (c : Dev nD) → (b : Ref sig .tc) → Buf (Elt F) ((c : Thread nD τ).loc b) := fun c b => O4 m c b
/-- What the regions leave, item by item (read only at the item's output array). -/
def outsA : Outs (F := F) := fun _ r c => O4 m c r

/-- Region 1's entry contents. -/
abbrev E1W (c : Dev nD) : Valuation τ sig (Elt F) := V10 m (outsA m) c
abbrev E1 : (c : Dev nD) → (b : Ref sig .tc) → Buf (Elt F) ((c : Thread nD τ).loc b) := fun c b => V10 m (outsA m) c b
def O11 (c : Dev nD) : Valuation τ sig (Elt F) :=
  Function.update (V10 m (outsA m) c) (Proc.devRef .tc main_v11) ((dat1 (E1 m) c).arrAt 3 cfg1.N)
abbrev O11R : (c : Dev nD) → (b : Ref sig .tc) → Buf (Elt F) ((c : Thread nD τ).loc b) := fun c b => O11 m c b
def outsB : Outs (F := F) := fun j r c => match j with | 4 => O4 m c r | _ => O11 m c r

/-- Region 2's entry contents. -/
abbrev E2W (c : Dev nD) : Valuation τ sig (Elt F) := V11 m (outsB m) c
abbrev E2 : (c : Dev nD) → (b : Ref sig .tc) → Buf (Elt F) ((c : Thread nD τ).loc b) := fun c b => V11 m (outsB m) c b
def O12 (c : Dev nD) : Valuation τ sig (Elt F) :=
  Function.update (V11 m (outsB m) c) (Proc.devRef .tc main_v12) ((dat2 (E2 m) c).arrAt 3 cfg2.N)
abbrev O12R : (c : Dev nD) → (b : Ref sig .tc) → Buf (Elt F) ((c : Thread nD τ).loc b) := fun c b => O12 m c b
/-- What each region leaves in its output array. -/
def outs : Outs (F := F) := fun j r c => match j with | 4 => O4 m c r | 11 => O11 m c r | _ => O12 m c r

theorem O4_self (c : Dev nD) : O4 m c (Proc.devRef .tc main_v3) = (dat0 (E0 m) c).arrAt 2 cfg0.N := by
  unfold O4; exact Function.update_self _ _ _
theorem O4_of (c : Dev nD) (r : Ref sig .tc) (h : r ≠ main_v3) : O4 m c r = V3 m c r := by
  unfold O4
  exact Function.update_of_ne (StableHlo.devRef_ne_of_ne h : (Proc.devRef .tc r : DevRef τ sig) ≠ Proc.devRef .tc main_v3) _ _
theorem O11_self (c : Dev nD) : O11 m c (Proc.devRef .tc main_v11) = (dat1 (E1 m) c).arrAt 3 cfg1.N := by
  unfold O11; exact Function.update_self _ _ _
theorem O11_of (c : Dev nD) (r : Ref sig .tc) (h : r ≠ main_v11) : O11 m c r = V10 m (outsA m) c r := by
  unfold O11
  exact Function.update_of_ne (StableHlo.devRef_ne_of_ne h : (Proc.devRef .tc r : DevRef τ sig) ≠ Proc.devRef .tc main_v11) _ _
theorem O12_self (c : Dev nD) : O12 m c (Proc.devRef .tc main_v12) = (dat2 (E2 m) c).arrAt 3 cfg2.N := by
  unfold O12; exact Function.update_self _ _ _
theorem O12_of (c : Dev nD) (r : Ref sig .tc) (h : r ≠ main_v12) : O12 m c r = V11 m (outsB m) c r := by
  unfold O12
  exact Function.update_of_ne (StableHlo.devRef_ne_of_ne h : (Proc.devRef .tc r : DevRef τ sig) ≠ Proc.devRef .tc main_v12) _ _

theorem V4_eq (c : Dev nD) : V4 m (outs m) c = O4 m c := by
  show Function.update (V3 m c) (Proc.devRef .tc main_v3) (O4 m c (Proc.devRef .tc main_v3)) = O4 m c
  rw [O4_self]; rfl
theorem V10_eq (c : Dev nD) : V10 m (outs m) c = V10 m (outsA m) c := rfl
theorem V11_eq (c : Dev nD) : V11 m (outs m) c = O11 m c := by
  show Function.update (V10 m (outsA m) c) (Proc.devRef .tc main_v11) (O11 m c (Proc.devRef .tc main_v11)) = O11 m c
  rw [O11_self]; rfl
theorem V11_eqB (c : Dev nD) : V11 m (outs m) c = V11 m (outsB m) c := rfl
theorem V12_eq (c : Dev nD) : V12 m (outs m) c = O12 m c := by
  show Function.update (V11 m (outsB m) c) (Proc.devRef .tc main_v12) (O12 m c (Proc.devRef .tc main_v12)) = O12 m c
  rw [O12_self]; rfl

/-! ## The proof data family and the thread state -/

/-- Every pipeline's proof data, each at its region's entry contents (a literal match on the pipeline). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)

/-! ## What each region's arrays hold at its exit -/

theorem hF0 (c : Dev nD) (w : Fin cfg0.W) : (pdats m 0 c).arrAt w cfg0.N = O4R m c (Pipeline.arrRef spec0 w) := by
  match w with
  | ⟨0, _⟩ => exact ((dat0 (E0 m) c).arrAt_in 0 rfl _).trans ((A_eq0 (E0 m) c 0).trans (O4_of m c main_v1 (by decide)).symm)
  | ⟨1, _⟩ => exact ((dat0 (E0 m) c).arrAt_in 1 rfl _).trans ((A_eq0 (E0 m) c 1).trans (O4_of m c main_v2 (by decide)).symm)
  | ⟨2, _⟩ => exact (O4_self m c).symm
theorem hrest0 (c : Dev nD) : ∀ b, b ∉ Finset.univ.image (Pipeline.arrRef spec0) → O4R m c b = E0 m c b := fun b hb =>
  O4_of m c b (fun e => hb (Finset.mem_image.mpr ⟨2, Finset.mem_univ _, e.symm⟩))

theorem hF1 (c : Dev nD) (w : Fin cfg1.W) : (pdats m 1 c).arrAt w cfg1.N = O11R m c (Pipeline.arrRef spec1 w) := by
  match w with
  | ⟨0, _⟩ => exact ((dat1 (E1 m) c).arrAt_in 0 rfl _).trans ((A_eq1 (E1 m) c 0).trans (O11_of m c main_v3 (by decide)).symm)
  | ⟨1, _⟩ => exact ((dat1 (E1 m) c).arrAt_in 1 rfl _).trans ((A_eq1 (E1 m) c 1).trans (O11_of m c main_v8 (by decide)).symm)
  | ⟨2, _⟩ => exact ((dat1 (E1 m) c).arrAt_in 2 rfl _).trans ((A_eq1 (E1 m) c 2).trans (O11_of m c main_v10 (by decide)).symm)
  | ⟨3, _⟩ => exact (O11_self m c).symm
theorem hrest1 (c : Dev nD) : ∀ b, b ∉ Finset.univ.image (Pipeline.arrRef spec1) → O11R m c b = E1 m c b := fun b hb =>
  O11_of m c b (fun e => hb (Finset.mem_image.mpr ⟨3, Finset.mem_univ _, e.symm⟩))

theorem hF2 (c : Dev nD) (w : Fin cfg2.W) : (pdats m 2 c).arrAt w cfg2.N = O12R m c (Pipeline.arrRef spec2 w) := by
  match w with
  | ⟨0, _⟩ => exact ((dat2 (E2 m) c).arrAt_in 0 rfl _).trans ((A_eq2 (E2 m) c 0).trans (O12_of m c main_v9 (by decide)).symm)
  | ⟨1, _⟩ => exact ((dat2 (E2 m) c).arrAt_in 1 rfl _).trans ((A_eq2 (E2 m) c 1).trans (O12_of m c main_v11 (by decide)).symm)
  | ⟨2, _⟩ => exact ((dat2 (E2 m) c).arrAt_in 2 rfl _).trans ((A_eq2 (E2 m) c 2).trans (O12_of m c main_arg1 (by decide)).symm)
  | ⟨3, _⟩ => exact (O12_self m c).symm
theorem hrest2 (c : Dev nD) : ∀ b, b ∉ Finset.univ.image (Pipeline.arrRef spec2) → O12R m c b = E2 m c b := fun b hb =>
  O12_of m c b (fun e => hb (Finset.mem_image.mpr ⟨3, Finset.mem_univ _, e.symm⟩))

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at the contents before it, left at the contents after it;
    its arrays split out of the unscoped buffers and put back at their final contents; the generator register into the region's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (E0W m c) ∗ R c)
  post c := iprop(StableHlo.held (c : Thread nD τ) (Pipeline.ucRefs τ sig) (O4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (O4R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at the contents before it, left at the contents after it;
    its arrays split out of the unscoped buffers and put back at their final contents; the generator register into the region's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1W m c) ∗ R c)
  post c := iprop(StableHlo.held (c : Thread nD τ) (Pipeline.ucRefs τ sig) (O11 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (O11R m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at the contents before it, left at the contents after it;
    its arrays split out of the unscoped buffers and put back at their final contents; the generator register into the region's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (E2W m c) ∗ R c)
  post c := iprop(StableHlo.held (c : Thread nD τ) (Pipeline.ucRefs τ sig) (O12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (E2 m) c)
    unfold Pipeline.ΦA
    iintro ⟨Hp, -, Hr⟩
    isplitl [Hr]; · iexact Hr
    iexact Hp
  hout c := by
    rw [Pipeline.ownSems0_none]
    refine (hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (O12R m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records -/

-- the launch theorem's implicit arguments are found by unifying its conclusion with this one, which takes unfolding
-- plain definitions in a metavariable's type
set_option backward.isDefEq.respectTransparency.types false in
/-- The run of @main from the regions' records: as the frame, with the result buffer read off the last contents as well. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      r.2.mem ((c.tc : Thread nD τ).loc main_v14) = V13 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, .rfl, .rfl, .rfl, .rfl, .rfl, hpre1 c, (hpost1 c).trans (hpre2 c), hpost2 c, sep_mono .rfl (hE3 c)⟩)
    (hinit := ?_) (QY := fun c s => s.mem ((c.tc : Thread nD τ).loc main_v14) = V13 m outs c main_v14 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c)⟩
    · iexact HSI

-- the run's implicit arguments are found by unifying its conclusion with this one, which takes unfolding plain definitions
-- in a metavariable's type
set_option backward.isDefEq.respectTransparency.types false in
/-- THE RUN. From any memory with zero counters every weakly fair execution of @main terminates, nothing faulting; the final memory
    holds the result buffer at the last boundary's contents (the third region's output array transposed and cut, through
    `V13`) and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v14) = V13 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (emb₁ : Emb (URounds (GSem nD τ sig) Unit) 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V4_eq]; exact .rfl)
    (reg1 m) (fun c => .rfl) (fun c => by rw [V11_eq]; exact .rfl)
    (reg2 m) (fun c => .rfl) (fun c => by rw [V12_eq]; exact .rfl)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.Kernel.Hand

end
-- ==== Proof.KI.Dats.lean ====
/-
  The proof data of the three kernel regions: for each region, what every window's staging buffer holds after the body at each
  grid point, as a function of the arrays the region finds (`V`).

  Region 0 (h_T = W · x_padᵀ, one block of 1024 node columns per point): the output block is the body's one store.
  Region 1 (msg_T[:, e] = w[e] · h_T[:, src[e]], one block of 256 edges per point): the output block is the body's one store, whose
  payload is the sum over the eight 6400-column slices of h_T of (slice · one-hot of src − 6400 k), scaled by the edge weights.
  Region 2 (agg_T[:, n] = Σ_e msg_T[:, e] · [dst[e] = n] + bias, grid 25 node blocks × 1221 edge blocks, the edge axis innermost):
  a scratch accumulator is carried from point to point — reset to zero at the first edge block of a node block, each point adds
  (msg block · one-hot of dst − 2048 · node block) — and the output block is stored (accumulator + bias) at the last edge block only.
-/
import proofs.«428513_j63428077027476_3_alg».proof.Proof.Gen.KernelIdeal.Launch
import proofs.«428513_j63428077027476_3_alg».proof.Proof.Gen.KernelIdeal.Skeleton
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S64x256 := Rect.unit (s := S64x256) ![0, 0] S64x256.size inb_S64x256_S64x256_0_0
abbrev r0_2 : Rect S64x1024 := Rect.unit (s := S64x1024) ![0, 0] S64x1024.size inb_S64x1024_S64x1024_0_0

/-- The output block after the body, from the node block `x0` and the weight block `x1`: the one store. -/
def out0_2 (x0 : Vec F S1024x256 .bf16) (x1 : Vec F S64x256 .bf16) : Vec F S64x1024 .bf16 :=
  View.canon [⟨r0_2, k0_pay1 (View.ld x1 r0_1) (View.ld x0 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_1 : Rect S256 := Rect.unit (s := S256) ![0] S256.size inb_S256_S256_0
abbrev r1_3 : Rect S64x256 := Rect.unit (s := S64x256) ![0, 0] S64x256.size inb_S64x256_S64x256_0_0
/-- The `k`-th slice of 6400 node columns of the resident h_T. -/
abbrev rH0 : Rect S64x51200 := Rect.unit (s := S64x51200) (k1_off1 0#32) S64x6400.size (k1_off1_inb 0)
abbrev rH1 : Rect S64x51200 := Rect.unit (s := S64x51200) (k1_off1 1#32) S64x6400.size (k1_off1_inb 1)
abbrev rH2 : Rect S64x51200 := Rect.unit (s := S64x51200) (k1_off1 2#32) S64x6400.size (k1_off1_inb 2)
abbrev rH3 : Rect S64x51200 := Rect.unit (s := S64x51200) (k1_off1 3#32) S64x6400.size (k1_off1_inb 3)
abbrev rH4 : Rect S64x51200 := Rect.unit (s := S64x51200) (k1_off1 4#32) S64x6400.size (k1_off1_inb 4)
abbrev rH5 : Rect S64x51200 := Rect.unit (s := S64x51200) (k1_off1 5#32) S64x6400.size (k1_off1_inb 5)
abbrev rH6 : Rect S64x51200 := Rect.unit (s := S64x51200) (k1_off1 6#32) S64x6400.size (k1_off1_inb 6)
abbrev rH7 : Rect S64x51200 := Rect.unit (s := S64x51200) (k1_off1 7#32) S64x6400.size (k1_off1_inb 7)

/-- The message block the body stores, from the resident h_T (`x0`), the block of source indices (`x1`) and of edge weights
    (`x2`): the body's payloads composed in the order the body computes them. -/
def msgBlk (x0 : Vec F S64x51200 .bf16) (x1 : Vec F S256 .i32) (x2 : Vec F S256 .f32) : FVec F S64x256 .f32 :=
  let v0 : Vec F S256 .i32 := View.ld x1 r1_1
  let v3 : IVec S6400x256 32 := iota .tc S6400x256 32 [0] iota_S6400x256_d0_w32
  k1_pay8 (k1_pay1 v0) v3
    (k1_pay5 (k1_pay1 v0) v3 (k1_pay2 v0 (View.ld x0 rH0) (View.ld x0 rH1)) (k1_pay3 (View.ld x0 rH2)) (k1_pay4 v0)
      (View.ld x0 rH3) (View.ld x0 rH4))
    (k1_pay6 (View.ld x0 rH5)) (k1_pay7 (k1_pay1 v0)) (View.ld x0 rH6) (View.ld x0 rH7) (View.ld x2 r1_1)

def out1_3 (x0 : Vec F S64x51200 .bf16) (x1 : Vec F S256 .i32) (x2 : Vec F S256 .f32) : Vec F S64x256 .f32 :=
  View.canon [⟨r1_3, msgBlk x0 x1 x2⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024 := Rect.unit (s := S1024) ![0] S1024.size inb_S1024_S1024_0
abbrev r2_1 : Rect S64x1024 := Rect.unit (s := S64x1024) ![0, 0] S64x1024.size inb_S64x1024_S64x1024_0_0
abbrev r2_2 : Rect S64 := Rect.unit (s := S64) ![0] S64.size inb_S64_S64_0
abbrev r2_3 : Rect S64x2048 := Rect.unit (s := S64x2048) ![0, 0] S64x2048.size inb_S64x2048_S64x2048_0_0

/-- The scratch accumulator as a memref. -/
abbrev scM2 : Memref sig .tc .vmem S64x2048 .f32 := Memref.whole cc2_scratch0

/-- One point's update of the accumulator: the previous contents `prev` plus (msg block · one-hot of the dst block against the
    point's node block). -/
def accStep (i : grid2.Coords) (x0 : Vec F S1024 .i32) (x1 : Vec F S64x1024 .f32) (prev : Vec F S64x2048 .f32) : Vec F S64x2048 .f32 :=
  k2_pay2 i (View.ld x0 r2_0) (View.ld x1 r2_1) (View.ld prev r2_3)

/-- THE ACCUMULATION: what the scratch holds after the body at position `n` — over zero at the first edge block of a node block
    (`n % 1221 = 0`), over what position `n - 1` left otherwise. -/
def acc2 (c : Dev nD) : (n : ℕ) → n < cfg2.N → Vec F S64x2048 .f32
  | 0, hn => accStep (grid2.coords ⟨0, hn⟩) (iblk2 V c 0 ⟨0, hn⟩) (iblk2 V c 1 ⟨0, hn⟩) (k2_pay1 (F := F))
  | n + 1, hn => accStep (grid2.coords ⟨n + 1, hn⟩) (iblk2 V c 0 ⟨n + 1, hn⟩) (iblk2 V c 1 ⟨n + 1, hn⟩)
      (if (n + 1) % 1221 = 0 then k2_pay1 (F := F) else acc2 c n (Nat.lt_of_succ_lt hn))

theorem acc2_zero (c : Dev nD) (hn : 0 < cfg2.N) :
    acc2 V c 0 hn = accStep (grid2.coords ⟨0, hn⟩) (iblk2 V c 0 ⟨0, hn⟩) (iblk2 V c 1 ⟨0, hn⟩) (k2_pay1 (F := F)) := rfl
theorem acc2_succ (c : Dev nD) (n : ℕ) (hn : n + 1 < cfg2.N) :
    acc2 V c (n + 1) hn = accStep (grid2.coords ⟨n + 1, hn⟩) (iblk2 V c 0 ⟨n + 1, hn⟩) (iblk2 V c 1 ⟨n + 1, hn⟩)
      (if (n + 1) % 1221 = 0 then k2_pay1 (F := F) else acc2 V c n (Nat.lt_of_succ_lt hn)) := rfl

/-- The output block the body stores at the last edge block of a node block: accumulator + bias. -/
def out2_3 (acc : Vec F S64x2048 .f32) (x2 : Vec F S64 .f32) : Vec F S64x2048 .f32 :=
  View.canon [⟨r2_3, k2_pay3 (View.ld acc r2_3) (View.ld x2 r2_2)⟩]

/-- The scoped buffers that are no staging buffer of region 2 and not its scratch (the other regions' staging buffers), each
    whole at some contents. -/
def otherStg2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scoped rest with every buffer at anything and the
    generator register; afterwards the same with the scratch at what the point before left in it. -/
def PhiS2 (c : Dev nD) : (n : ℕ) → n ≤ cfg2.N → sProp 𝕄
  | 0, _ => Pipeline.ΦA spec2 c
  | n + 1, hn => iprop(otherStg2 (F := F) c ∗ owns (c : Thread nD τ) scM2 fullShare (acc2 V c n hn) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(otherStg2 (F := F) c ∗ owns (c : Thread nD τ) scM2 fullShare (acc2 V c n hn) ∗ (∃ r, prngReg c r)) := rfl
theorem PhiS2_pos (c : Dev nD) (n : ℕ) (h : n ≤ cfg2.N) (hz : n ≠ 0) :
    PhiS2 V c n h = iprop(otherStg2 (F := F) c ∗ owns (c : Thread nD τ) scM2 fullShare (acc2 V c (n - 1) (by omega)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (acc2 V c t.val t.isLt) (iblk2 V c 2 t) := by dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.KI.R0.lean ====
/-
  Region 0 (h_T = W · x_padᵀ, one block of 1024 node columns per grid point): the body obligation of its pipeline.

  At every point the two input windows' staging buffers hold their blocks of the arrays the region found — the node block is
  fetched at every point, the weight block at the first point only and then never moves, so the buffer still holds it.  The
  body loads both blocks whole, loads the output buffer (a value it never uses) and overwrites the output buffer with one
  store covering it; the buffer therefore reads as the stored payload, whatever it held before.  The region's invariant (the
  scoped rest of the memory and the generator register) and the core's debts are not touched by the body.
-/
import proofs.«428513_j63428077027476_3_alg».proof.Proof.KI.Dats
import proofs.«428513_j63428077027476_3_alg».proof.Proof.Gen.KernelIdeal.Points
import Idealize.ShloMosaic.Lib.Pipeline.FrameBody
import Idealize.ShloMosaic.Lib.Tactic
import Idealize.ShloMosaic.Lib.Ring

-- membership of an index in a rectangle with long axes is found by a structural recursion over the coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called -/

/-- The node-block window (window 0, fetched at every point): at every point its current staging buffer holds the point's block
    of the array the region found. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl

/-- The weight window (window 1, one block for the whole grid, fetched at the first point only): the same — where the window is
    not fetched its block index has not moved since the point before, and the body left the block in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl

/-! ## The body's one store covers the output buffer -/

theorem cover0_2 (p : Vec F S64x1024 .bf16) (y : S64x1024.Idx) :
    ∃ pc ∈ ([⟨r0_2, p⟩] : List (View.Piece (Elt F) S64x1024 .bf16)), y ∈ pc.1.set :=
  View.cover_of_tiled [⟨r0_2, p⟩] S64x1024.size (by rfl) y

/-! ## The body's triple -/

set_option maxHeartbeats 1000000 in
/-- The body on whole staging memrefs — the node block's at `x0`, the weight block's at `x1`, the output's at anything — runs to the
    continuation with the inputs as they were and the output's buffer reading `out0_2 x0 x1`: two loads of the inputs, a load of
    the output buffer whose value is dropped, then the store of (weight block · node blockᵀ), rounded to bf16, over the whole
    buffer. -/
theorem sound_kernel0 (c : Dev nD) (E : Set ℕ) (i : grid0.Coords)
    (arg1 : Memref sig .tc .vmem S1024x256 .bf16) (harg1 : arg1.IsWhole)
    (arg2 : Memref sig .tc .vmem S64x256 .bf16) (harg2 : arg2.IsWhole)
    (arg3 : Memref sig .tc .vmem S64x1024 .bf16) (harg3 : arg3.IsWhole)
    (x0 : Vec F S1024x256 .bf16) (x1 : Vec F S64x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- The body at point `t`, on what the pipeline hands it (the invariant, the debts, each window's current staging buffer at what
    it then holds): the inputs' buffers hold their blocks, so the body's triple applies; the invariant and the debts go through
    unread, and every buffer is handed back at what the proof data say the body leaves. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point: the three windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 (msg_T[:, e] = w[e] · h_T[:, src[e]], one block of 256 edges per grid point): the body obligation of its pipeline.

  At every point the three input windows' staging buffers hold their blocks of the arrays the region found: the resident h_T is
  one block for the whole grid, fetched at the first point and never moved; the block of source indices and the block of edge
  weights are fetched at every point.  The body reads the source indices, eight slices of 6400 node columns of h_T one after the
  other, the edge weights, and the output buffer (a value it never uses), and overwrites the output buffer with one store
  covering it: the sum over the eight slices of (slice · one-hot of src − 6400 k), scaled by the weights.  The buffer therefore
  reads as that payload, whatever it held before.  The region's invariant and the core's debts are not touched by the body.
-/
import proofs.«428513_j63428077027476_3_alg».proof.Proof.KI.Dats
import proofs.«428513_j63428077027476_3_alg».proof.Proof.Gen.KernelIdeal.Points
import Idealize.ShloMosaic.Lib.Pipeline.FrameBody
import Idealize.ShloMosaic.Lib.Tactic
import Idealize.ShloMosaic.Lib.Ring

-- membership of an index in a rectangle with long axes is found by a structural recursion over the coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called -/

/-- The resident h_T (window 0, one block for the whole grid, fetched at the first point only): at every point its current staging
    buffer holds that block of the array the region found — where the window is not fetched its block index has not moved since
    the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl

/-- The block of source indices (window 1, fetched at every point): its current staging buffer holds the point's block. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl

/-- The block of edge weights (window 2, fetched at every point): the same. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl

/-! ## The body's one store covers the output buffer -/

theorem cover1_3 (p : Vec F S64x256 .f32) (y : S64x256.Idx) :
    ∃ pc ∈ ([⟨r1_3, p⟩] : List (View.Piece (Elt F) S64x256 .f32)), y ∈ pc.1.set :=
  View.cover_of_tiled [⟨r1_3, p⟩] S64x256.size (by rfl) y

/-! ## The body's triple -/

set_option maxHeartbeats 4000000 in
/-- The body on whole staging memrefs — h_T's at `x0`, the source indices' at `x1`, the edge weights' at `x2`, the output's at
    anything — runs to the continuation with the inputs as they were and the output's buffer reading `out1_3 x0 x1 x2`: the loads
    of its three parts in their order (the source indices and slices 0–2 of h_T; slices 3–5; slices 6–7, the weights and the
    output buffer, whose value is dropped), then the store of the message block over the whole buffer. -/
theorem sound_kernel1 (c : Dev nD) (E : Set ℕ) (i : grid1.Coords)
    (arg1 : Memref sig .tc .vmem S64x51200 .bf16) (harg1 : arg1.IsWhole)
    (arg2 : Memref sig .tc .vmem S256 .i32) (harg2 : arg2.IsWhole)
    (arg3 : Memref sig .tc .vmem S256 .f32) (harg3 : arg3.IsWhole)
    (arg4 : Memref sig .tc .vmem S64x256 .f32) (harg4 : arg4.IsWhole)
    (x0 : Vec F S64x51200 .bf16) (x1 : Vec F S256 .i32) (x2 : Vec F S256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E
          (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- The body at point `t`, on what the pipeline hands it (the invariant, the debts, each window's current staging buffer at what
    it then holds): the inputs' buffers hold their blocks, so the body's triple applies; the invariant and the debts go through
    unread, and every buffer is handed back at what the proof data say the body leaves. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point: the four windows written out. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 (agg_T[:, n] = Σ_e msg_T[:, e] · [dst[e] = n] + bias): the body at a grid point takes the scratch accumulator at what the point
  before left (at anything at a node block's first edge block, where it resets it), leaves it one step further, and stores the output block
  at a node block's last edge block only.
-/
import proofs.«428513_j63428077027476_3_alg».proof.Proof.KI.Dats
import proofs.«428513_j63428077027476_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 block, however spelt. -/
theorem hz2 : (![0, 0] : Fin 2 → Nat) = fun _ => 0 := funext fun a => by fin_cases a <;> rfl

/-! ## Whole-buffer stores and loads of the accumulator's shape -/

/-- A store of the whole block, last, leaves its payload: whatever the buffer held and whatever was stored before. -/
theorem read_store2 (v : View sig .tc .vmem S64x2048 .f32) (f : v.ty.Contents (Elt F)) (w : Vec F S64x2048 .f32)
    (L : List (View.Piece (Elt F) S64x2048 .f32)) :
    v.read (Elt F) (v.writes (Elt F) f (⟨r2_3, w⟩ :: L)) = w := by
  rw [View.read_writes_eq_canon _ _ _ (fun y => ⟨_, List.Mem.head _, View.mem_set_unit_zero hz2 inb_S64x2048_S64x2048_0_0 y⟩),
    View.canon_cons_unit_zero (S := S64x2048) hz2]

/-- A load of the whole block reads the contents. -/
theorem ld2 (X : Vec F S64x2048 .f32) : View.ld X r2_3 = X := View.ld_unit_zero (S := S64x2048) hz2 _ X

/-- A load of the whole block after one store of the whole block reads the payload. -/
theorem readCov2 (v : View sig .tc .vmem S64x2048 .f32) (w : Vec F S64x2048 .f32) :
    v.readCov [(⟨r2_3, w⟩ : View.Piece (Elt F) S64x2048 .f32)] r2_3.toLoadRect = w :=
  View.readCov_unit_zero (S := S64x2048) v hz2 _ w

/-- The accumulation payload over what the three loads read of whole memrefs at known contents is one step of the accumulation. -/
theorem pay2_eq (i : grid2.Coords) {arg2 : Memref sig .tc .vmem S1024 .i32} (harg2 : arg2.IsWhole) {arg3 : Memref sig .tc .vmem S64x1024 .f32} (harg3 : arg3.IsWhole)
    {arg6 : Memref sig .tc .vmem S64x2048 .f32} (harg6 : arg6.IsWhole)
    (x0 : Vec F S1024 .i32) (x1 : Vec F S64x1024 .f32) (prev : Vec F S64x2048 .f32) :
    k2_pay2 i (View.readAt (Elt F) arg2.view r2_0.toLoadRect (harg2.unread x0)) (View.readAt (Elt F) arg3.view r2_1.toLoadRect (harg3.unread x1))
        (View.readAt (Elt F) arg6.view r2_3.toLoadRect (harg6.unread prev)) = accStep i x0 x1 prev := by
  unfold accStep
  rw [View.readAt_eq_ld, View.readAt_eq_ld, View.readAt_eq_ld, harg2.read_unread, harg3.read_unread, harg6.read_unread]

/-- The same with the accumulator read back after the reset's store. -/
theorem pay2_reset_eq (i : grid2.Coords) {arg2 : Memref sig .tc .vmem S1024 .i32} (harg2 : arg2.IsWhole) {arg3 : Memref sig .tc .vmem S64x1024 .f32} (harg3 : arg3.IsWhole)
    (v : View sig .tc .vmem S64x2048 .f32)
    (x0 : Vec F S1024 .i32) (x1 : Vec F S64x1024 .f32) :
    k2_pay2 i (View.readAt (Elt F) arg2.view r2_0.toLoadRect (harg2.unread x0)) (View.readAt (Elt F) arg3.view r2_1.toLoadRect (harg3.unread x1))
        (v.readCov [(⟨r2_3, k2_pay1 (F := F)⟩ : View.Piece (Elt F) S64x2048 .f32)] r2_3.toLoadRect) = accStep i x0 x1 (k2_pay1 (F := F)) := by
  unfold accStep
  rw [View.readAt_eq_ld, View.readAt_eq_ld, harg2.read_unread, harg3.read_unread, readCov2, ld2]

/-- The output payload over the accumulator read back after its store and the bias load is the output block. -/
theorem pay3_eq {arg4 : Memref sig .tc .vmem S64 .f32} (harg4 : arg4.IsWhole) (v : View sig .tc .vmem S64x2048 .f32)
    (acc : Vec F S64x2048 .f32) (x2 : Vec F S64 .f32) :
    k2_pay3 (v.readCov [(⟨r2_3, acc⟩ : View.Piece (Elt F) S64x2048 .f32)] r2_3.toLoadRect)
        (View.readAt (Elt F) arg4.view r2_2.toLoadRect (harg4.unread x2)) = out2_3 acc x2 := by
  unfold out2_3
  rw [View.canon_unit_zero (S := S64x2048) hz2, readCov2, ld2, View.readAt_eq_ld, harg4.read_unread]

/-! ## The region's invariant before the first point, the scratch named -/

/-- Separating conjunction reassociated, as an equation. -/
theorem sep_assoc_eq {M : Type} [URA M] (P Q R : sProp M) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitr [HR]
    · isplitl [HP]; · iexact HP
      iexact HQ
    iexact HR
  exact BI.equiv_iff.mp ⟨h₁, h₂⟩

/-- What the launch hands the region: the other regions' staging buffers, the scratch accumulator at some contents, and the generator
    register — the scoped rest with its last buffer (the scratch) read as an owned memref. -/
theorem PhiA2_eq (c : Dev nD) :
    (Pipeline.ΦA spec2 c : sProp 𝕄)
      = iprop(otherStg2 (F := F) c ∗ (∃ d, owns (c : Thread nD τ) scM2 fullShare d) ∗ (∃ r, prngReg c r)) := by
  unfold Pipeline.ΦA; rw [scopedRest2_eq]; unfold otherStg2; simp only [scM2, owns_whole]
  simp only [sep_assoc_eq]
  try rfl

/-! ## The body's two conditions over the grid, and where the output window is idle -/

/-- The first `scf.if`'s condition (the edge-block coordinate is 0), from the coordinates. -/
abbrev cond2_0 (i : grid2.Coords) : Prop := (Scalar.cmpi .ne (Scalar.extui (Scalar.cmpi .eq (BitVec.ofNat 32 (i 1).val) 0#32)) 0#32) = 1#1
/-- The second `scf.if`'s condition (the edge-block coordinate is the last, 1220). -/
abbrev cond2_1 (i : grid2.Coords) : Prop := k2_cond2 i = 1#1

/-- The edge axis is the inner one: the edge-block coordinate of position `t` is `t mod 1221`. -/
theorem coord2_1 (t : Fin cfg2.N) : ((grid2.coords t) 1).val = t.val % 1221 := by
  show t.val / grid2.stride 1 % grid2.bound 1 = t.val % 1221
  rw [show grid2.stride 1 = 1 from by decide, show grid2.bound 1 = 1221 from rfl, Nat.div_one]

/-- The two comparisons, over the edge-block coordinate's range. -/
theorem first_iff : ∀ j : Fin 1221,
    (Scalar.cmpi .ne (Scalar.extui (Scalar.cmpi .eq (BitVec.ofNat 32 j.val) 0#32)) 0#32) = 1#1 ↔ j.val = 0 := by decide +kernel
theorem last_iff : ∀ j : Fin 1221,
    (Scalar.cmpi .ne (Scalar.extui (Scalar.cmpi .eq (BitVec.ofNat 32 j.val) 1220#32)) 0#32) = 1#1 ↔ j.val = 1220 := by decide +kernel

/-- So the first condition holds at the positions ≡ 0 (mod 1221), -/
theorem hcond2_0 (t : Fin cfg2.N) : cond2_0 (grid2.coords t) ↔ t.val % 1221 = 0 :=
  (first_iff ((grid2.coords t) 1)).trans (by rw [coord2_1 t])
/-- the second at the positions ≡ 1220 (mod 1221). -/
theorem hcond2_1 (t : Fin cfg2.N) : cond2_1 (grid2.coords t) ↔ t.val % 1221 = 1220 :=
  (last_iff ((grid2.coords t) 1)).trans (by rw [coord2_1 t])

/-- The three input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output window is idle exactly where the second condition fails, -/
theorem idle2_3_of (i : grid2.Coords) (h : ¬cond2_1 i) : cfg2.idle 3 i = true := by
  show (!(k2_cond2 i == 1#1)) = true
  rw [Bool.not_eq_true', beq_eq_false_iff_ne]; exact h
theorem live2_3_of (i : grid2.Coords) (h : cond2_1 i) : cfg2.idle 3 i = false := by
  show (!(k2_cond2 i == 1#1)) = false
  rw [Bool.not_eq_false', beq_iff_eq]; exact h
/-- and is not written back off the last edge block of a node block. -/
theorem noFlush2_3 (t : Fin cfg2.N) (h : ¬t.val % 1221 = 1220) : (cfg2.win 3).flush t = false :=
  Bool.eq_false_iff.mpr fun hf => h ((flush2_3 t).mp hf)

/-! ## The body on whole memrefs, case by case -/

set_option maxHeartbeats 1000000 in
/-- At a point that starts a node block (the first condition holds, the second does not): the body resets the accumulator, adds the
    point's term, and leaves the output block untouched. -/
theorem run2_A (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : cond2_0 i) (hc1 : ¬cond2_1 i)
    (x0 : Vec F S1024 .i32) (x1 : Vec F S64x1024 .f32) (x2 : Vec F S64 .f32) (xi : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep i x0 x1 (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  exact (read_store2 _ _ _ _).trans (pay2_reset_eq i harg2 harg3 _ x0 x1)

set_option maxHeartbeats 1000000 in
/-- At a point inside a node block (neither condition holds): the body adds the point's term to what the point before left, and
    leaves the output block untouched. -/
theorem run2_B (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : ¬cond2_0 i) (hc1 : ¬cond2_1 i)
    (x0 : Vec F S1024 .i32) (x1 : Vec F S64x1024 .f32) (x2 : Vec F S64 .f32) (xi : Vec F S64x2048 .f32) (prev : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep i x0 x1 prev)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  exact (read_store2 _ _ _ _).trans (pay2_eq i harg2 harg3 harg6 x0 x1 prev)

set_option maxHeartbeats 1000000 in
/-- At a point that ends a node block (the second condition holds, the first does not): the body adds the point's term to what the
    point before left and stores the output block, accumulator plus bias. -/
theorem run2_C (c : Dev nD) (i : grid2.Coords) (arg2 : Memref sig .tc .vmem S1024 .i32) (harg2 : arg2.IsWhole) (arg3 : Memref sig .tc .vmem S64x1024 .f32) (harg3 : arg3.IsWhole) (arg4 : Memref sig .tc .vmem S64 .f32) (harg4 : arg4.IsWhole) (arg5 : Memref sig .tc .vmem S64x2048 .f32) (harg5 : arg5.IsWhole) (arg6 : Memref sig .tc .vmem S64x2048 .f32) (harg6 : arg6.IsWhole)
    (hc0 : ¬cond2_0 i) (hc1 : cond2_1 i)
    (x0 : Vec F S1024 .i32) (x1 : Vec F S64x1024 .f32) (x2 : Vec F S64 .f32) (prev : Vec F S64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare (out2_3 (accStep i x0 x1 prev) x2) ∗ owns (c : Thread nD τ) arg6 fullShare (accStep i x0 x1 prev)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (read_store2 _ _ _ _).trans ?_
    rw [pay2_eq i harg2 harg3 harg6 x0 x1 prev]
    exact pay3_eq harg4 _ _ x2
  iexists _; isplitr
  swap; · iexact HS
  ipureintro
  sl_unfold_words
  exact (read_store2 _ _ _ _).trans (pay2_eq i harg2 harg3 harg6 x0 x1 prev)

/-! ## The input windows' buffers hold their blocks -/

/-- An input window's current staging buffer holds the window's block at every point, fetched there or not: the body leaves the block
    in place, and an unfetched window's block index has not moved. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The accumulation, one step at a point -/

/-- At the first edge block of a node block the accumulation starts over zero; -/
theorem acc2_reset (c : Dev nD) (t : Fin cfg2.N) (h0 : t.val % 1221 = 0) :
    acc2 V c t.val t.isLt = accStep (grid2.coords t) (iblk2 V c 0 t) (iblk2 V c 1 t) (k2_pay1 (F := F)) := by
  obtain ⟨n, hn⟩ := t
  cases n with
  | zero => exact acc2_zero V c hn
  | succ n => exact (acc2_succ V c n hn).trans (congrArg (accStep (grid2.coords ⟨n + 1, hn⟩) (iblk2 V c 0 ⟨n + 1, hn⟩) (iblk2 V c 1 ⟨n + 1, hn⟩)) (if_pos h0))

/-- elsewhere it goes on from what the point before left. -/
theorem acc2_step (c : Dev nD) (t : Fin cfg2.N) (h0 : ¬t.val % 1221 = 0) :
    acc2 V c t.val t.isLt = accStep (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (acc2_succ V c n hn).trans (congrArg (accStep (grid2.coords ⟨n + 1, hn⟩) (iblk2 V c 0 ⟨n + 1, hn⟩) (iblk2 V c 1 ⟨n + 1, hn⟩)) (if_neg h0))

/-! ## The body obligation, at a generic point -/

/-- Each window's current staging memref at point `t`, as the pipeline passes it, and its wholeness. -/
abbrev ms2_0 (t : Fin cfg2.N) : Memref sig .tc .vmem S1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)

/-- What the body is called with at point `t`: the invariant, what the core owes, and each window's current buffer at what it holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the position modulo 1221 says which of the three cases the point is in;
    the invariant hands the body the accumulator at what the point before left (at anything at the very first point, and at a node
    block's first edge block its contents are not used) and takes it back one accumulation step further; the output's buffer is handed
    back untouched except at a node block's last edge block, where it holds accumulator plus bias; the other regions' staging buffers
    and the generator register ride along; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 1221 = 0
  · -- a node block's first edge block: reset, then accumulate
    have hc0 : cond2_0 (grid2.coords t) := (hcond2_0 t).mpr h0
    have hc1 : ¬cond2_1 (grid2.coords t) := fun h => by have := (hcond2_1 t).mp h; omega
    rw [Dat.leavesExact_idle (dat2 V c) 3 t (idle2_3_of _ hc1) (noFlush2_3 t (by omega))]
    rw [acc2_reset V c t h0]
    by_cases hz : t.val = 0
    · rw [PhiS2_castSucc V c t, PhiS2_zero V c _ _ hz, PhiA2_eq]
      iintro ⟨⟨Hoth, ⟨%ds, HS⟩, Hg⟩, Ho, ⟨%d0, H0⟩, ⟨%d1, H1⟩, ⟨%d2, H2⟩, ⟨%d3, H3⟩⟩
      iapply (run2_A c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hoth, HS, Hg⟩, Ho, ⟨%d0, H0⟩, ⟨%d1, H1⟩, ⟨%d2, H2⟩, ⟨%d3, H3⟩⟩
      iapply (run2_A c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun e => h0 (by rw [e])
    rw [acc2_step V c t h0]
    rw [PhiS2_castSucc V c t, PhiS2_pos V c _ _ hz]
    by_cases h2 : t.val % 1221 = 1220
    · -- a node block's last edge block: accumulate, then store the output
      have hc1 : cond2_1 (grid2.coords t) := (hcond2_1 t).mpr h2
      rw [show (dat2 V c).leavesExact 3 t = owns (c : Thread nD τ) (ms2_3 t) fullShare ((dat2 V c).after 3 t) from by
        unfold Dat.leavesExact; rw [live2_3_of _ hc1], after2_3, acc2_step V c t h0]
      iintro ⟨⟨Hoth, HS, Hg⟩, Ho, ⟨%d0, H0⟩, ⟨%d1, H1⟩, ⟨%d2, H2⟩, ⟨%d3, H3⟩⟩
      iapply (run2_C c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- inside a node block: accumulate
      have hc1 : ¬cond2_1 (grid2.coords t) := fun h => h2 ((hcond2_1 t).mp h)
      rw [Dat.leavesExact_idle (dat2 V c) 3 t (idle2_3_of _ hc1) (noFlush2_3 t h2)]
      iintro ⟨⟨Hoth, HS, Hg⟩, Ho, ⟨%d0, H0⟩, ⟨%d1, H1⟩, ⟨%d2, H2⟩, ⟨%d3, H3⟩⟩
      iapply (run2_B c (grid2.coords t) (ms2_0 t) (hs2_0 t) (ms2_1 t) (hs2_1 t) (ms2_2 t) (hs2_2 t) (ms2_3 t) (hs2_3 t) scM2 (Memref.isWhole_whole _)
        hc0 hc1 (iblk2 V c 0 t) (iblk2 V c 1 t) (iblk2 V c 2 t) ((dat2 V c).before 3 t d3)
        (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the scratch's contents forgotten. -/
theorem hout2 (c : Dev nD) : (dat2 V c).Φ (Fin.last cfg2.N) ⊢ Pipeline.ΦA spec2 c := by
  have hN : cfg2.N = 30525 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨Hoth, HS, Hg⟩
  isplitl [Hoth]; · iexact Hoth
  isplitl [HS]; · iexists _; iexact HS
  iexact Hg

end Cert.KernelIdeal.Hand

end
-- ==== Proof.KI.Run.lean ====
/-
  The run of the whole program: @main's three kernel regions among its stretches of host operations, from the launch to the return.
  Between two items every unscoped buffer of the core is held at named contents: the launch memory, then each host stretch applied,
  then, after a region, its output array at what the region's write-backs leave (the proof data's `arrAt` at the last point) and every
  other buffer as the region found it. Every weakly fair execution terminates, and the final memory holds the result buffer at the last
  of these contents and every argument as launched.
-/
import proofs.«428513_j63428077027476_3_alg».proof.Proof.KI.R0
import proofs.«428513_j63428077027476_3_alg».proof.Proof.KI.R1
import proofs.«428513_j63428077027476_3_alg».proof.Proof.KI.R2
import proofs.«428513_j63428077027476_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Region 0's entry contents, whole and read at the TensorCore's references. -/
abbrev E0W (c : Dev nD) : Valuation τ sig (Elt F) := V3 m c
abbrev E0 : (c : Dev nD) → (b : Ref sig .tc) → Buf (Elt F) ((c : Thread nD τ).loc b) := fun c b => V3 m c b
/-- After region 0: its output array at what its write-backs leave, every other buffer as entered. -/
def O4 (c : Dev nD) : Valuation τ sig (Elt F) :=
  Function.update (V3 m c) (Proc.devRef .tc main_v3) ((dat0 (E0 m) c).arrAt 2 cfg0.N)
abbrev O4R : (c : Dev nD) → (b : Ref sig .tc) → Buf (Elt F) ((c : Thread nD τ).loc b) := fun c b => O4 m c b
/-- What the regions leave, item by item (read only at the item's output array). -/
def outsA : Outs (F := F) := fun _ r c => O4 m c r

/-- Region 1's entry contents. -/
abbrev E1W (c : Dev nD) : Valuation τ sig (Elt F) := V10 m (outsA m) c
abbrev E1 : (c : Dev nD) → (b : Ref sig .tc) → Buf (Elt F) ((c : Thread nD τ).loc b) := fun c b => V10 m (outsA m) c b
def O11 (c : Dev nD) : Valuation τ sig (Elt F) :=
  Function.update (V10 m (outsA m) c) (Proc.devRef .tc main_v11) ((dat1 (E1 m) c).arrAt 3 cfg1.N)
abbrev O11R : (c : Dev nD) → (b : Ref sig .tc) → Buf (Elt F) ((c : Thread nD τ).loc b) := fun c b => O11 m c b
def outsB : Outs (F := F) := fun j r c => match j with | 4 => O4 m c r | _ => O11 m c r

/-- Region 2's entry contents. -/
abbrev E2W (c : Dev nD) : Valuation τ sig (Elt F) := V11 m (outsB m) c
abbrev E2 : (c : Dev nD) → (b : Ref sig .tc) → Buf (Elt F) ((c : Thread nD τ).loc b) := fun c b => V11 m (outsB m) c b
def O12 (c : Dev nD) : Valuation τ sig (Elt F) :=
  Function.update (V11 m (outsB m) c) (Proc.devRef .tc main_v12) ((dat2 (E2 m) c).arrAt 3 cfg2.N)
abbrev O12R : (c : Dev nD) → (b : Ref sig .tc) → Buf (Elt F) ((c : Thread nD τ).loc b) := fun c b => O12 m c b
/-- What each region leaves in its output array. -/
def outs : Outs (F := F) := fun j r c => match j with | 4 => O4 m c r | 11 => O11 m c r | _ => O12 m c r

theorem O4_self (c : Dev nD) : O4 m c (Proc.devRef .tc main_v3) = (dat0 (E0 m) c).arrAt 2 cfg0.N := by
  unfold O4; exact Function.update_self _ _ _
theorem O4_of (c : Dev nD) (r : Ref sig .tc) (h : r ≠ main_v3) : O4 m c r = V3 m c r := by
  unfold O4
  exact Function.update_of_ne (StableHlo.devRef_ne_of_ne h : (Proc.devRef .tc r : DevRef τ sig) ≠ Proc.devRef .tc main_v3) _ _
theorem O11_self (c : Dev nD) : O11 m c (Proc.devRef .tc main_v11) = (dat1 (E1 m) c).arrAt 3 cfg1.N := by
  unfold O11; exact Function.update_self _ _ _
theorem O11_of (c : Dev nD) (r : Ref sig .tc) (h : r ≠ main_v11) : O11 m c r = V10 m (outsA m) c r := by
  unfold O11
  exact Function.update_of_ne (StableHlo.devRef_ne_of_ne h : (Proc.devRef .tc r : DevRef τ sig) ≠ Proc.devRef .tc main_v11) _ _
theorem O12_self (c : Dev nD) : O12 m c (Proc.devRef .tc main_v12) = (dat2 (E2 m) c).arrAt 3 cfg2.N := by
  unfold O12; exact Function.update_self _ _ _
theorem O12_of (c : Dev nD) (r : Ref sig .tc) (h : r ≠ main_v12) : O12 m c r = V11 m (outsB m) c r := by
  unfold O12
  exact Function.update_of_ne (StableHlo.devRef_ne_of_ne h : (Proc.devRef .tc r : DevRef τ sig) ≠ Proc.devRef .tc main_v12) _ _

theorem V4_eq (c : Dev nD) : V4 m (outs m) c = O4 m c := by
  show Function.update (V3 m c) (Proc.devRef .tc main_v3) (O4 m c (Proc.devRef .tc main_v3)) = O4 m c
  rw [O4_self]; rfl
theorem V10_eq (c : Dev nD) : V10 m (outs m) c = V10 m (outsA m) c := rfl
theorem V11_eq (c : Dev nD) : V11 m (outs m) c = O11 m c := by
  show Function.update (V10 m (outsA m) c) (Proc.devRef .tc main_v11) (O11 m c (Proc.devRef .tc main_v11)) = O11 m c
  rw [O11_self]; rfl
theorem V11_eqB (c : Dev nD) : V11 m (outs m) c = V11 m (outsB m) c := rfl
theorem V12_eq (c : Dev nD) : V12 m (outs m) c = O12 m c := by
  show Function.update (V11 m (outsB m) c) (Proc.devRef .tc main_v12) (O12 m c (Proc.devRef .tc main_v12)) = O12 m c
  rw [O12_self]; rfl

/-! ## The proof data family and the thread state -/

/-- Every pipeline's proof data, each at its region's entry contents (a literal match on the pipeline). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)

/-! ## What each region's arrays hold at its exit -/

theorem hF0 (c : Dev nD) (w : Fin cfg0.W) : (pdats m 0 c).arrAt w cfg0.N = O4R m c (Pipeline.arrRef spec0 w) := by
  match w with
  | ⟨0, _⟩ => exact ((dat0 (E0 m) c).arrAt_in 0 rfl _).trans ((A_eq0 (E0 m) c 0).trans (O4_of m c main_v1 (by decide)).symm)
  | ⟨1, _⟩ => exact ((dat0 (E0 m) c).arrAt_in 1 rfl _).trans ((A_eq0 (E0 m) c 1).trans (O4_of m c main_v2 (by decide)).symm)
  | ⟨2, _⟩ => exact (O4_self m c).symm
theorem hrest0 (c : Dev nD) : ∀ b, b ∉ Finset.univ.image (Pipeline.arrRef spec0) → O4R m c b = E0 m c b := fun b hb =>
  O4_of m c b (fun e => hb (Finset.mem_image.mpr ⟨2, Finset.mem_univ _, e.symm⟩))

theorem hF1 (c : Dev nD) (w : Fin cfg1.W) : (pdats m 1 c).arrAt w cfg1.N = O11R m c (Pipeline.arrRef spec1 w) := by
  match w with
  | ⟨0, _⟩ => exact ((dat1 (E1 m) c).arrAt_in 0 rfl _).trans ((A_eq1 (E1 m) c 0).trans (O11_of m c main_v3 (by decide)).symm)
  | ⟨1, _⟩ => exact ((dat1 (E1 m) c).arrAt_in 1 rfl _).trans ((A_eq1 (E1 m) c 1).trans (O11_of m c main_v8 (by decide)).symm)
  | ⟨2, _⟩ => exact ((dat1 (E1 m) c).arrAt_in 2 rfl _).trans ((A_eq1 (E1 m) c 2).trans (O11_of m c main_v10 (by decide)).symm)
  | ⟨3, _⟩ => exact (O11_self m c).symm
theorem hrest1 (c : Dev nD) : ∀ b, b ∉ Finset.univ.image (Pipeline.arrRef spec1) → O11R m c b = E1 m c b := fun b hb =>
  O11_of m c b (fun e => hb (Finset.mem_image.mpr ⟨3, Finset.mem_univ _, e.symm⟩))

theorem hF2 (c : Dev nD) (w : Fin cfg2.W) : (pdats m 2 c).arrAt w cfg2.N = O12R m c (Pipeline.arrRef spec2 w) := by
  match w with
  | ⟨0, _⟩ => exact ((dat2 (E2 m) c).arrAt_in 0 rfl _).trans ((A_eq2 (E2 m) c 0).trans (O12_of m c main_v9 (by decide)).symm)
  | ⟨1, _⟩ => exact ((dat2 (E2 m) c).arrAt_in 1 rfl _).trans ((A_eq2 (E2 m) c 1).trans (O12_of m c main_v11 (by decide)).symm)
  | ⟨2, _⟩ => exact ((dat2 (E2 m) c).arrAt_in 2 rfl _).trans ((A_eq2 (E2 m) c 2).trans (O12_of m c main_arg1 (by decide)).symm)
  | ⟨3, _⟩ => exact (O12_self m c).symm
theorem hrest2 (c : Dev nD) : ∀ b, b ∉ Finset.univ.image (Pipeline.arrRef spec2) → O12R m c b = E2 m c b := fun b hb =>
  O12_of m c b (fun e => hb (Finset.mem_image.mpr ⟨3, Finset.mem_univ _, e.symm⟩))

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at the contents before it, left at the contents after it;
    its arrays split out of the unscoped buffers and put back at their final contents; the generator register into the region's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (E0W m c) ∗ R c)
  post c := iprop(StableHlo.held (c : Thread nD τ) (Pipeline.ucRefs τ sig) (O4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (O4R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at the contents before it, left at the contents after it;
    its arrays split out of the unscoped buffers and put back at their final contents; the generator register into the region's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1W m c) ∗ R c)
  post c := iprop(StableHlo.held (c : Thread nD τ) (Pipeline.ucRefs τ sig) (O11 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (O11R m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at the contents before it, left at the contents after it;
    its arrays split out of the unscoped buffers and put back at their final contents; the generator register into the region's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (E2W m c) ∗ R c)
  post c := iprop(StableHlo.held (c : Thread nD τ) (Pipeline.ucRefs τ sig) (O12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (E2 m) c)
    unfold Pipeline.ΦA
    iintro ⟨Hp, -, Hr⟩
    isplitl [Hr]; · iexact Hr
    iexact Hp
  hout c := by
    rw [Pipeline.ownSems0_none]
    refine (hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (O12R m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records -/

-- the launch theorem's implicit arguments are found by unifying its conclusion with this one, which takes unfolding
-- plain definitions in a metavariable's type
set_option backward.isDefEq.respectTransparency.types false in
/-- The run of @main from the regions' records: as the frame, with the result buffer read off the last contents as well. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      r.2.mem ((c.tc : Thread nD τ).loc main_v14) = V13 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, .rfl, .rfl, .rfl, .rfl, .rfl, hpre1 c, (hpost1 c).trans (hpre2 c), hpost2 c, sep_mono .rfl (hE3 c)⟩)
    (hinit := ?_) (QY := fun c s => s.mem ((c.tc : Thread nD τ).loc main_v14) = V13 m outs c main_v14 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c)⟩
    · iexact HSI

-- the run's implicit arguments are found by unifying its conclusion with this one, which takes unfolding plain definitions
-- in a metavariable's type
set_option backward.isDefEq.respectTransparency.types false in
/-- THE RUN. From any memory with zero counters every weakly fair execution of @main terminates, nothing faulting; the final memory
    holds the result buffer at the last boundary's contents (the third region's output array transposed and cut, through
    `V13`) and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v14) = V13 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (emb₁ : Emb (URounds (GSem nD τ sig) Unit) 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V4_eq]; exact .rfl)
    (reg1 m) (fun c => .rfl) (fun c => by rw [V11_eq]; exact .rfl)
    (reg2 m) (fun c => .rfl) (fun c => by rw [V12_eq]; exact .rfl)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.KernelIdeal.Hand

end
-- ==== Proof.Val.Host.lean ====
/-
  What the host stretches of the program write, read at an index, at the ideal values.

  Before the first region: the weight array it reads is W (a change of float format, which keeps the value), and its node array
  is x followed by 1200 zero rows.  Between the first and the second region: the source-index array is row 0 of the index
  argument followed by 304 copies of the word 51199 (a node column beyond every real node), the edge-weight array is w followed
  by 304 zeros; the first region's output is still where that region left it.  Between the second and the third region nothing
  is written: the destination-index array is row 1 of the index argument padded the same way, the bias is the argument, and the
  second region's output is where that region left it.  After the third region the result is its output transposed and cut to
  the 50000 real node rows.

  Each fact is the fold of the stretch's operations at the buffer in question, rewritten operation by operation to the
  operations' term over the buffers the stretch found, and then that term read at one index: a pad inside or outside its
  operand, a slice, a cast that drops a unit axis, a transpose.
-/
import proofs.«428513_j63428077027476_3_alg».proof.Proof.Gen.KernelIdeal.Regions
import Idealize.ShloMosaic.Lib.StableHlo.Run
import Idealize.ShloMosaic.Lib.KernelVsHost
import Idealize.ShloMosaic.Lib.Pipeline.Value
import Idealize.ShloMosaic.Lib.ValueLayout
import Idealize.ShloMosaic.Lib.ValueIdx
import Idealize.ShloMosaic.PureOps.Ideal

noncomputable section

namespace Cert.KernelIdeal.HandVal

open Idealize.ShloMosaic Idealize.ShloMosaic.TcCoe Idealize.SL.Sem Idealize.ShloMosaic.ValueIdx Cert.KernelIdeal Cert.KernelIdeal.Gen
open Idealize.ShloMosaic.StableHlo (after_cons after_nil)

variable (m : (ℓ : Loc nD τ sig) → Buf (Elt Ideal) ℓ) (outs : Outs (F := Ideal)) (c : Dev nD)

/-! ## Before the first region -/

/-- The weight array the first region reads is W. -/
theorem host_v2 : (V3 m c main_v2 : S64x256.Idx → EReal) = (m ((c : Thread nD τ).loc main_arg0) : S64x256.Idx → EReal) := by
  dsimp only [V3]; simp only [hostOps0_2]; after_results; rfl

/-- The node array the first region reads is x padded with 1200 zero rows. -/
theorem host_v1 (n : Fin 51200) (k : Fin 256) :
    (V3 m c main_v1 : S51200x256.Idx → EReal) (ix2 n k) = if h : n.val < 50000 then (m ((c : Thread nD τ).loc main_arg4) : S50000x256.Idx → EReal) (ix2 ⟨n.val, h⟩ k) else (0 : EReal) := by
  have t : (V3 m c main_v1 : S51200x256.Idx → EReal)
      = pad S51200x256 ![0, 0] ![1200, 0] ![0, 0] (m ((c : Thread nD τ).loc main_arg4) : S50000x256.Idx → EReal)
          (sitofp (F := Ideal) .f32 (constantI S_ 32 0#32)) pads_S50000x256_S51200x256_012000_000 h_S_ := by
    dsimp only [V3]; simp only [hostOps0_2, hostOps0_1, hostOps0]; after_results; rfl
  rw [t]
  by_cases h : n.val < 50000
  · rw [dif_pos h]
    exact pad_apply_of_inside _ _ _ _ _ _ _ _ (ix2 ⟨n.val, h⟩ k) fun a => match a with
      | ⟨0, _⟩ => by show n.val = 0 + n.val * (0 + 1); omega
      | ⟨1, _⟩ => by show k.val = 0 + k.val * (0 + 1); omega
  · rw [dif_neg h, pad_apply_of_not_inside _ _ _ _ _ _ _ _ (0 : Fin 2)
      (by show ¬(0 ≤ n.val ∧ (n.val - 0) % (0 + 1) = 0 ∧ (n.val - 0) / (0 + 1) < 50000); omega)]
    show (((0#32 : BitVec 32).toInt : ℝ) : EReal) = 0
    simp

/-! ## Between the first region and the second -/

/-- No item between the launch and the first region's exit writes the index argument. -/
theorem V4_arg2 : V4 m outs c main_arg2 = m ((c : Thread nD τ).loc main_arg2) :=
  (V4_of m outs c main_arg2 (by decide)).trans <| (V3_of m c main_arg2 (by decide)).trans <|
    (V2_of m c main_arg2 (by decide)).trans <| (V1_of m c main_arg2 (by decide)).trans rfl
/-- Nor the edge-weight argument. -/
theorem V4_arg3 : V4 m outs c main_arg3 = m ((c : Thread nD τ).loc main_arg3) :=
  (V4_of m outs c main_arg3 (by decide)).trans <| (V3_of m c main_arg3 (by decide)).trans <|
    (V2_of m c main_arg3 (by decide)).trans <| (V1_of m c main_arg3 (by decide)).trans rfl

/-- The source-index array the second region reads is idx[0, ·] padded with 304 words 51199. -/
theorem host_v8 (e : Fin 1250304) :
    (V10 m outs c main_v8 : S1250304.Idx → BitVec 32) (ix1 e) = if h : e.val < 1250000 then (m ((c : Thread nD τ).loc main_arg2) : S2x1250000.Idx → BitVec 32) (ix2 (0 : Fin 2) ⟨e.val, h⟩) else 51199#32 := by
  have t : (V10 m outs c main_v8 : S1250304.Idx → BitVec 32)
      = pad S1250304 ![0] ![304] ![0]
          (shapeCast S1250000 (extractStridedSlice S1x1250000 ![0, 0] (V4 m outs c main_arg2 : S2x1250000.Idx → BitVec 32)
            slices_S2x1250000_S1x1250000_0_0) shapeCasts_S1x1250000_S1250000)
          (constantI S_ 32 51199#32) pads_S1250000_S1250304_03040 h_S_ := by
    dsimp only [V10, V9, V8, V7, V6, V5]
    simp only [hostOps1_5, hostOps1_4, hostOps1_3, hostOps1_2, hostOps1_1, hostOps1]; after_results; rfl
  rw [t, V4_arg2]
  by_cases h : e.val < 1250000
  · rw [dif_pos h]
    exact (pad_apply_of_inside _ _ _ _ _ _ _ _ (ix1 ⟨e.val, h⟩) fun a => match a with
      | ⟨0, _⟩ => by show e.val = 0 + e.val * (0 + 1); omega).trans
      ((shapeCast_1a_a_apply _ _ _).trans (slice2_axis0_apply 0 _ _ _ _ (0 : Fin 2) rfl))
  · rw [dif_neg h, pad_apply_of_not_inside _ _ _ _ _ _ _ _ (0 : Fin 1)
      (by show ¬(0 ≤ e.val ∧ (e.val - 0) % (0 + 1) = 0 ∧ (e.val - 0) / (0 + 1) < 1250000); omega)]
    rfl

/-- The edge-weight array the second region reads is w padded with 304 zeros. -/
theorem host_v10 (e : Fin 1250304) :
    (V10 m outs c main_v10 : S1250304.Idx → EReal) (ix1 e) = if h : e.val < 1250000 then (m ((c : Thread nD τ).loc main_arg3) : S1250000.Idx → EReal) (ix1 ⟨e.val, h⟩) else (0 : EReal) := by
  have t : (V10 m outs c main_v10 : S1250304.Idx → EReal)
      = pad S1250304 ![0] ![304] ![0] (V4 m outs c main_arg3 : S1250000.Idx → EReal)
          (constant (F := Ideal) S_ .f32 0x00000000#32) pads_S1250000_S1250304_03040 h_S_ := by
    dsimp only [V10, V9, V8, V7, V6, V5]
    simp only [hostOps1_5, hostOps1_4, hostOps1_3, hostOps1_2, hostOps1_1, hostOps1]; after_results; rfl
  rw [t, V4_arg3]
  by_cases h : e.val < 1250000
  · rw [dif_pos h]
    exact pad_apply_of_inside _ _ _ _ _ _ _ _ (ix1 ⟨e.val, h⟩) fun a => match a with
      | ⟨0, _⟩ => by show e.val = 0 + e.val * (0 + 1); omega
  · rw [dif_neg h, pad_apply_of_not_inside _ _ _ _ _ _ _ _ (0 : Fin 1)
      (by show ¬(0 ≤ e.val ∧ (e.val - 0) % (0 + 1) = 0 ∧ (e.val - 0) / (0 + 1) < 1250000); omega)]
    exact Ideal.ofBits_zero_f32

/-- The second region finds the first region's output where the first region left it. -/
theorem host_v3 : V10 m outs c main_v3 = outs 4 main_v3 c :=
  (V10_of m outs c main_v3 (by decide)).trans <| (V9_of m outs c main_v3 (by decide)).trans <|
    (V8_of m outs c main_v3 (by decide)).trans <| (V7_of m outs c main_v3 (by decide)).trans <|
    (V6_of m outs c main_v3 (by decide)).trans <| (V5_of m outs c main_v3 (by decide)).trans (Function.update_self ..)

/-! ## Between the second region and the third -/

/-- The destination-index array the third region reads is idx[1, ·] padded with 304 words 51199. -/
theorem host_v9 (e : Fin 1250304) :
    (V11 m outs c main_v9 : S1250304.Idx → BitVec 32) (ix1 e) = if h : e.val < 1250000 then (m ((c : Thread nD τ).loc main_arg2) : S2x1250000.Idx → BitVec 32) (ix2 (1 : Fin 2) ⟨e.val, h⟩) else 51199#32 := by
  have t : (V10 m outs c main_v9 : S1250304.Idx → BitVec 32)
      = pad S1250304 ![0] ![304] ![0]
          (shapeCast S1250000 (extractStridedSlice S1x1250000 ![1, 0] (V4 m outs c main_arg2 : S2x1250000.Idx → BitVec 32)
            slices_S2x1250000_S1x1250000_1_0) shapeCasts_S1x1250000_S1250000)
          (constantI S_ 32 51199#32) pads_S1250000_S1250304_03040 h_S_ := by
    dsimp only [V10, V9, V8, V7, V6, V5]
    simp only [hostOps1_5, hostOps1_4, hostOps1_3, hostOps1_2, hostOps1_1, hostOps1]; after_results; rfl
  rw [V11_of m outs c main_v9 (by decide), t, V4_arg2]
  by_cases h : e.val < 1250000
  · rw [dif_pos h]
    exact (pad_apply_of_inside _ _ _ _ _ _ _ _ (ix1 ⟨e.val, h⟩) fun a => match a with
      | ⟨0, _⟩ => by show e.val = 0 + e.val * (0 + 1); omega).trans
      ((shapeCast_1a_a_apply _ _ _).trans (slice2_axis0_apply 1 _ _ _ _ (1 : Fin 2) rfl))
  · rw [dif_neg h, pad_apply_of_not_inside _ _ _ _ _ _ _ _ (0 : Fin 1)
      (by show ¬(0 ≤ e.val ∧ (e.val - 0) % (0 + 1) = 0 ∧ (e.val - 0) / (0 + 1) < 1250000); omega)]
    rfl

/-- The bias the third region reads is the argument. -/
theorem host_arg1 : (V11 m outs c main_arg1 : S64.Idx → EReal) = (m ((c : Thread nD τ).loc main_arg1) : S64.Idx → EReal) :=
  (V11_of m outs c main_arg1 (by decide)).trans <| (V10_of m outs c main_arg1 (by decide)).trans <|
    (V9_of m outs c main_arg1 (by decide)).trans <| (V8_of m outs c main_arg1 (by decide)).trans <|
    (V7_of m outs c main_arg1 (by decide)).trans <| (V6_of m outs c main_arg1 (by decide)).trans <|
    (V5_of m outs c main_arg1 (by decide)).trans <| (V4_of m outs c main_arg1 (by decide)).trans <|
    (V3_of m c main_arg1 (by decide)).trans <| (V2_of m c main_arg1 (by decide)).trans <|
    (V1_of m c main_arg1 (by decide)).trans rfl

/-- The third region finds the second region's output where the second region left it. -/
theorem host_v11 : V11 m outs c main_v11 = outs 11 main_v11 c := Function.update_self ..

/-! ## After the third region -/

/-- The result is the third region's output transposed and cut to the 50000 node rows. -/
theorem host_v14 (n : Fin 50000) (d : Fin 64) :
    (V13 m outs c main_v14 : S50000x64.Idx → EReal) (ix2 n d) = (outs 12 main_v12 c : S64x51200.Idx → EReal) (ix2 d ⟨n.val, by omega⟩) := by
  have t : (V13 m outs c main_v14 : S50000x64.Idx → EReal)
      = extractStridedSlice S50000x64 ![0, 0]
          (transpose S51200x64 [1, 0] (V12 m outs c main_v12 : S64x51200.Idx → EReal) transposes_S64x51200_S51200x64_1_0)
          slices_S51200x64_S50000x64_0_0 := by
    dsimp only [V13]; simp only [hostOps3]; after_results
  rw [t, show V12 m outs c main_v12 = outs 12 main_v12 c from Function.update_self ..]
  refine (slice2_axis0_apply 0 _ _ n d (⟨n.val, by omega⟩ : Fin 51200) (Nat.zero_add _).symm).trans ?_
  exact transpose_ix2_apply _ _ _ _

end Cert.KernelIdeal.HandVal

end
-- ==== Proof.Val.Arr0.lean ====
/-
  What region 0 leaves in its output array: h_T = W · x_padᵀ.

  The region walks 50 blocks of 1024 node rows. At point t the body multiplies the whole weight array W (64 × 256) with the
  t-th block of node rows of x_pad (1024 × 256), both contracted on their second axis, into a zero accumulator, and stores the
  64 × 1024 product as columns 1024 t … 1024 t + 1023 of the output. Over the extended reals the format changes are the identity
  and the product into zero is the plain sum, so the block stored at point t is the restriction to those columns of the one
  function (d, n) ↦ Σ_k W[d, k] · x_pad[n, k]; the 50 blocks tile the 51200 columns, so the array ends holding that function.
-/
import proofs.«428513_j63428077027476_3_alg».proof.Proof.KI.Dats
import proofs.«428513_j63428077027476_3_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.TcCoe Idealize.SL.Sem Idealize.ShloMosaic.ValueIdx Cert.KernelIdeal Cert.KernelIdeal.Gen Cert.KernelIdeal.Hand
open Idealize.ShloMosaic.Pipeline (Dat)

/-! ## The block product's operand indices, axis by axis -/

theorem arr0_lhs_0 (i : S64x1024.Idx) (q : dot_S64x256_S1024x256_S64x1024_1_1_0_0_n_n.contr.Idx) :
    (dot_S64x256_S1024x256_S64x1024_1_1_0_0_n_n.lhsIdx i q 0).val = (i 0).val := by
  unfold DotDims.lhsIdx
  rw [dif_neg (show ¬(0 : Fin S64x256.rank) ∈ dot_S64x256_S1024x256_S64x1024_1_1_0_0_n_n.lhsBatch by decide),
    dif_pos (show (0 : Fin S64x256.rank) ∈ dot_S64x256_S1024x256_S64x1024_1_1_0_0_n_n.lhsNonContracting by decide)]
  rfl

theorem arr0_lhs_1 (i : S64x1024.Idx) (q : dot_S64x256_S1024x256_S64x1024_1_1_0_0_n_n.contr.Idx) :
    (dot_S64x256_S1024x256_S64x1024_1_1_0_0_n_n.lhsIdx i q 1).val = (q ⟨0, by decide⟩).val :=
  dot_S64x256_S1024x256_S64x1024_1_1_0_0_n_n.lhsIdx_val_of_single rfl i q

theorem arr0_rhs_0 (i : S64x1024.Idx) (q : dot_S64x256_S1024x256_S64x1024_1_1_0_0_n_n.contr.Idx) :
    (dot_S64x256_S1024x256_S64x1024_1_1_0_0_n_n.rhsIdx i q 0).val = (i 1).val := by
  unfold DotDims.rhsIdx
  rw [dif_neg (show ¬(0 : Fin S1024x256.rank) ∈ dot_S64x256_S1024x256_S64x1024_1_1_0_0_n_n.rhsBatch by decide),
    dif_pos (show (0 : Fin S1024x256.rank) ∈ dot_S64x256_S1024x256_S64x1024_1_1_0_0_n_n.rhsNonContracting by decide)]
  rfl

theorem arr0_rhs_1 (i : S64x1024.Idx) (q : dot_S64x256_S1024x256_S64x1024_1_1_0_0_n_n.contr.Idx) :
    (dot_S64x256_S1024x256_S64x1024_1_1_0_0_n_n.rhsIdx i q 1).val = (q ⟨0, by decide⟩).val :=
  dot_S64x256_S1024x256_S64x1024_1_1_0_0_n_n.rhsIdx_val_of_single rfl i q

/-- The body's payload at (d, i): the weight block's row d against the node block's row i. -/
theorem k0_pay1_apply (v0 : Vec Ideal S64x256 .bf16) (v2 : Vec Ideal S1024x256 .bf16) (d : Fin 64) (i : Fin 1024) :
    k0_pay1 v0 v2 (ix2 d i) = ∑ k : Fin 256, (v0 : S64x256.Idx → EReal) (ix2 d k) * (v2 : S1024x256.Idx → EReal) (ix2 i k) := by
  unfold k0_pay1
  refine (truncf_apply (ψ := .bf16) _ bitsLt_bf16_f32 (ix2 d i)).trans ?_
  simp only [matmul, shapeCast_self]
  rw [Ideal.matmul_constant_zero_apply,
    ← Equiv.sum_comp (contrEquiv1 dot_S64x256_S1024x256_S64x1024_1_1_0_0_n_n 256 rfl rfl).symm]
  refine Finset.sum_congr rfl fun k _ => ?_
  have hk := contrEquiv1_symm_val dot_S64x256_S1024x256_S64x1024_1_1_0_0_n_n 256 rfl rfl k
  have el : dot_S64x256_S1024x256_S64x1024_1_1_0_0_n_n.lhsIdx (ix2 d i)
      ((contrEquiv1 dot_S64x256_S1024x256_S64x1024_1_1_0_0_n_n 256 rfl rfl).symm k) = ix2 d k :=
    funext fun a => Fin.ext (by
      match a with
      | ⟨0, _⟩ => exact arr0_lhs_0 _ _
      | ⟨1, _⟩ => exact (arr0_lhs_1 _ _).trans hk)
  have er : dot_S64x256_S1024x256_S64x1024_1_1_0_0_n_n.rhsIdx (ix2 d i)
      ((contrEquiv1 dot_S64x256_S1024x256_S64x1024_1_1_0_0_n_n 256 rfl rfl).symm k) = ix2 i k :=
    funext fun a => Fin.ext (by
      match a with
      | ⟨0, _⟩ => exact arr0_rhs_0 _ _
      | ⟨1, _⟩ => exact (arr0_rhs_1 _ _).trans hk)
  rw [el, er]

/-! ## The blocks of region 0 read off the arrays -/

variable (V : (c : Dev nD) → (b : Ref sig .tc) → Buf (Elt Ideal) ((c : Thread nD τ).loc b))

theorem arr0_origin : (![0, 0] : Fin 2 → Nat) = fun _ => 0 := funext fun a => by fin_cases a <;> rfl

/-- The block indices over the grid: the node window walks the rows, the weight window stays, the output window walks the columns. -/
theorem arr0_blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The node block at point t is rows 1024 t … 1024 t + 1023 of the node array. -/
theorem arr0_nodeBlock_apply (c : Dev nD) (t : Fin cfg0.N) (x : S1024x256.Idx) (k : S51200x256.Idx)
    (hk0 : (k 0).val = 1024 * t.val + (x 0).val) (hk1 : (k 1).val = (x 1).val) :
    (iblk0 V c 0 t : S1024x256.Idx → EReal) x = (V c main_v1 : S51200x256.Idx → EReal) k := by
  obtain ⟨e0, e1, -, -, -, -⟩ := arr0_blockIndices t
  unfold iblk0
  rw [View.read_apply]
  show (V c main_v1 : S51200x256.Idx → EReal) _ = (V c main_v1 : S51200x256.Idx → EReal) k
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- The weight block at every point is the weight array. -/
theorem arr0_weightBlock_apply (c : Dev nD) (t : Fin cfg0.N) (x : S64x256.Idx) (k : S64x256.Idx)
    (hk0 : (k 0).val = (x 0).val) (hk1 : (k 1).val = (x 1).val) :
    (iblk0 V c 1 t : S64x256.Idx → EReal) x = (V c main_v2 : S64x256.Idx → EReal) k := by
  obtain ⟨-, -, e2, e3, -, -⟩ := arr0_blockIndices t
  unfold iblk0
  rw [View.read_apply]
  show (V c main_v2 : S64x256.Idx → EReal) _ = (V c main_v2 : S64x256.Idx → EReal) k
  congr 1
  funext a
  apply Fin.ext
  match a with
  | ⟨0, _⟩ => show win0_1.index t (0 : Fin 2) * 64 + 1 * (x 0).val = (k 0).val; rw [e2, hk0]; omega
  | ⟨1, _⟩ => show win0_1.index t (1 : Fin 2) * 256 + 1 * (x 1).val = (k 1).val; rw [e3, hk1]; omega

/-! ## What each point writes back, the cover, the array -/

/-- W · x_padᵀ as one function of the two arrays, index by index. -/
abbrev arr0_hT (W : S64x256.Idx → EReal) (X : S51200x256.Idx → EReal) : S64x51200.Idx → EReal :=
  fun j => ∑ k : Fin 256, W (ix2 (j 0) k) * X (ix2 (j 1) k)

/-- What point t writes back is block t of W · x_padᵀ. -/
theorem arr0_flushed_eq (c : Dev nD) (t : Fin cfg0.N) :
    (dat0 (F := Ideal) V c).flushed 2 t
      = ((cfg0.win 2).blk t).view.read (Elt Ideal) (arr0_hT (V c main_v2) (V c main_v1)) := by
  show (cfg0.win 2).cut (grid0.coords t) ((dat0 (F := Ideal) V c).after 2 t) = _
  rw [after0_2]
  unfold out0_2
  rw [View.canon_unit_zero arr0_origin]
  simp only [View.ld_unit_zero (S := S64x256) arr0_origin, View.ld_unit_zero (S := S1024x256) arr0_origin]
  obtain ⟨-, -, -, -, e4, e5⟩ := arr0_blockIndices t
  funext y
  obtain ⟨d, i, rfl⟩ : ∃ (d : Fin 64) (i : Fin 1024), y = ix2 d i := ⟨y 0, y 1, eq_ix2 y⟩
  rw [View.read_apply]
  refine (k0_pay1_apply (iblk0 V c 1 t) (iblk0 V c 0 t) d i).trans ?_
  have h0 : ((((cfg0.win 2).blk t).view.emb (ix2 d i)) 0).val = d.val := by
    show win0_2.index t (0 : Fin 2) * 64 + 1 * d.val = d.val; rw [e4]; omega
  have h1 : ((((cfg0.win 2).blk t).view.emb (ix2 d i)) 1).val = 1024 * t.val + i.val := by
    show win0_2.index t (1 : Fin 2) * 1024 + 1 * i.val = 1024 * t.val + i.val; rw [e5]; omega
  refine Finset.sum_congr rfl fun k _ => ?_
  exact congrArg₂ (· * ·) (arr0_weightBlock_apply V c t (ix2 d k) _ h0 rfl) (arr0_nodeBlock_apply V c t (ix2 i k) _ h1 rfl)

/-- An index of the array is in point t's block iff each coordinate is in the block's range on its axis. -/
theorem arr0_mem_blk (t : Fin cfg0.N) (i : S64x51200.Idx) :
    i ∈ ((cfg0.win 2).blk t).view.set ↔ ∀ a : Fin 2, win0_2.index t a * S64x1024.size a ≤ (i a).val
      ∧ (i a).val < win0_2.index t a * S64x1024.size a + S64x1024.size a := by
  show i ∈ ((View.whole main_v3).slice (win0_2.rect t)).set ↔ _
  rw [View.set_slice_whole, Rect.mem_set_unit]
  exact Iff.rfl

/-- Column n is in the block of point n / 1024. -/
theorem arr0_cover (i : S64x51200.Idx) :
    ∃ t : Fin cfg0.N, (cfg0.win 2).flush t = true ∧ i ∈ ((cfg0.win 2).blk t).view.set := by
  have hi0 : (i 0).val < 64 := (i 0).isLt
  have hi1 : (i 1).val < 51200 := (i 1).isLt
  obtain ⟨t, ht⟩ : ∃ t : Fin cfg0.N, t.val = (i 1).val / 1024 :=
    ⟨⟨(i 1).val / 1024, by show (i 1).val / 1024 < 50; omega⟩, rfl⟩
  obtain ⟨-, -, -, -, e4, e5⟩ := arr0_blockIndices t
  refine ⟨t, flush0_2 t, ?_⟩
  rw [arr0_mem_blk]
  intro a
  match a with
  | ⟨0, _⟩ =>
    show win0_2.index t (0 : Fin 2) * 64 ≤ (i 0).val ∧ (i 0).val < win0_2.index t (0 : Fin 2) * 64 + 64
    rw [e4]; omega
  | ⟨1, _⟩ =>
    show win0_2.index t (1 : Fin 2) * 1024 ≤ (i 1).val ∧ (i 1).val < win0_2.index t (1 : Fin 2) * 1024 + 1024
    rw [e5]; omega

/-- After region 0 the output array holds, at (d, n), Σ_k W[d, k] · x_pad[n, k] (W = the array of window 1, x_pad of window 0). -/
theorem arr0_final (c : Dev nD) :
    (dat0 (F := Ideal) V c).arrAt 2 cfg0.N = arr0_hT (V c main_v2) (V c main_v1) :=
  (dat0 (F := Ideal) V c).arrAt_eq_of_cover 2 (arr0_hT (V c main_v2) (V c main_v1))
    (fun t _ => arr0_flushed_eq V c t) arr0_cover

/-- W · x_padᵀ at explicit coordinates. -/
theorem arr0_hT_apply (W : S64x256.Idx → EReal) (X : S51200x256.Idx → EReal) (d : Fin 64) (n : Fin 51200) :
    arr0_hT W X (ix2 d n) = ∑ k : Fin 256, W (ix2 d k) * X (ix2 n k) := rfl

/-- The same at explicit coordinates. -/
theorem arr0_final_apply (c : Dev nD) (d : Fin 64) (n : Fin 51200) :
    (dat0 (F := Ideal) V c).arrAt 2 cfg0.N (ix2 d n) = arr0_hT (V c main_v2) (V c main_v1) (ix2 d n) :=
  congrFun (arr0_final V c) (ix2 d n)

end Cert.KernelIdeal.HandVal

end
-- ==== Proof.Val.Arr1.lean ====
/-
  What region 1 leaves in its output array: msg_T[d, e] = h_T[d, src[e]] · w[e], the gather done as a one-hot matrix product.

  The body cuts the 51200 resident node columns of h_T into eight slices of 6400. For slice k it builds the one-hot matrix
  whose (i, j) entry is 1 where row number i equals the source word of edge j minus 6400·k (a wrapping 32-bit subtraction and
  an equality of words) and 0 elsewhere, and multiplies the slice by it; the eight products are added onto zero and the sum is
  scaled by the edge weights. Read at (d, j): the sum over the 6400 rows of slice k against a one-hot column has at most one
  non-zero term (x · 1 = x and x · 0 = 0 hold for every extended real), namely column src[j] of h_T when
  6400·k ≤ src[j] < 6400·(k + 1) read signed; the eight ranges tile [0, 51200), so the eight slices together select column
  src[j] when 0 ≤ src[j] < 51200 and contribute 0 for any other word. Every grid point t writes back block (0, t) of the output,
  which is that function of the resident array and of blocks t of the source words and the edge weights; edge column e lies
  in the block of point e / 256, so the blocks cover the array.
-/
import proofs.«428513_j63428077027476_3_alg».proof.Proof.KI.Dats
import proofs.«428513_j63428077027476_3_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.TcCoe Idealize.SL.Sem Idealize.ShloMosaic.ValueIdx Cert.KernelIdeal Cert.KernelIdeal.Gen Cert.KernelIdeal.Hand

/-! ## Words -/

/-- A row number below 6400 equals the source word minus 6400·k (wrapping) exactly when the word, read signed, is 6400·k + that row. -/
theorem arr1_row_eq_sub_iff (k : Fin 8) (s : BitVec 32) (i : Fin 6400) :
    BitVec.ofNat 32 i.val = s - BitVec.ofNat 32 (6400 * k.val) ↔ s.toInt = 6400 * (k.val : ℤ) + (i.val : ℤ) := by
  have hi := i.isLt
  have hk := k.isLt
  have hs := s.isLt
  constructor
  · intro h
    have h' := congrArg BitVec.toNat h
    rw [BitVec.toNat_sub, BitVec.toNat_ofNat, BitVec.toNat_ofNat] at h'
    rw [BitVec.toInt_eq_toNat_cond]
    omega
  · intro h
    apply BitVec.eq_of_toNat_eq
    rw [BitVec.toNat_sub, BitVec.toNat_ofNat, BitVec.toNat_ofNat]
    rw [BitVec.toInt_eq_toNat_cond] at h
    omega

/-! ## The contraction -/

theorem arr1_lhs_0 (i : S64x256.Idx) (q : dot_S64x6400_S6400x256_S64x256_1_0_0_1_n_n.contr.Idx) :
    (dot_S64x6400_S6400x256_S64x256_1_0_0_1_n_n.lhsIdx i q 0).val = (i 0).val := by
  unfold DotDims.lhsIdx
  rw [dif_neg (show ¬(0 : Fin S64x6400.rank) ∈ dot_S64x6400_S6400x256_S64x256_1_0_0_1_n_n.lhsBatch by decide),
    dif_pos (show (0 : Fin S64x6400.rank) ∈ dot_S64x6400_S6400x256_S64x256_1_0_0_1_n_n.lhsNonContracting by decide)]
  rfl
theorem arr1_lhs_1 (i : S64x256.Idx) (q : dot_S64x6400_S6400x256_S64x256_1_0_0_1_n_n.contr.Idx) :
    (dot_S64x6400_S6400x256_S64x256_1_0_0_1_n_n.lhsIdx i q 1).val = (q ⟨0, by decide⟩).val :=
  dot_S64x6400_S6400x256_S64x256_1_0_0_1_n_n.lhsIdx_val_of_single rfl i q
theorem arr1_rhs_0 (i : S64x256.Idx) (q : dot_S64x6400_S6400x256_S64x256_1_0_0_1_n_n.contr.Idx) :
    (dot_S64x6400_S6400x256_S64x256_1_0_0_1_n_n.rhsIdx i q 0).val = (q ⟨0, by decide⟩).val :=
  dot_S64x6400_S6400x256_S64x256_1_0_0_1_n_n.rhsIdx_val_of_single rfl i q
theorem arr1_rhs_1 (i : S64x256.Idx) (q : dot_S64x6400_S6400x256_S64x256_1_0_0_1_n_n.contr.Idx) :
    (dot_S64x6400_S6400x256_S64x256_1_0_0_1_n_n.rhsIdx i q 1).val = (i 1).val := by
  unfold DotDims.rhsIdx
  rw [dif_neg (show ¬(1 : Fin S6400x256.rank) ∈ dot_S64x6400_S6400x256_S64x256_1_0_0_1_n_n.rhsBatch by decide),
    dif_pos (show (1 : Fin S6400x256.rank) ∈ dot_S64x6400_S6400x256_S64x256_1_0_0_1_n_n.rhsNonContracting by decide)]
  rfl

/-- A [64, 6400] × [6400, 256] product into the zero accumulator, at (d, j): the sum over the 6400 rows. -/
theorem arr1_mm_apply (A : FVec Ideal S64x6400 .bf16) (B : FVec Ideal S6400x256 .bf16) (d : Fin 64) (j : Fin 256) :
    matmul dot_S64x6400_S6400x256_S64x256_1_0_0_1_n_n none A B (constant S64x256 .f32 0x00000000#32) (ix2 d j)
      = ∑ i : Fin 6400, A (ix2 d i) * B (ix2 i j) := by
  simp only [matmul]
  rw [Ideal.matmul_constant_zero_apply,
    ← Equiv.sum_comp (contrEquiv1 dot_S64x6400_S6400x256_S64x256_1_0_0_1_n_n 6400 rfl rfl).symm]
  refine Finset.sum_congr rfl fun k _ => ?_
  have hk := contrEquiv1_symm_val dot_S64x6400_S6400x256_S64x256_1_0_0_1_n_n 6400 rfl rfl k
  have el : dot_S64x6400_S6400x256_S64x256_1_0_0_1_n_n.lhsIdx (ix2 d j)
      ((contrEquiv1 dot_S64x6400_S6400x256_S64x256_1_0_0_1_n_n 6400 rfl rfl).symm k) = ix2 d k :=
    funext fun a => Fin.ext (by
      match a with
      | ⟨0, _⟩ => exact arr1_lhs_0 _ _
      | ⟨1, _⟩ => exact (arr1_lhs_1 _ _).trans hk)
  have er : dot_S64x6400_S6400x256_S64x256_1_0_0_1_n_n.rhsIdx (ix2 d j)
      ((contrEquiv1 dot_S64x6400_S6400x256_S64x256_1_0_0_1_n_n 6400 rfl rfl).symm k) = ix2 k j :=
    funext fun a => Fin.ext (by
      match a with
      | ⟨0, _⟩ => exact (arr1_rhs_0 _ _).trans hk
      | ⟨1, _⟩ => exact arr1_rhs_1 _ _)
  rw [el, er]

/-! ## The one-hot operand -/

/-- The one-hot operand at (i, j): 1 where row number i is the word of column j, else 0. -/
theorem arr1_oneHot_apply (u : IVec S1x256 32) (i : Fin 6400) (j : Fin 256) :
    (truncf .bf16 (sitofp .f32 (extui 32 (cmpi .eq (iota .tc S6400x256 32 [0] iota_S6400x256_d0_w32)
        (broadcastTo S6400x256 u broadcasts_S1x256_S6400x256)) natLt_1_32)) bitsLt_bf16_f32 : FVec Ideal S6400x256 .bf16) (ix2 i j)
      = if BitVec.ofNat 32 i.val = u (ix2 (0 : Fin 1) j) then 1 else 0 := by
  show FloatOps.sitofp (F := Ideal) .f32 ((IntOp.cmpi .eq (iota .tc S6400x256 32 [0] iota_S6400x256_d0_w32 (ix2 i j))
        (broadcastTo S6400x256 u broadcasts_S1x256_S6400x256 (ix2 i j))).setWidth 32) = _
  rw [iota_single_apply, broadcastTo_1b_ab_apply]
  show (((((BitVec.ofBool (BitVec.ofNat 32 i.val == u (ix2 (0 : Fin 1) j))).setWidth 32).toInt : ℝ) : EReal)) = _
  by_cases h : BitVec.ofNat 32 i.val = u (ix2 (0 : Fin 1) j)
  · rw [if_pos h, beq_iff_eq.mpr h, show ((BitVec.ofBool true).setWidth 32).toInt = 1 from by decide]
    norm_num
  · rw [if_neg h, beq_eq_false_iff_ne.mpr h, show ((BitVec.ofBool false).setWidth 32).toInt = 0 from by decide]
    norm_num

/-! ## One slice of the gather -/

/-- The one-hot operand for the row words `u`: 1 at (i, j) where row number i is the word of column j. -/
def arr1_oneHot {F : FTy → Type} [FloatOps F] (u : IVec S1x256 32) : FVec F S6400x256 .bf16 :=
  truncf .bf16 (sitofp .f32 (extui 32 (cmpi .eq (iota .tc S6400x256 32 [0] iota_S6400x256_d0_w32)
    (broadcastTo S6400x256 u broadcasts_S1x256_S6400x256)) natLt_1_32)) bitsLt_bf16_f32

/-- One slice's product with its one-hot operand, into the zero accumulator. -/
def arr1_sliceMM {F : FTy → Type} [FloatOps F] (A : Vec F S64x6400 .bf16) (u : IVec S1x256 32) : FVec F S64x256 .f32 :=
  matmul dot_S64x6400_S6400x256_S64x256_1_0_0_1_n_n none (shapeCast S64x6400 A shapeCasts_S64x6400_S64x6400 : FVec F S64x6400 .bf16) (arr1_oneHot u)
    (constant S64x256 .f32 0x00000000#32)

theorem arr1_sliceMM_apply (A : Vec Ideal S64x6400 .bf16) (u : IVec S1x256 32) (d : Fin 64) (j : Fin 256) :
    arr1_sliceMM (F := Ideal) A u (ix2 d j)
      = ∑ i : Fin 6400, A (ix2 d i) * (if BitVec.ofNat 32 i.val = u (ix2 (0 : Fin 1) j) then 1 else 0) := by
  unfold arr1_sliceMM
  rw [arr1_mm_apply, shapeCast_self]
  refine Finset.sum_congr rfl fun i _ => ?_
  exact congrArg (A (ix2 d i) * ·) (arr1_oneHot_apply u i j)

/-- The k-th slice of 6400 columns of the resident array, at (d, i): column 6400·k + i. -/
theorem arr1_ld_slice (hT : Vec Ideal S64x51200 .bf16) (k : Fin 8) (d : Fin 64) (i : Fin 6400) :
    (View.ld hT (Rect.unit (s := S64x51200) (k1_off1 (BitVec.ofNat 32 k.val)) S64x6400.size (k1_off1_inb k)) : Vec Ideal S64x6400 .bf16) (ix2 d i)
      = hT (ix2 d ⟨6400 * k.val + i.val, by have := k.isLt; have := i.isLt; omega⟩) := by
  show hT _ = hT _
  refine congrArg hT (funext fun a => Fin.ext ?_)
  match a with
  | ⟨0, _⟩ =>
    show (k1_off1 (BitVec.ofNat 32 k.val)) 0 + 1 * d.val = d.val
    rw [k1_off1_eq k]; show 0 + 1 * d.val = d.val; omega
  | ⟨1, _⟩ =>
    show (k1_off1 (BitVec.ofNat 32 k.val)) 1 + 1 * i.val = 6400 * k.val + i.val
    rw [k1_off1_eq k]; show 6400 * k.val + 1 * i.val = 6400 * k.val + i.val; omega

/-- What the k-th slice contributes for the source word `s`: column `s` when 6400·k ≤ s < 6400·(k+1) (read signed), else 0. -/
def arr1_sliceSel (hT : S64x51200.Idx → EReal) (s : BitVec 32) (k : Fin 8) (d : Fin 64) : EReal :=
  if h : 6400 * (k.val : ℤ) ≤ s.toInt ∧ s.toInt < 6400 * (k.val : ℤ) + 6400 then
    hT (ix2 d ⟨s.toInt.toNat, by have := k.isLt; omega⟩) else 0

/-- The sum over a slice's rows against the one-hot column of `s − 6400·k` picks the one matching row, if any. -/
theorem arr1_slice_sum (hT : S64x51200.Idx → EReal) (s : BitVec 32) (k : Fin 8) (d : Fin 64) :
    ∑ i : Fin 6400, hT (ix2 d ⟨6400 * k.val + i.val, by have := k.isLt; have := i.isLt; omega⟩)
        * (if BitVec.ofNat 32 i.val = s - BitVec.ofNat 32 (6400 * k.val) then (1 : EReal) else 0)
      = arr1_sliceSel hT s k d := by
  have hk := k.isLt
  unfold arr1_sliceSel
  by_cases h : 6400 * (k.val : ℤ) ≤ s.toInt ∧ s.toInt < 6400 * (k.val : ℤ) + 6400
  · rw [dif_pos h]
    have hi0 : s.toInt.toNat - 6400 * k.val < 6400 := by omega
    rw [Finset.sum_eq_single (⟨s.toInt.toNat - 6400 * k.val, hi0⟩ : Fin 6400)]
    · rw [if_pos ((arr1_row_eq_sub_iff k s _).mpr (by show s.toInt = 6400 * (k.val : ℤ) + ((s.toInt.toNat - 6400 * k.val : ℕ) : ℤ); omega)), mul_one]
      exact congrArg hT (congrArg (ix2 d) (Fin.ext (by show 6400 * k.val + (s.toInt.toNat - 6400 * k.val) = s.toInt.toNat; omega)))
    · intro b _ hb
      rw [if_neg (fun e => hb (Fin.ext (by
        have := (arr1_row_eq_sub_iff k s b).mp e
        show b.val = s.toInt.toNat - 6400 * k.val; omega))), mul_zero]
    · intro hne; exact absurd (Finset.mem_univ _) hne
  · rw [dif_neg h]
    refine Finset.sum_eq_zero fun b _ => ?_
    rw [if_neg (fun e => h (by
      have := (arr1_row_eq_sub_iff k s b).mp e
      have := b.isLt
      omega)), mul_zero]

/-- What a one-hot gather over the 51200 padded node columns reads for the source word `s`: column `s` of `hT` when 0 ≤ s < 51200 (read signed), else 0. -/
def srcSel (hT : S64x51200.Idx → EReal) (s : BitVec 32) (d : Fin 64) : EReal :=
  if h : 0 ≤ s.toInt ∧ s.toInt < 51200 then hT (ix2 d ⟨s.toInt.toNat, by omega⟩) else 0

/-- The eight slices together: exactly one of them holds a column 0 ≤ s < 51200, none holds any other word. -/
theorem arr1_sum_sliceSel (hT : S64x51200.Idx → EReal) (s : BitVec 32) (d : Fin 64) :
    ∑ k : Fin 8, arr1_sliceSel hT s k d = srcSel hT s d := by
  unfold srcSel
  by_cases h : 0 ≤ s.toInt ∧ s.toInt < 51200
  · rw [dif_pos h]
    have hk0 : s.toInt.toNat / 6400 < 8 := by omega
    rw [Finset.sum_eq_single (⟨s.toInt.toNat / 6400, hk0⟩ : Fin 8)]
    · unfold arr1_sliceSel
      rw [dif_pos (by show 6400 * ((s.toInt.toNat / 6400 : ℕ) : ℤ) ≤ s.toInt ∧ s.toInt < 6400 * ((s.toInt.toNat / 6400 : ℕ) : ℤ) + 6400; omega)]
    · intro b _ hb
      unfold arr1_sliceSel
      rw [dif_neg (fun e => hb (Fin.ext (by show b.val = s.toInt.toNat / 6400; omega)))]
    · intro hne; exact absurd (Finset.mem_univ _) hne
  · rw [dif_neg h]
    refine Finset.sum_eq_zero fun b _ => ?_
    unfold arr1_sliceSel
    have := b.isLt
    rw [dif_neg (fun e => h (by omega))]

/-! ## The message block -/

/-- The source words shifted down by 6400·k (wrapping): the row words of the k-th slice. -/
def arr1_offW (P : IVec S1x256 32) (k : BitVec 32) : IVec S1x256 32 := subi P (broadcast S1x256 (Scalar.muli k 6400#32))

theorem arr1_offW_apply (P : IVec S1x256 32) (k : Fin 8) (j : Fin 256) :
    arr1_offW P (BitVec.ofNat 32 k.val) (ix2 (0 : Fin 1) j) = P (ix2 (0 : Fin 1) j) - BitVec.ofNat 32 (6400 * k.val) := by
  show P (ix2 (0 : Fin 1) j) - BitVec.ofNat 32 k.val * BitVec.ofNat 32 6400 = _
  rw [Nat.mul_comm, BitVec.ofNat_mul]

/-- One slice of the gather at (d, j): what the slice holds for the word of column j. -/
theorem arr1_slice_apply (hT : Vec Ideal S64x51200 .bf16) (P : IVec S1x256 32) (k : Fin 8) (d : Fin 64) (j : Fin 256) :
    arr1_sliceMM (F := Ideal) (View.ld hT (Rect.unit (s := S64x51200) (k1_off1 (BitVec.ofNat 32 k.val)) S64x6400.size (k1_off1_inb k)))
        (arr1_offW P (BitVec.ofNat 32 k.val)) (ix2 d j)
      = arr1_sliceSel hT (P (ix2 (0 : Fin 1) j)) k d := by
  rw [arr1_sliceMM_apply, ← arr1_slice_sum hT (P (ix2 (0 : Fin 1) j)) k d]
  refine Finset.sum_congr rfl fun i _ => ?_
  rw [arr1_offW_apply]
  exact congrArg (· * _) (arr1_ld_slice hT k d i)

/-- The message block as the body composes it: zero plus the eight slices' products, times the edge weights broadcast along the rows. -/
theorem arr1_msgBlk_eq {F : FTy → Type} [FloatOps F] (x0 : Vec F S64x51200 .bf16) (x1 : Vec F S256 .i32) (x2 : Vec F S256 .f32) :
    msgBlk x0 x1 x2
      = mulf (addf (addf (addf (addf (addf (addf (addf (addf
            (broadcast S64x256 (Scalar.ofBits .f32 0x00000000#32) : FVec F S64x256 .f32)
            (arr1_sliceMM (View.ld x0 rH0) (arr1_offW (k1_pay1 (F := F) (View.ld x1 r1_1)) 0#32)))
            (arr1_sliceMM (View.ld x0 rH1) (arr1_offW (k1_pay1 (F := F) (View.ld x1 r1_1)) 1#32)))
            (arr1_sliceMM (View.ld x0 rH2) (arr1_offW (k1_pay1 (F := F) (View.ld x1 r1_1)) 2#32)))
            (arr1_sliceMM (View.ld x0 rH3) (arr1_offW (k1_pay1 (F := F) (View.ld x1 r1_1)) 3#32)))
            (arr1_sliceMM (View.ld x0 rH4) (arr1_offW (k1_pay1 (F := F) (View.ld x1 r1_1)) 4#32)))
            (arr1_sliceMM (View.ld x0 rH5) (arr1_offW (k1_pay1 (F := F) (View.ld x1 r1_1)) 5#32)))
            (arr1_sliceMM (View.ld x0 rH6) (arr1_offW (k1_pay1 (F := F) (View.ld x1 r1_1)) 6#32)))
            (arr1_sliceMM (View.ld x0 rH7) (arr1_offW (k1_pay1 (F := F) (View.ld x1 r1_1)) 7#32)))
          (broadcastTo S64x256
            (shapeCast S1x256 (shapeCast S256 (View.ld x2 r1_1) shapeCasts_S256_S256 : FVec F S256 .f32) shapeCasts_S256_S1x256 : FVec F S1x256 .f32)
            broadcasts_S1x256_S64x256) := rfl

theorem arr1_origin1 : (![0] : Fin 1 → Nat) = fun _ => 0 := funext fun a => by fin_cases a; rfl

/-- The row of source words the body broadcasts, at column j: the block's word j. -/
theorem arr1_srcRow_apply (src : Vec Ideal S256 .i32) (j : Fin 256) :
    k1_pay1 (F := Ideal) (View.ld src r1_1) (ix2 (0 : Fin 1) j) = src (ix1 j) := by
  unfold k1_pay1
  rw [shapeCast_a_1a_apply, shapeCast_self, View.ld_unit_zero (S := S256) arr1_origin1]

/-- The edge weights broadcast along the rows, at (d, j): the block's weight j. -/
theorem arr1_weightRow_apply (w : Vec Ideal S256 .f32) (d : Fin 64) (j : Fin 256) :
    (broadcastTo S64x256
        (shapeCast S1x256 (shapeCast S256 (View.ld w r1_1) shapeCasts_S256_S256 : FVec Ideal S256 .f32) shapeCasts_S256_S1x256 : FVec Ideal S1x256 .f32)
        broadcasts_S1x256_S64x256 : FVec Ideal S64x256 .f32) (ix2 d j) = w (ix1 j) := by
  rw [broadcastTo_1b_ab_apply, shapeCast_a_1a_apply]
  exact (congrFun (shapeCast_self (s := S256) (View.ld w r1_1) shapeCasts_S256_S256) (ix1 j)).trans
    (congrFun (View.ld_unit_zero (S := S256) arr1_origin1 inb_S256_S256_0 w) (ix1 j))

/-- THE MESSAGE BLOCK at (d, j): the column of hT the source word of edge j selects, times the weight of edge j. -/
theorem arr1_msgBlk_apply (hT : Vec Ideal S64x51200 .bf16) (src : Vec Ideal S256 .i32) (w : Vec Ideal S256 .f32) (d : Fin 64) (j : Fin 256) :
    msgBlk (F := Ideal) hT src w (ix2 d j) = srcSel hT (src (ix1 j)) d * w (ix1 j) := by
  rw [arr1_msgBlk_eq]
  have e0 : arr1_sliceMM (F := Ideal) (View.ld hT rH0) (arr1_offW (k1_pay1 (F := Ideal) (View.ld src r1_1)) 0#32) (ix2 d j) = arr1_sliceSel hT (src (ix1 j)) 0 d :=
    (arr1_slice_apply hT _ 0 d j).trans (by rw [arr1_srcRow_apply])
  have e1 : arr1_sliceMM (F := Ideal) (View.ld hT rH1) (arr1_offW (k1_pay1 (F := Ideal) (View.ld src r1_1)) 1#32) (ix2 d j) = arr1_sliceSel hT (src (ix1 j)) 1 d :=
    (arr1_slice_apply hT _ 1 d j).trans (by rw [arr1_srcRow_apply])
  have e2 : arr1_sliceMM (F := Ideal) (View.ld hT rH2) (arr1_offW (k1_pay1 (F := Ideal) (View.ld src r1_1)) 2#32) (ix2 d j) = arr1_sliceSel hT (src (ix1 j)) 2 d :=
    (arr1_slice_apply hT _ 2 d j).trans (by rw [arr1_srcRow_apply])
  have e3 : arr1_sliceMM (F := Ideal) (View.ld hT rH3) (arr1_offW (k1_pay1 (F := Ideal) (View.ld src r1_1)) 3#32) (ix2 d j) = arr1_sliceSel hT (src (ix1 j)) 3 d :=
    (arr1_slice_apply hT _ 3 d j).trans (by rw [arr1_srcRow_apply])
  have e4 : arr1_sliceMM (F := Ideal) (View.ld hT rH4) (arr1_offW (k1_pay1 (F := Ideal) (View.ld src r1_1)) 4#32) (ix2 d j) = arr1_sliceSel hT (src (ix1 j)) 4 d :=
    (arr1_slice_apply hT _ 4 d j).trans (by rw [arr1_srcRow_apply])
  have e5 : arr1_sliceMM (F := Ideal) (View.ld hT rH5) (arr1_offW (k1_pay1 (F := Ideal) (View.ld src r1_1)) 5#32) (ix2 d j) = arr1_sliceSel hT (src (ix1 j)) 5 d :=
    (arr1_slice_apply hT _ 5 d j).trans (by rw [arr1_srcRow_apply])
  have e6 : arr1_sliceMM (F := Ideal) (View.ld hT rH6) (arr1_offW (k1_pay1 (F := Ideal) (View.ld src r1_1)) 6#32) (ix2 d j) = arr1_sliceSel hT (src (ix1 j)) 6 d :=
    (arr1_slice_apply hT _ 6 d j).trans (by rw [arr1_srcRow_apply])
  have e7 : arr1_sliceMM (F := Ideal) (View.ld hT rH7) (arr1_offW (k1_pay1 (F := Ideal) (View.ld src r1_1)) 7#32) (ix2 d j) = arr1_sliceSel hT (src (ix1 j)) 7 d :=
    (arr1_slice_apply hT _ 7 d j).trans (by rw [arr1_srcRow_apply])
  show (Ideal.ofBits .f32 0x00000000#32
        + arr1_sliceMM (F := Ideal) (View.ld hT rH0) (arr1_offW (k1_pay1 (F := Ideal) (View.ld src r1_1)) 0#32) (ix2 d j)
        + arr1_sliceMM (F := Ideal) (View.ld hT rH1) (arr1_offW (k1_pay1 (F := Ideal) (View.ld src r1_1)) 1#32) (ix2 d j)
        + arr1_sliceMM (F := Ideal) (View.ld hT rH2) (arr1_offW (k1_pay1 (F := Ideal) (View.ld src r1_1)) 2#32) (ix2 d j)
        + arr1_sliceMM (F := Ideal) (View.ld hT rH3) (arr1_offW (k1_pay1 (F := Ideal) (View.ld src r1_1)) 3#32) (ix2 d j)
        + arr1_sliceMM (F := Ideal) (View.ld hT rH4) (arr1_offW (k1_pay1 (F := Ideal) (View.ld src r1_1)) 4#32) (ix2 d j)
        + arr1_sliceMM (F := Ideal) (View.ld hT rH5) (arr1_offW (k1_pay1 (F := Ideal) (View.ld src r1_1)) 5#32) (ix2 d j)
        + arr1_sliceMM (F := Ideal) (View.ld hT rH6) (arr1_offW (k1_pay1 (F := Ideal) (View.ld src r1_1)) 6#32) (ix2 d j)
        + arr1_sliceMM (F := Ideal) (View.ld hT rH7) (arr1_offW (k1_pay1 (F := Ideal) (View.ld src r1_1)) 7#32) (ix2 d j))
      * (broadcastTo S64x256
        (shapeCast S1x256 (shapeCast S256 (View.ld w r1_1) shapeCasts_S256_S256 : FVec Ideal S256 .f32) shapeCasts_S256_S1x256 : FVec Ideal S1x256 .f32)
        broadcasts_S1x256_S64x256 : FVec Ideal S64x256 .f32) (ix2 d j) = _
  rw [e0, e1, e2, e3, e4, e5, e6, e7, arr1_weightRow_apply, Ideal.ofBits_zero_f32, zero_add, ← arr1_sum_sliceSel, Fin.sum_univ_eight]

/-! ## From the blocks to the array -/

variable (V : (c : Dev nD) → (b : Ref sig .tc) → Buf (Elt Ideal) ((c : Thread nD τ).loc b))

theorem arr1_origin2 : (![0, 0] : Fin 2 → Nat) = fun _ => 0 := funext fun a => by fin_cases a <;> rfl

/-- Region 1's grid is one axis of 4884 points: a point's coordinate is its number. -/
theorem arr1_coord (t : Fin cfg1.N) : (grid1.coords t 0).val = t.val := by
  have ht : t.val < 4884 := lt_of_lt_of_eq t.isLt N_1
  show t.val / grid1.stride 0 % 4884 = t.val
  rw [show grid1.stride 0 = 1 from by decide, Nat.div_one, Nat.mod_eq_of_lt ht]

/-- The block index of the source words and of the edge weights at point t is t; of the output, (0, t). -/
theorem arr1_index_src (t : Fin cfg1.N) : win1_1.index t 0 = t.val := by
  have ht : t.val < 4884 := lt_of_lt_of_eq t.isLt N_1
  show (BitVec.ofNat 32 (grid1.coords t 0).val).toNat = t.val
  rw [arr1_coord, BitVec.toNat_ofNat]; omega
theorem arr1_index_w (t : Fin cfg1.N) : win1_2.index t 0 = t.val := by
  have ht : t.val < 4884 := lt_of_lt_of_eq t.isLt N_1
  show (BitVec.ofNat 32 (grid1.coords t 0).val).toNat = t.val
  rw [arr1_coord, BitVec.toNat_ofNat]; omega
theorem arr1_index_out (t : Fin cfg1.N) : win1_3.index t 1 = t.val := by
  have ht : t.val < 4884 := lt_of_lt_of_eq t.isLt N_1
  show (BitVec.ofNat 32 (grid1.coords t 0).val).toNat = t.val
  rw [arr1_coord, BitVec.toNat_ofNat]; omega

/-- The input blocks at a point, at their literal types. -/
abbrev arr1_hblk (c : Dev nD) (t : Fin cfg1.N) : Vec Ideal S64x51200 .bf16 := iblk1 V c 0 t
abbrev arr1_sblk (c : Dev nD) (t : Fin cfg1.N) : Vec Ideal S256 .i32 := iblk1 V c 1 t
abbrev arr1_wblk (c : Dev nD) (t : Fin cfg1.N) : Vec Ideal S256 .f32 := iblk1 V c 2 t

/-- The resident window's block is its whole array at every point. -/
theorem arr1_hblk_eq (c : Dev nD) (t : Fin cfg1.N) : arr1_hblk V c t = (V c main_v3 : S64x51200.Idx → EReal) := by
  funext x
  show V c main_v3 (((cfg1.win 0).blk t).view.emb x) = V c main_v3 x
  refine congrArg _ (funext fun a => Fin.ext ?_)
  match a with
  | ⟨0, _⟩ =>
    show win1_0.index t 0 * 64 + 1 * (x 0).val = (x 0).val
    rw [show win1_0.index t 0 = 0 from rfl]; omega
  | ⟨1, _⟩ =>
    show win1_0.index t 1 * 51200 + 1 * (x 1).val = (x 1).val
    rw [show win1_0.index t 1 = 0 from rfl]; omega

/-- The block of source words at point t holds the words of edges 256·t … 256·t + 255. -/
theorem arr1_sblk_apply (c : Dev nD) (t : Fin cfg1.N) (j : Fin 256) (e : Fin 1250304) (he : e.val = 256 * t.val + j.val) :
    arr1_sblk V c t (ix1 j) = (V c main_v8 : S1250304.Idx → BitVec 32) (ix1 e) := by
  show V c main_v8 (((cfg1.win 1).blk t).view.emb (ix1 j)) = V c main_v8 (ix1 e)
  refine congrArg _ (funext fun a => Fin.ext ?_)
  match a with
  | ⟨0, _⟩ =>
    show win1_1.index t 0 * 256 + 1 * j.val = e.val
    rw [arr1_index_src, he]; omega

/-- The block of edge weights likewise. -/
theorem arr1_wblk_apply (c : Dev nD) (t : Fin cfg1.N) (j : Fin 256) (e : Fin 1250304) (he : e.val = 256 * t.val + j.val) :
    arr1_wblk V c t (ix1 j) = (V c main_v10 : S1250304.Idx → EReal) (ix1 e) := by
  show V c main_v10 (((cfg1.win 2).blk t).view.emb (ix1 j)) = V c main_v10 (ix1 e)
  refine congrArg _ (funext fun a => Fin.ext ?_)
  match a with
  | ⟨0, _⟩ =>
    show win1_2.index t 0 * 256 + 1 * j.val = e.val
    rw [arr1_index_w, he]; omega

/-- The array region 1 leaves, as one function of the arrays it finds: at (d, e) the column of `hT` the source word of edge e selects, at row d, times the weight of edge e. -/
def arr1_G (hT : S64x51200.Idx → EReal) (src : S1250304.Idx → BitVec 32) (w : S1250304.Idx → EReal) : S64x1250304.Idx → EReal :=
  fun i => srcSel hT (src (ix1 (⟨(i 1).val, idx2_lt1 i⟩ : Fin 1250304))) (⟨(i 0).val, idx2_lt0 i⟩ : Fin 64)
    * w (ix1 (⟨(i 1).val, idx2_lt1 i⟩ : Fin 1250304))

theorem arr1_G_apply (hT : S64x51200.Idx → EReal) (src : S1250304.Idx → BitVec 32) (w : S1250304.Idx → EReal)
    (i : S64x1250304.Idx) (d : Fin 64) (e : Fin 1250304) (h0 : (i 0).val = d.val) (h1 : (i 1).val = e.val) :
    arr1_G hT src w i = srcSel hT (src (ix1 e)) d * w (ix1 e) := by
  obtain rfl : d = ⟨(i 0).val, idx2_lt0 i⟩ := Fin.ext h0.symm
  obtain rfl : e = ⟨(i 1).val, idx2_lt1 i⟩ := Fin.ext h1.symm
  rfl

/-- WHAT POINT t WRITES BACK is block t of that function. -/
theorem arr1_flushed_eq (c : Dev nD) (t : Fin cfg1.N) :
    (dat1 (F := Ideal) V c).flushed 3 t
      = ((cfg1.win 3).blk t).view.read (Elt Ideal) (arr1_G (V c main_v3) (V c main_v8) (V c main_v10)) := by
  show (cfg1.win 3).cut (grid1.coords t) ((dat1 (F := Ideal) V c).after 3 t) = _
  rw [after1_3]
  unfold out1_3
  rw [View.canon_unit_zero arr1_origin2]
  funext y
  have hd : (y 0).val < 64 := (y 0).isLt
  have hj : (y 1).val < 256 := (y 1).isLt
  have ht : t.val < 4884 := lt_of_lt_of_eq t.isLt N_1
  have hx : (cfg1.win 3).xinj (grid1.coords t) y = ix2 (⟨(y 0).val, hd⟩ : Fin 64) (⟨(y 1).val, hj⟩ : Fin 256) :=
    funext fun a => by match a with | ⟨0, _⟩ => rfl | ⟨1, _⟩ => rfl
  show msgBlk (F := Ideal) (arr1_hblk V c t) (arr1_sblk V c t) (arr1_wblk V c t) ((cfg1.win 3).xinj (grid1.coords t) y)
      = arr1_G (V c main_v3) (V c main_v8) (V c main_v10) (((cfg1.win 3).blk t).view.emb y)
  refine (congrArg (msgBlk (F := Ideal) (arr1_hblk V c t) (arr1_sblk V c t) (arr1_wblk V c t)) hx).trans ?_
  refine (arr1_msgBlk_apply (arr1_hblk V c t) (arr1_sblk V c t) (arr1_wblk V c t) ⟨(y 0).val, hd⟩ ⟨(y 1).val, hj⟩).trans ?_
  rw [arr1_hblk_eq V c t, arr1_sblk_apply V c t ⟨(y 1).val, hj⟩ ⟨256 * t.val + (y 1).val, by omega⟩ rfl,
    arr1_wblk_apply V c t ⟨(y 1).val, hj⟩ ⟨256 * t.val + (y 1).val, by omega⟩ rfl]
  refine (arr1_G_apply _ _ _ (((cfg1.win 3).blk t).view.emb y) ⟨(y 0).val, hd⟩ ⟨256 * t.val + (y 1).val, by omega⟩ ?_ ?_).symm
  · show win1_3.index t 0 * 64 + 1 * (y 0).val = (y 0).val
    rw [show win1_3.index t 0 = 0 from rfl]; omega
  · show win1_3.index t 1 * 256 + 1 * (y 1).val = 256 * t.val + (y 1).val
    rw [arr1_index_out]; omega

/-- An index of the output array is in point t's block iff each coordinate is in the block's range on its axis. -/
theorem arr1_mem_blk (t : Fin cfg1.N) (i : S64x1250304.Idx) :
    i ∈ ((cfg1.win 3).blk t).view.set
      ↔ ∀ a : Fin 2, win1_3.index t a * S64x256.size a ≤ (i a).val ∧ (i a).val < win1_3.index t a * S64x256.size a + S64x256.size a := by
  show i ∈ ((View.whole main_v11).slice (win1_3.rect t)).set ↔ _
  rw [View.set_slice_whole, Rect.mem_set_unit]
  exact Iff.rfl

/-- Edge column e lies in the block of point e / 256: the blocks cover the array. -/
theorem arr1_cover (i : S64x1250304.Idx) :
    ∃ t : Fin cfg1.N, (cfg1.win 3).flush t = true ∧ i ∈ ((cfg1.win 3).blk t).view.set := by
  have h0 : (i 0).val < 64 := idx2_lt0 i
  have h1 : (i 1).val < 1250304 := idx2_lt1 i
  have hN : cfg1.N = 4884 := N_1
  have hlt : (i 1).val / 256 < cfg1.N := by rw [hN]; omega
  refine ⟨⟨(i 1).val / 256, hlt⟩, flush1_3 _, ?_⟩
  rw [arr1_mem_blk]
  intro a
  match a with
  | ⟨0, _⟩ =>
    show win1_3.index ⟨(i 1).val / 256, hlt⟩ 0 * 64 ≤ (i 0).val ∧ (i 0).val < win1_3.index ⟨(i 1).val / 256, hlt⟩ 0 * 64 + 64
    rw [show win1_3.index ⟨(i 1).val / 256, hlt⟩ 0 = 0 from rfl]; omega
  | ⟨1, _⟩ =>
    show win1_3.index ⟨(i 1).val / 256, hlt⟩ 1 * 256 ≤ (i 1).val ∧ (i 1).val < win1_3.index ⟨(i 1).val / 256, hlt⟩ 1 * 256 + 256
    rw [arr1_index_out]; show (i 1).val / 256 * 256 ≤ (i 1).val ∧ (i 1).val < (i 1).val / 256 * 256 + 256; omega

/-- THE ARRAY after region 1 is that function. -/
theorem arr1_eq (c : Dev nD) :
    (dat1 (F := Ideal) V c).arrAt 3 cfg1.N = arr1_G (V c main_v3) (V c main_v8) (V c main_v10) :=
  (dat1 (F := Ideal) V c).arrAt_eq_of_cover 3 (arr1_G (V c main_v3) (V c main_v8) (V c main_v10))
    (fun t _ => arr1_flushed_eq V c t) arr1_cover

/-- After region 1 the output array holds, at (d, e), srcSel h_T src[e] d · w[e] (h_T = the array of window 0, src of window 1, w of window 2). -/
theorem arr1_final (c : Dev nD) (d : Fin 64) (e : Fin 1250304) :
    (dat1 (F := Ideal) V c).arrAt 3 cfg1.N (ix2 d e)
      = srcSel (V c main_v3) ((V c main_v8 : S1250304.Idx → BitVec 32) (ix1 e)) d * (V c main_v10 : S1250304.Idx → EReal) (ix1 e) := by
  rw [arr1_eq V c]
  exact arr1_G_apply _ _ _ (ix2 d e) d e rfl rfl

end Cert.KernelIdeal.HandVal

end
-- ==== Proof.Val.Arr2.lean ====
/-
  What the output array of region 2 holds when the region ends:

      agg_T[d, n] = Σ_{e < 1250304} msg_T[d, e] · [dst[e] = n] + bias[d].

  Region 2 runs over 25 node blocks × 1221 edge blocks, the edge axis innermost. At each point the accumulator gains the product of
  the point's message block [64, 1024] with the one-hot block [1024, 2048] of the point's destination words against the point's node
  block: entry (e, j) of that block is 1 when the destination word of edge e, read signed, is 2048 · (node block) + j, and 0 when not.
  The accumulator is reset at the first edge block of a node block, and the output block (accumulator + bias) is stored and written
  back at the last one only.

  § 1  the block product's operand indices; the word fact; the one-hot block and the three payloads read at an index;
  § 2  the grid's coordinates and the windows' block indices in closed form; the blocks read as entries of the arrays; the
       accumulator after point n is the sum of the contributions of the edges of the edge blocks 0 … n % 1221 to node block
       n / 1221, by induction on n;
  § 3  what a writing point writes back is its block of ONE function of the arrays; the writing points' blocks cover the array;
       so the array ends holding that function.
-/
import proofs.«428513_j63428077027476_3_alg».proof.Proof.KI.Dats
import proofs.«428513_j63428077027476_3_alg».proof.Proof.Gen.KernelIdeal.Points
import Idealize.ShloMosaic.Lib.Pipeline.Value
import Idealize.ShloMosaic.Lib.ValueIdx
import Idealize.ShloMosaic.PureOps.Ideal.Laws

noncomputable section

namespace Cert.KernelIdeal.HandVal

open Idealize.ShloMosaic Idealize.ShloMosaic.TcCoe Idealize.SL.Sem Idealize.ShloMosaic.ValueIdx Cert.KernelIdeal Cert.KernelIdeal.Gen Cert.KernelIdeal.Hand
open Idealize.ShloMosaic.Pipeline (Dat)
open scoped BigOperators

/-! ## The scatter product's operand indices, axis by axis

The block product of region 2 contracts the edge axis: axis 1 of the message block [64, 1024] against axis 0 of the
one-hot block [1024, 2048]; output row = message row, output column = one-hot column. -/

theorem lhs_scatter_0 (i : S64x2048.Idx) (k : dot_S64x1024_S1024x2048_S64x2048_1_0_0_1_n_n.contr.Idx) :
    (dot_S64x1024_S1024x2048_S64x2048_1_0_0_1_n_n.lhsIdx i k 0).val = (i 0).val := by
  unfold DotDims.lhsIdx
  rw [dif_neg (show ¬(0 : Fin S64x1024.rank) ∈ dot_S64x1024_S1024x2048_S64x2048_1_0_0_1_n_n.lhsBatch by decide),
    dif_pos (show (0 : Fin S64x1024.rank) ∈ dot_S64x1024_S1024x2048_S64x2048_1_0_0_1_n_n.lhsNonContracting by decide)]
  rfl

theorem lhs_scatter_1 (i : S64x2048.Idx) (k : dot_S64x1024_S1024x2048_S64x2048_1_0_0_1_n_n.contr.Idx) :
    (dot_S64x1024_S1024x2048_S64x2048_1_0_0_1_n_n.lhsIdx i k 1).val = (k ⟨0, by decide⟩).val :=
  dot_S64x1024_S1024x2048_S64x2048_1_0_0_1_n_n.lhsIdx_val_of_single rfl i k

theorem rhs_scatter_0 (i : S64x2048.Idx) (k : dot_S64x1024_S1024x2048_S64x2048_1_0_0_1_n_n.contr.Idx) :
    (dot_S64x1024_S1024x2048_S64x2048_1_0_0_1_n_n.rhsIdx i k 0).val = (k ⟨0, by decide⟩).val :=
  dot_S64x1024_S1024x2048_S64x2048_1_0_0_1_n_n.rhsIdx_val_of_single rfl i k

theorem rhs_scatter_1 (i : S64x2048.Idx) (k : dot_S64x1024_S1024x2048_S64x2048_1_0_0_1_n_n.contr.Idx) :
    (dot_S64x1024_S1024x2048_S64x2048_1_0_0_1_n_n.rhsIdx i k 1).val = (i 1).val := by
  unfold DotDims.rhsIdx
  rw [dif_neg (show ¬(1 : Fin S1024x2048.rank) ∈ dot_S64x1024_S1024x2048_S64x2048_1_0_0_1_n_n.rhsBatch by decide),
    dif_pos (show (1 : Fin S1024x2048.rank) ∈ dot_S64x1024_S1024x2048_S64x2048_1_0_0_1_n_n.rhsNonContracting by decide)]
  rfl

/-! ## The word fact: lane `j` of node block `p` is hit by the destination word `s` exactly when `s`, read signed, is `2048 p + j` -/

theorem lane_eq_iff (s : BitVec 32) (p j : ℕ) (hp : p < 25) (hj : j < 2048) :
    BitVec.ofNat 32 j = s - BitVec.ofNat 32 p * 2048#32 ↔ s.toInt = (2048 * p + j : ℤ) := by
  have hs := BitVec.toInt_eq_toNat_cond s
  have hlt := s.isLt
  constructor
  · intro h
    have hn : s.toNat = 2048 * p + j := by bv_omega
    rw [hs]; split <;> omega
  · intro h
    have hn : s.toNat = 2048 * p + j := by
      rw [hs] at h; split at h <;> omega
    bv_omega

/-! ## The one-hot block -/

/-- A compared pair of words, widened and converted: 1 when the words are equal, 0 when not. -/
theorem hot_word (a b : BitVec 32) :
    (FloatOps.sitofp (F := Ideal) .f32 ((IntOp.cmpi .eq a b).setWidth 32) : EReal) = if a = b then 1 else 0 := by
  by_cases h : a = b
  · subst h
    rw [if_pos rfl]
    show ((((BitVec.ofBool (a == a)).setWidth 32).toInt : ℝ) : EReal) = 1
    simp
  · rw [if_neg h]
    show ((((BitVec.ofBool (a == b)).setWidth 32).toInt : ℝ) : EReal) = 0
    have hb : (a == b) = false := by simpa using h
    rw [hb]
    simp

/-- The one-hot block of a block of destination words against node block `i 0`, as the body computes it: the lane numbers
    compared with the words shifted down by `2048 · (i 0)`, the bit widened and converted. -/
def hotBlk (i : grid2.Coords) (v3 : Vec Ideal S1024 .i32) : FVec Ideal S1024x2048 .bf16 :=
  truncf .bf16 (sitofp .f32 (extui 32 (cmpi .eq (iota .tc S1024x2048 32 [1] iota_S1024x2048_d1_w32)
    (broadcastTo S1024x2048 (subi (shapeCast S1024x1 (shapeCast S1024 v3 shapeCasts_S1024_S1024) shapeCasts_S1024_S1024x1)
      (broadcast S1024x1 (Scalar.muli (BitVec.ofNat 32 (i 0).val) 2048#32))) broadcasts_S1024x1_S1024x2048)) natLt_1_32)) bitsLt_bf16_f32

/-- A column of words spread along the lanes reads, at (e, j), the column's entry e. -/
theorem spread_apply (x : IVec S1024x1 32) (e : Fin 1024) (j : Fin 2048) :
    broadcastTo S1024x2048 x broadcasts_S1024x1_S1024x2048 (ix2 e j) = x (ix2 e (0 : Fin 1)) := by
  refine broadcastTo_apply x _ (ix2 e j) (ix2 e (0 : Fin 1)) fun ax => ?_
  match ax with
  | ⟨0, _⟩ => rfl
  | ⟨1, _⟩ => rfl

/-- A vector of words viewed as a column reads, at (e, 0), the vector's entry e. -/
theorem column_apply (x : IVec S1024 32) (e : Fin 1024) :
    shapeCast S1024x1 x shapeCasts_S1024_S1024x1 (ix2 e (0 : Fin 1)) = x (ix1 e) := by
  refine shapeCast_apply x _ (ix2 e (0 : Fin 1)) (ix1 e) ?_
  rw [Shape.rowMajor_val_one, Shape.rowMajor_val_two]
  show e.val = e.val * 1 + 0
  omega

theorem hotBlk_apply (i : grid2.Coords) (v3 : Vec Ideal S1024 .i32) (e : Fin 1024) (j : Fin 2048) :
    hotBlk i v3 (ix2 e j) = if (v3 (ix1 e)).toInt = (2048 * (i 0).val + j.val : ℤ) then (1 : EReal) else 0 := by
  unfold hotBlk
  show FloatOps.sitofp (F := Ideal) .f32 ((IntOp.cmpi .eq (iota .tc S1024x2048 32 [1] iota_S1024x2048_d1_w32 (ix2 e j))
    (broadcastTo S1024x2048 (subi (shapeCast S1024x1 (shapeCast S1024 v3 shapeCasts_S1024_S1024) shapeCasts_S1024_S1024x1)
      (broadcast S1024x1 (Scalar.muli (BitVec.ofNat 32 (i 0).val) 2048#32))) broadcasts_S1024x1_S1024x2048 (ix2 e j))).setWidth 32) = _
  rw [hot_word, iota_single_apply, spread_apply]
  show (if BitVec.ofNat 32 j.val = shapeCast S1024x1 (shapeCast S1024 v3 shapeCasts_S1024_S1024) shapeCasts_S1024_S1024x1 (ix2 e (0 : Fin 1))
      - BitVec.ofNat 32 (i 0).val * 2048#32 then (1 : EReal) else 0) = _
  rw [column_apply, shapeCast_self]
  exact if_congr (lane_eq_iff _ _ _ (i 0).isLt j.isLt) rfl rfl

/-! ## The three payloads of region 2 at an index -/

/-- The accumulation step: the previous contents plus the message block times the one-hot block. -/
theorem k2_pay2_eq (i : grid2.Coords) (v3 : Vec Ideal S1024 .i32) (v15 : Vec Ideal S64x1024 .f32) (v18 : Vec Ideal S64x2048 .f32) :
    k2_pay2 i v3 v15 v18 = addf v18 (matmul dot_S64x1024_S1024x2048_S64x2048_1_0_0_1_n_n none
      (truncf .bf16 v15 bitsLt_bf16_f32) (hotBlk i v3) (constant S64x2048 .f32 0x00000000#32)) := by
  unfold k2_pay2 hotBlk
  simp only [shapeCast_self]

theorem k2_pay2_apply (i : grid2.Coords) (v3 : Vec Ideal S1024 .i32) (v15 : Vec Ideal S64x1024 .f32) (v18 : Vec Ideal S64x2048 .f32)
    (d : Fin 64) (j : Fin 2048) :
    k2_pay2 i v3 v15 v18 (ix2 d j) = v18 (ix2 d j)
      + ∑ e : Fin 1024, v15 (ix2 d e) * (if (v3 (ix1 e)).toInt = (2048 * (i 0).val + j.val : ℤ) then (1 : EReal) else 0) := by
  rw [k2_pay2_eq]
  show v18 (ix2 d j) + matmul dot_S64x1024_S1024x2048_S64x2048_1_0_0_1_n_n none
      (truncf .bf16 v15 bitsLt_bf16_f32) (hotBlk i v3) (constant S64x2048 .f32 0x00000000#32) (ix2 d j) = _
  congr 1
  refine (Ideal.matmul_constant_zero_apply dot_S64x1024_S1024x2048_S64x2048_1_0_0_1_n_n none _ _ (ix2 d j)).trans ?_
  rw [← Equiv.sum_comp (contrEquiv1 dot_S64x1024_S1024x2048_S64x2048_1_0_0_1_n_n 1024 rfl rfl).symm]
  refine Finset.sum_congr rfl fun e _ => ?_
  have hl : dot_S64x1024_S1024x2048_S64x2048_1_0_0_1_n_n.lhsIdx (ix2 d j)
      ((contrEquiv1 dot_S64x1024_S1024x2048_S64x2048_1_0_0_1_n_n 1024 rfl rfl).symm e) = ix2 d e := by
    funext a; apply Fin.ext
    match a with
    | ⟨0, _⟩ => exact lhs_scatter_0 _ _
    | ⟨1, _⟩ => exact (lhs_scatter_1 _ _).trans (contrEquiv1_symm_val dot_S64x1024_S1024x2048_S64x2048_1_0_0_1_n_n 1024 rfl rfl e)
  have hr : dot_S64x1024_S1024x2048_S64x2048_1_0_0_1_n_n.rhsIdx (ix2 d j)
      ((contrEquiv1 dot_S64x1024_S1024x2048_S64x2048_1_0_0_1_n_n 1024 rfl rfl).symm e) = ix2 e j := by
    funext a; apply Fin.ext
    match a with
    | ⟨0, _⟩ => exact (rhs_scatter_0 _ _).trans (contrEquiv1_symm_val dot_S64x1024_S1024x2048_S64x2048_1_0_0_1_n_n 1024 rfl rfl e)
    | ⟨1, _⟩ => exact rhs_scatter_1 _ _
  rw [hl, hr, hotBlk_apply]
  rfl

/-- The reset: the zero block. -/
theorem k2_pay1_apply (d : Fin 64) (j : Fin 2048) : k2_pay1 (F := Ideal) (ix2 d j) = 0 := by
  unfold k2_pay1
  simp only [shapeCast_self]
  exact Ideal.ofBits_zero_f32

/-- A vector of 64 values viewed as a column reads, at (d, 0), the vector's entry d. -/
theorem biasColumn_apply (x : FVec Ideal S64 .f32) (d : Fin 64) :
    shapeCast S64x1 x shapeCasts_S64_S64x1 (ix2 d (0 : Fin 1)) = x (ix1 d) := by
  refine shapeCast_apply x _ (ix2 d (0 : Fin 1)) (ix1 d) ?_
  rw [Shape.rowMajor_val_one, Shape.rowMajor_val_two]
  show d.val = d.val * 1 + 0
  omega

/-- A column of 64 values spread along the lanes reads, at (d, j), the column's entry d. -/
theorem biasSpread_apply (x : FVec Ideal S64x1 .f32) (d : Fin 64) (j : Fin 2048) :
    broadcastTo S64x2048 x broadcasts_S64x1_S64x2048 (ix2 d j) = x (ix2 d (0 : Fin 1)) := by
  refine broadcastTo_apply x _ (ix2 d j) (ix2 d (0 : Fin 1)) fun ax => ?_
  match ax with
  | ⟨0, _⟩ => rfl
  | ⟨1, _⟩ => rfl

/-- The stored block: the accumulator plus the bias of its row. -/
theorem k2_pay3_apply (v27 : Vec Ideal S64x2048 .f32) (v28 : Vec Ideal S64 .f32) (d : Fin 64) (j : Fin 2048) :
    k2_pay3 v27 v28 (ix2 d j) = v27 (ix2 d j) + v28 (ix1 d) := by
  unfold k2_pay3
  simp only [shapeCast_self]
  show v27 (ix2 d j) + broadcastTo S64x2048 (shapeCast S64x1 v28 shapeCasts_S64_S64x1) broadcasts_S64x1_S64x2048 (ix2 d j) = _
  rw [biasSpread_apply, biasColumn_apply]

/-! ## The grid of region 2: 25 node blocks × 1221 edge blocks, the edge axis innermost -/

theorem zeroOff1 : (![0] : Fin 1 → Nat) = fun _ => 0 := funext fun a => by fin_cases a; rfl
theorem zeroOff2 : (![0, 0] : Fin 2 → Nat) = fun _ => 0 := funext fun a => by fin_cases a <;> rfl

theorem nodeCoord (t : Fin cfg2.N) : (grid2.coords t 0).val = t.val / 1221 := by
  have hN : t.val < 30525 := lt_of_lt_of_eq t.isLt N_2
  show t.val / grid2.stride 0 % 25 = t.val / 1221
  rw [show grid2.stride 0 = 1221 from by decide]
  omega

theorem edgeCoord (t : Fin cfg2.N) : (grid2.coords t 1).val = t.val % 1221 := by
  show t.val / grid2.stride 1 % 1221 = t.val % 1221
  rw [show grid2.stride 1 = 1 from by decide]
  omega

/-- The destination window's block index is the edge block. -/
theorem dstIndex (t : Fin cfg2.N) : win2_0.index t 0 = t.val % 1221 := by
  show (BitVec.ofNat 32 (grid2.coords t 1).val).toNat = _
  rw [edgeCoord, BitVec.toNat_ofNat]
  omega

/-- The message window's block index is (0, the edge block). -/
theorem msgIndex0 (t : Fin cfg2.N) : win2_1.index t 0 = 0 := rfl
theorem msgIndex1 (t : Fin cfg2.N) : win2_1.index t 1 = t.val % 1221 := by
  show (BitVec.ofNat 32 (grid2.coords t 1).val).toNat = _
  rw [edgeCoord, BitVec.toNat_ofNat]
  omega

/-- The bias window's block index is 0. -/
theorem biasIndex (t : Fin cfg2.N) : win2_2.index t 0 = 0 := rfl

/-- The output window's block index is (0, the node block). -/
theorem outIndex0 (t : Fin cfg2.N) : win2_3.index t 0 = 0 := rfl
theorem outIndex1 (t : Fin cfg2.N) : win2_3.index t 1 = t.val / 1221 := by
  have hN : t.val < 30525 := lt_of_lt_of_eq t.isLt N_2
  show (BitVec.ofNat 32 (grid2.coords t 0).val).toNat = _
  rw [nodeCoord, BitVec.toNat_ofNat]
  omega

variable (V : (c : Dev nD) → (b : Ref sig .tc) → Buf (Elt Ideal) ((c : Thread nD τ).loc b))

/-! ## The arrays and the blocks of region 2, at their literal types -/

/-- The destination words, the messages and the bias, as region 2 finds them. -/
abbrev dstArr (c : Dev nD) : Vec Ideal S1250304 .i32 := V c main_v9
abbrev msgArr (c : Dev nD) : Vec Ideal S64x1250304 .f32 := V c main_v11
abbrev biasArr (c : Dev nD) : Vec Ideal S64 .f32 := V c main_arg1

/-- The blocks point `t` reads. -/
abbrev dstBlock (c : Dev nD) (t : Fin cfg2.N) : Vec Ideal S1024 .i32 := iblk2 V c 0 t
abbrev msgBlock (c : Dev nD) (t : Fin cfg2.N) : Vec Ideal S64x1024 .f32 := iblk2 V c 1 t
abbrev biasBlock (c : Dev nD) (t : Fin cfg2.N) : Vec Ideal S64 .f32 := iblk2 V c 2 t

theorem edge_lt (t : Fin cfg2.N) (e : Fin 1024) : 1024 * (t.val % 1221) + e.val < 1250304 := by
  have := e.isLt; omega

/-- Entry `e` of the destination block at point `t` is edge `1024 · (edge block) + e`. -/
theorem dstBlock_apply (c : Dev nD) (t : Fin cfg2.N) (e : Fin 1024) :
    dstBlock V c t (ix1 e) = dstArr V c (ix1 ⟨1024 * (t.val % 1221) + e.val, edge_lt t e⟩) := by
  show dstArr V c (((cfg2.win 0).blk t).view.emb (ix1 e)) = _
  refine congrArg (dstArr V c) (funext fun a => Fin.ext ?_)
  match a with
  | ⟨0, _⟩ =>
    show win2_0.index t 0 * 1024 + 1 * e.val = 1024 * (t.val % 1221) + e.val
    rw [dstIndex]; omega

/-- Entry `(d, e)` of the message block at point `t` is row `d` of edge `1024 · (edge block) + e`. -/
theorem msgBlock_apply (c : Dev nD) (t : Fin cfg2.N) (d : Fin 64) (e : Fin 1024) :
    msgBlock V c t (ix2 d e) = msgArr V c (ix2 d ⟨1024 * (t.val % 1221) + e.val, edge_lt t e⟩) := by
  show msgArr V c (((cfg2.win 1).blk t).view.emb (ix2 d e)) = _
  refine congrArg (msgArr V c) (funext fun a => Fin.ext ?_)
  match a with
  | ⟨0, _⟩ =>
    show win2_1.index t 0 * 64 + 1 * d.val = d.val
    rw [msgIndex0]; omega
  | ⟨1, _⟩ =>
    show win2_1.index t 1 * 1024 + 1 * e.val = 1024 * (t.val % 1221) + e.val
    rw [msgIndex1]; omega

/-- The bias block is the bias. -/
theorem biasBlock_apply (c : Dev nD) (t : Fin cfg2.N) (d : Fin 64) : biasBlock V c t (ix1 d) = biasArr V c (ix1 d) := by
  show biasArr V c (((cfg2.win 2).blk t).view.emb (ix1 d)) = _
  refine congrArg (biasArr V c) (funext fun a => Fin.ext ?_)
  match a with
  | ⟨0, _⟩ =>
    show win2_2.index t 0 * 64 + 1 * d.val = d.val
    rw [biasIndex]; omega

/-! ## The accumulator after each point -/

/-- Edge `e`'s contribution to row `d` of node `n`: its message entry there when its destination word, read signed, is `n`. -/
def contrib (c : Dev nD) (d : Fin 64) (n : ℕ) (e : Fin 1250304) : EReal :=
  msgArr V c (ix2 d e) * (if (dstArr V c (ix1 e)).toInt = (n : ℤ) then (1 : EReal) else 0)

/-- The same as a function of a natural number, zero past the last edge. -/
def contribN (c : Dev nD) (d : Fin 64) (n : ℕ) (e : ℕ) : EReal :=
  if h : e < 1250304 then contrib V c d n ⟨e, h⟩ else 0

/-- One point: the accumulator gains the contributions of the point's 1024 edges to the point's node block. -/
theorem step_apply (c : Dev nD) (t : Fin cfg2.N) (prev : Vec Ideal S64x2048 .f32) (d : Fin 64) (j : Fin 2048) :
    accStep (grid2.coords t) (dstBlock V c t) (msgBlock V c t) prev (ix2 d j)
      = prev (ix2 d j) + ∑ e ∈ Finset.range 1024, contribN V c d (2048 * (t.val / 1221) + j.val) (1024 * (t.val % 1221) + e) := by
  unfold accStep
  rw [View.ld_unit_zero (S := S1024) zeroOff1, View.ld_unit_zero (S := S64x1024) zeroOff2, View.ld_unit_zero (S := S64x2048) zeroOff2]
  rw [k2_pay2_apply (grid2.coords t) (dstBlock V c t) (msgBlock V c t) prev d j, Finset.sum_range]
  congr 1
  refine Finset.sum_congr rfl fun e _ => ?_
  unfold contribN
  rw [dif_pos (edge_lt t e)]
  unfold contrib
  rw [dstBlock_apply V c t e, msgBlock_apply V c t d e, nodeCoord t]
  have hc : ((2048 * (t.val / 1221) + j.val : ℕ) : ℤ) = 2048 * ((t.val / 1221 : ℕ) : ℤ) + (j.val : ℤ) := by omega
  rw [hc]

/-- THE INVARIANT: after point `n` (node block `n / 1221`, edge block `n % 1221`) the accumulator holds, at `(d, j)`, the
    contributions to node `2048 · (n / 1221) + j` of the edges of the edge blocks up to this one. -/
theorem acc2_apply (c : Dev nD) : ∀ (n : ℕ) (hn : n < cfg2.N) (d : Fin 64) (j : Fin 2048),
    acc2 V c n hn (ix2 d j) = ∑ e ∈ Finset.range (1024 * (n % 1221 + 1)), contribN V c d (2048 * (n / 1221) + j.val) e
  | 0, hn, d, j => by
    rw [acc2_zero]
    refine (step_apply V c ⟨0, hn⟩ _ d j).trans ?_
    rw [k2_pay1_apply, zero_add]
    dsimp only
    simp only [Nat.zero_div, Nat.zero_mod, Nat.mul_zero, Nat.zero_add, Nat.mul_one]
  | n + 1, hn, d, j => by
    rw [acc2_succ]
    refine (step_apply V c ⟨n + 1, hn⟩ _ d j).trans ?_
    dsimp only
    by_cases h : (n + 1) % 1221 = 0
    · rw [if_pos h, k2_pay1_apply, zero_add, h]
      simp only [Nat.mul_zero, Nat.zero_add, Nat.mul_one]
    · rw [if_neg h, acc2_apply c n _ d j]
      have h1 : (n + 1) / 1221 = n / 1221 := by omega
      have h2 : (n + 1) % 1221 = n % 1221 + 1 := by omega
      rw [h1, h2, show 1024 * (n % 1221 + 1 + 1) = 1024 * (n % 1221 + 1) + 1024 from by omega, Finset.sum_range_add]

/-! ## The output array after region 2 -/

/-- Every edge's contribution to row `d` of node `n`, plus the bias of row `d`. -/
def aggAt (c : Dev nD) (d : Fin 64) (n : ℕ) : EReal :=
  (∑ e : Fin 1250304, contrib V c d n e) + biasArr V c (ix1 d)

/-- What the output array ends holding, as one function of the arrays region 2 finds. -/
def aggArr (c : Dev nD) : Vec Ideal S64x51200 .f32 := fun i => aggAt V c (i 0) (i 1).val

theorem aggArr_apply (c : Dev nD) (d : Fin 64) (n : Fin 51200) : aggArr V c (ix2 d n) = aggAt V c d n.val := rfl

theorem aggArr_at (c : Dev nD) (d : Fin 64) (m : ℕ) (hm : m < 51200) :
    aggArr V c (ix2 d (⟨m, hm⟩ : Fin 51200)) = aggAt V c d m := rfl

/-- The edges of all 1221 edge blocks are all the edges. -/
theorem sum_all_edges (c : Dev nD) (d : Fin 64) (m : ℕ) :
    ∑ e ∈ Finset.range 1250304, contribN V c d m e = ∑ e : Fin 1250304, contrib V c d m e := by
  rw [Finset.sum_range]
  refine Finset.sum_congr rfl fun e _ => ?_
  unfold contribN
  rw [dif_pos e.isLt]

theorem aggAt_eq (c : Dev nD) (d : Fin 64) (m : ℕ) :
    aggAt V c d m = (∑ e ∈ Finset.range (1024 * (1220 + 1)), contribN V c d m e) + biasArr V c (ix1 d) := by
  unfold aggAt
  rw [show 1024 * (1220 + 1) = 1250304 from rfl, sum_all_edges]

theorem node_lt (t : Fin cfg2.N) (j : Fin 2048) : 2048 * (t.val / 1221) + j.val < 51200 := by
  have hN : t.val < 30525 := lt_of_lt_of_eq t.isLt N_2
  have := j.isLt; omega

/-- Entry `(d, j)` of the output block at point `t` sits at `(d, 2048 · (node block) + j)` of the array. -/
theorem outBlock_emb (t : Fin cfg2.N) (d : Fin 64) (j : Fin 2048) :
    (((cfg2.win 3).blk t).view.emb (ix2 d j) : S64x51200.Idx) = ix2 d (⟨2048 * (t.val / 1221) + j.val, node_lt t j⟩ : Fin 51200) := by
  funext a; apply Fin.ext
  match a with
  | ⟨0, _⟩ =>
    show win2_3.index t 0 * 64 + 1 * d.val = d.val
    rw [outIndex0]; omega
  | ⟨1, _⟩ =>
    show win2_3.index t 1 * 2048 + 1 * j.val = 2048 * (t.val / 1221) + j.val
    rw [outIndex1]; omega

/-- Any contents `G` of the output array, read through point `t`'s block at `(d, j)`, is `G` at `(d, 2048 · (node block) + j)`. -/
theorem read_outBlock (t : Fin cfg2.N) (G : Vec Ideal S64x51200 .f32) (d : Fin 64) (j : Fin 2048) :
    ((cfg2.win 3).blk t).view.read (Elt Ideal) G (ix2 d j)
      = G (ix2 d (⟨2048 * (t.val / 1221) + j.val, node_lt t j⟩ : Fin 51200)) := by
  show G (((cfg2.win 3).blk t).view.emb (ix2 d j)) = _
  rw [outBlock_emb]

/-- The output window is uncut: a write-back writes the whole staging block. -/
theorem cut_outBlock (t : Fin cfg2.N) (X : Vec Ideal S64x2048 .f32) : (cfg2.win 3).cut (grid2.coords t) X = X := rfl

/-- The block the body stores is the third payload of the accumulator and the bias block. -/
theorem out2_3_eq (acc : Vec Ideal S64x2048 .f32) (x2 : Vec Ideal S64 .f32) : out2_3 acc x2 = k2_pay3 acc x2 := by
  unfold out2_3
  rw [View.canon_unit_zero zeroOff2, View.ld_unit_zero (S := S64x2048) zeroOff2, View.ld_unit_zero (S := S64) zeroOff1]

/-- WHAT A WRITING POINT WRITES BACK — a point at the last edge block of its node block — is its block of `aggArr`. -/
theorem flushed_eq (c : Dev nD) (t : Fin cfg2.N) (hf : (cfg2.win 3).flush t = true) :
    (dat2 V c).flushed 3 t = ((cfg2.win 3).blk t).view.read (Elt Ideal) (aggArr V c) := by
  have hq : t.val % 1221 = 1220 := (flush2_3 t).mp hf
  show (cfg2.win 3).cut (grid2.coords t) ((dat2 V c).after 3 t) = _
  rw [after2_3, out2_3_eq, cut_outBlock]
  refine funext fun (y : S64x2048.Idx) => ?_
  obtain ⟨d, j, rfl⟩ : ∃ (d : Fin 64) (j : Fin 2048), y = ix2 d j := ⟨y 0, y 1, eq_ix2 y⟩
  rw [read_outBlock t (aggArr V c) d j, aggArr_at, aggAt_eq,
    k2_pay3_apply (acc2 V c t.val t.isLt) (biasBlock V c t) d j, acc2_apply V c t.val t.isLt d j, biasBlock_apply V c t d, hq]

/-- An index of the array is in point `t`'s output block iff each coordinate is in the block's range on its axis. -/
theorem mem_outBlock (t : Fin cfg2.N) (i : S64x51200.Idx) :
    i ∈ ((cfg2.win 3).blk t).view.set ↔ ∀ a : Fin 2, win2_3.index t a * S64x2048.size a ≤ (i a).val
      ∧ (i a).val < win2_3.index t a * S64x2048.size a + S64x2048.size a := by
  show i ∈ ((View.whole main_v12).slice (win2_3.rect t)).set ↔ _
  rw [View.set_slice_whole, Rect.mem_set_unit]
  exact Iff.rfl

/-- Every index of the array is in the block of a writing point: node column `n` in that of the last edge block of node block `n / 2048`. -/
theorem covered (i : S64x51200.Idx) :
    ∃ t : Fin cfg2.N, (cfg2.win 3).flush t = true ∧ i ∈ ((cfg2.win 3).blk t).view.set := by
  have h0 : (i 0).val < 64 := (i 0).isLt
  have h1 : (i 1).val < 51200 := (i 1).isLt
  have hN : cfg2.N = 30525 := N_2
  have ht : 1221 * ((i 1).val / 2048) + 1220 < cfg2.N := by rw [hN]; omega
  refine ⟨⟨1221 * ((i 1).val / 2048) + 1220, ht⟩, (flush2_3 _).mpr (by dsimp only; omega), ?_⟩
  rw [mem_outBlock]
  intro a
  match a with
  | ⟨0, _⟩ =>
    show win2_3.index ⟨1221 * ((i 1).val / 2048) + 1220, ht⟩ 0 * 64 ≤ (i 0).val
      ∧ (i 0).val < win2_3.index ⟨1221 * ((i 1).val / 2048) + 1220, ht⟩ 0 * 64 + 64
    rw [outIndex0]; omega
  | ⟨1, _⟩ =>
    show win2_3.index ⟨1221 * ((i 1).val / 2048) + 1220, ht⟩ 1 * 2048 ≤ (i 1).val
      ∧ (i 1).val < win2_3.index ⟨1221 * ((i 1).val / 2048) + 1220, ht⟩ 1 * 2048 + 2048
    rw [outIndex1]; dsimp only; omega

/-- THE ARRAY after region 2. -/
theorem arr2_eq (c : Dev nD) : (dat2 V c).arrAt 3 cfg2.N = aggArr V c :=
  (dat2 V c).arrAt_eq_of_cover 3 (aggArr V c) (flushed_eq V c) covered

/-- After region 2 the output array holds, at (d, n), Σ_{e < 1250304} msg_T[d, e] · [dst[e] = n] + bias[d] (dst = the array of window 0 read signed, msg_T of window 1, bias of window 2). -/
theorem arr2_final (c : Dev nD) (d : Fin 64) (n : Fin 51200) :
    (dat2 (F := Ideal) V c).arrAt 3 cfg2.N (ix2 d n)
      = (∑ e : Fin 1250304, msgArr V c (ix2 d e)
            * (if (dstArr V c (ix1 e)).toInt = (n.val : ℤ) then (1 : EReal) else 0))
        + biasArr V c (ix1 d) := by
  rw [arr2_eq, aggArr_apply]
  unfold aggAt contrib
  rfl

end Cert.KernelIdeal.HandVal

end
-- ==== Proof.Val.Spec.lean ====
/-
  The specification: the result of the message-passing layer as one function of the argument arrays, index by index, over the
  extended reals.

    h[n, d]   = Σ_k x[n, k] · W[d, k]
    out[n, d] = Σ_{e : dst[e] = n} w[e] · h[srcRow(src[e]), d]  +  bias[d]

  where src = idx[0, ·], dst = idx[1, ·] are read signed, an edge whose dst word is not a node index contributes to no row, and
  srcRow is the row a gather reads for a source word: a negative word counts from the end, and the result is clamped into the table.
-/
import Idealize.ShloMosaic.PureOps.Ideal
import Idealize.ShloMosaic.Lib.ValueIdx

noncomputable section

namespace Cert.Spec

open Idealize.ShloMosaic Idealize.ShloMosaic.ValueIdx

/-- The table row a gather reads for the source word `s`: `s` if it is non-negative, `s + 50000` (wrapping) otherwise, read signed
    and clamped into [0, 49999]. -/
def srcRow (s : BitVec 32) : Fin 50000 :=
  ⟨min ((if s.slt 0#32 then s + 50000#32 else s).toInt.toNat) 49999, by omega⟩

/-- For a word in [0, 50000) the row is the word. -/
theorem srcRow_of_range (s : BitVec 32) (h0 : 0 ≤ s.toInt) (h1 : s.toInt < 50000) : (srcRow s).val = s.toInt.toNat := by
  unfold srcRow
  have hs : s.slt 0#32 = false := by
    rw [BitVec.slt]; simp only [BitVec.toInt_zero]; exact decide_eq_false (by omega)
  simp only [hs, Bool.false_eq_true, if_false]
  omega

/-- h[n, d] = Σ_k x[n, k] · W[d, k]. -/
def hRow (W : (⟨2, ![64, 256]⟩ : Shape).Idx → EReal) (x : (⟨2, ![50000, 256]⟩ : Shape).Idx → EReal) (n : Fin 50000) (d : Fin 64) : EReal :=
  ∑ k : Fin 256, x (ix2 n k) * W (ix2 d k)

/-- The layer's result. -/
def G (W : (⟨2, ![64, 256]⟩ : Shape).Idx → EReal) (b : (⟨1, ![64]⟩ : Shape).Idx → EReal) (idx : IVec ⟨2, ![2, 1250000]⟩ 32)
    (w : (⟨1, ![1250000]⟩ : Shape).Idx → EReal) (x : (⟨2, ![50000, 256]⟩ : Shape).Idx → EReal) :
    (⟨2, ![50000, 64]⟩ : Shape).Idx → EReal :=
  fun j => (∑ e ∈ Finset.univ.filter (fun e : Fin 1250000 => (idx (ix2 (1 : Fin 2) e)).toInt = ((j 0).val : ℤ)),
      w (ix1 e) * hRow W x (srcRow (idx (ix2 (0 : Fin 2) e))) (j 1)) + b (ix1 (j 1))

end Cert.Spec

end
-- ==== Proof.Val.Final.lean ====
/-
  The kernel program's result is the specification, under the source indices' range.

  The result buffer at (n, d) is the third region's output array at (d, n) (transposed, cut to the 50000 node rows):
    Σ_{e < 1250304} msg_T[d, e] · [dst_pad[e] = n] + bias[d].
  The 304 padding edges carry dst_pad = 51199, no node row, so they contribute nothing. For a real edge e, msg_T[d, e] is
  h_T[d, src[e]] · w[e] — the one-hot gather reads column src[e] because 0 ≤ src[e] < 50000 —, and h_T[d, s] = Σ_k W[d, k] · x[s, k]
  for a real node row s. So the sum is Σ_{e : dst[e] = n} w[e] · (Σ_k x[src[e], k] · W[d, k]), the specification's.
  Only commutativity of the product and the laws x · 1 = x, x · 0 = 0 are used, which hold for every extended real.
-/
import proofs.«428513_j63428077027476_3_alg».proof.Proof.KI.Run
import proofs.«428513_j63428077027476_3_alg».proof.Proof.Val.Host
import proofs.«428513_j63428077027476_3_alg».proof.Proof.Val.Arr0
import proofs.«428513_j63428077027476_3_alg».proof.Proof.Val.Arr1
import proofs.«428513_j63428077027476_3_alg».proof.Proof.Val.Arr2
import proofs.«428513_j63428077027476_3_alg».proof.Proof.Val.Spec

noncomputable section

namespace Cert.KernelIdeal.HandVal

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (c : Dev nD)

/-- The argument arrays, at their literal types. -/
abbrev argW : FVec Ideal S64x256 .f32 := m ((c : Thread nD τ).loc main_arg0)
abbrev argB : FVec Ideal S64 .f32 := m ((c : Thread nD τ).loc main_arg1)
abbrev argI : IVec S2x1250000 32 := m ((c : Thread nD τ).loc main_arg2)
abbrev argE : FVec Ideal S1250000 .f32 := m ((c : Thread nD τ).loc main_arg3)
abbrev argX : FVec Ideal S50000x256 .f32 := m ((c : Thread nD τ).loc main_arg4)

/-- The first region's output array, as the second region finds it: h_T = W · x_padᵀ. -/
theorem e1_v3 : (E1 m c main_v3 : S64x51200.Idx → EReal) = arr0_hT (E0 m c main_v2) (E0 m c main_v1) := by
  have h := host_v3 m (outsA m) c
  rw [show (E1 m c main_v3) = V10 m (outsA m) c main_v3 from rfl, h]
  show O4 m c main_v3 = _
  unfold O4
  rw [Function.update_self]
  exact arr0_final (E0 m) c

/-- The second region's output array, as the third region finds it. -/
theorem e2_v11 (d : Fin 64) (e : Fin 1250304) :
    (E2 m c main_v11 : S64x1250304.Idx → EReal) (ix2 d e)
      = srcSel (E1 m c main_v3) ((E1 m c main_v8 : S1250304.Idx → BitVec 32) (ix1 e)) d * (E1 m c main_v10 : S1250304.Idx → EReal) (ix1 e) := by
  have h := host_v11 m (outsB m) c
  rw [show (E2 m c main_v11) = V11 m (outsB m) c main_v11 from rfl, h]
  show O11 m c main_v11 (ix2 d e) = _
  unfold O11
  rw [Function.update_self]
  exact arr1_final (E1 m) c d e

/-- The result buffer at (n, d) is the third region's output array at (d, n). -/
theorem result_at (n : Fin 50000) (d : Fin 64) :
    (V13 m (outs m) c main_v14 : S50000x64.Idx → EReal) (ix2 n d)
      = (dat2 (F := Ideal) (E2 m) c).arrAt 3 cfg2.N (ix2 d ⟨n.val, by omega⟩) := by
  rw [host_v14 m (outs m) c n d]
  show O12 m c main_v12 (ix2 d ⟨n.val, _⟩) = _
  unfold O12
  rw [Function.update_self]

/-- A sum over the 1250304 padded edges splits into the 1250000 real edges and the 304 padding edges. -/
theorem sum_edges_split (f : Fin 1250304 → EReal) :
    ∑ e : Fin 1250304, f e = ∑ e : Fin 1250000, f (Fin.castAdd 304 e) + ∑ e : Fin 304, f (Fin.natAdd 1250000 e) :=
  Fin.sum_univ_add (a := 1250000) (b := 304) f

/-- For a source word in [0, 50000) the one-hot gather over the padded columns reads the table's column. -/
theorem srcSel_of_range (hT : S64x51200.Idx → EReal) (s : BitVec 32) (d : Fin 64) (h0 : 0 ≤ s.toInt) (h1 : s.toInt < 50000) :
    srcSel hT s d = hT (ix2 d ⟨s.toInt.toNat, by omega⟩) := by
  unfold srcSel
  rw [dif_pos ⟨h0, by omega⟩]

/-- THE KERNEL'S VALUE: under the source indices' range the result buffer holds the specification's function of the arguments. -/
theorem kernel_value
    (hsrc : ∀ e : Fin 1250000, 0 ≤ (argI m c (ix2 (0 : Fin 2) e)).toInt ∧ (argI m c (ix2 (0 : Fin 2) e)).toInt < 50000) :
    (V13 m (outs m) c main_v14 : S50000x64.Idx → EReal)
      = Cert.Spec.G (argW m c) (argB m c) (argI m c) (argE m c) (argX m c) := by
  funext j
  obtain ⟨n, d, rfl⟩ : ∃ (n : Fin 50000) (d : Fin 64), j = ix2 n d := ⟨j 0, j 1, eq_ix2 j⟩
  rw [result_at m c n d, arr2_final (E2 m) c d ⟨n.val, by omega⟩]
  -- the bias
  have hb : biasArr (E2 m) c (ix1 d) = argB m c (ix1 d) := by
    show (V11 m (outsB m) c main_arg1 : S64.Idx → EReal) (ix1 d) = _
    rw [host_arg1 m (outsB m) c]
  rw [hb]
  unfold Cert.Spec.G
  refine congrArg (fun s : EReal => s + argB m c (ix1 d)) ?_
  rw [sum_edges_split]
  -- the padding edges contribute nothing
  have hpad : ∑ e : Fin 304, (msgArr (E2 m) c (ix2 d (Fin.natAdd 1250000 e))
      * (if (dstArr (E2 m) c (ix1 (Fin.natAdd 1250000 e))).toInt = ((⟨n.val, by omega⟩ : Fin 51200).val : ℤ) then (1 : EReal) else 0)) = 0 := by
    refine Finset.sum_eq_zero fun e _ => ?_
    have hd : dstArr (E2 m) c (ix1 (Fin.natAdd 1250000 e)) = 51199#32 := by
      show (V11 m (outsB m) c main_v9 : S1250304.Idx → BitVec 32) (ix1 (Fin.natAdd 1250000 e)) = _
      rw [host_v9 m (outsB m) c, dif_neg (by simp only [Fin.coe_natAdd]; omega)]
    rw [hd, if_neg (by
      have : (51199#32 : BitVec 32).toInt = 51199 := by decide
      rw [this]; have := n.isLt; simp only; omega), mul_zero]
  rw [hpad, add_zero, Finset.sum_filter]
  refine Finset.sum_congr rfl fun e _ => ?_
  -- a real edge
  have hd : dstArr (E2 m) c (ix1 (Fin.castAdd 304 e)) = argI m c (ix2 (1 : Fin 2) e) := by
    show (V11 m (outsB m) c main_v9 : S1250304.Idx → BitVec 32) (ix1 (Fin.castAdd 304 e)) = _
    rw [host_v9 m (outsB m) c, dif_pos (by simp only [Fin.coe_castAdd]; exact e.isLt)]
    rfl
  have hs : (E1 m c main_v8 : S1250304.Idx → BitVec 32) (ix1 (Fin.castAdd 304 e)) = argI m c (ix2 (0 : Fin 2) e) := by
    show (V10 m (outsA m) c main_v8 : S1250304.Idx → BitVec 32) (ix1 (Fin.castAdd 304 e)) = _
    rw [host_v8 m (outsA m) c, dif_pos (by simp only [Fin.coe_castAdd]; exact e.isLt)]
    rfl
  have hw : (E1 m c main_v10 : S1250304.Idx → EReal) (ix1 (Fin.castAdd 304 e)) = argE m c (ix1 e) := by
    show (V10 m (outsA m) c main_v10 : S1250304.Idx → EReal) (ix1 (Fin.castAdd 304 e)) = _
    rw [host_v10 m (outsA m) c, dif_pos (by simp only [Fin.coe_castAdd]; exact e.isLt)]
    rfl
  obtain ⟨h0, h1⟩ := hsrc e
  have hm : msgArr (E2 m) c (ix2 d (Fin.castAdd 304 e))
      = Cert.Spec.hRow (argW m c) (argX m c) (Cert.Spec.srcRow (argI m c (ix2 (0 : Fin 2) e))) d * argE m c (ix1 e) := by
    show (E2 m c main_v11 : S64x1250304.Idx → EReal) (ix2 d (Fin.castAdd 304 e)) = _
    rw [e2_v11 m c d (Fin.castAdd 304 e), hs, hw, srcSel_of_range _ _ d h0 h1, e1_v3 m c, arr0_hT_apply]
    congr 1
    unfold Cert.Spec.hRow
    refine Finset.sum_congr rfl fun k _ => ?_
    have hW : (E0 m c main_v2 : S64x256.Idx → EReal) (ix2 d k) = argW m c (ix2 d k) := by
      show (V3 m c main_v2 : S64x256.Idx → EReal) (ix2 d k) = _
      rw [host_v2 m c]
    have hrow : (Cert.Spec.srcRow (argI m c (ix2 (0 : Fin 2) e))).val = (argI m c (ix2 (0 : Fin 2) e)).toInt.toNat :=
      Cert.Spec.srcRow_of_range _ h0 h1
    have hX : (E0 m c main_v1 : S51200x256.Idx → EReal) (ix2 ⟨(argI m c (ix2 (0 : Fin 2) e)).toInt.toNat, by omega⟩ k)
        = argX m c (ix2 (Cert.Spec.srcRow (argI m c (ix2 (0 : Fin 2) e))) k) := by
      show (V3 m c main_v1 : S51200x256.Idx → EReal) (ix2 ⟨(argI m c (ix2 (0 : Fin 2) e)).toInt.toNat, _⟩ k) = _
      rw [host_v1 m c, dif_pos (by simp only; omega)]
      exact congrArg (fun r => argX m c (ix2 r k)) (Fin.ext hrow.symm)
    rw [hW, hX, mul_comm]
  rw [hm, hd]
  by_cases hP : (argI m c (ix2 (1 : Fin 2) e)).toInt = (n.val : ℤ)
  · rw [if_pos hP, if_pos (by simpa using hP), mul_one, mul_comm]
  · rw [if_neg hP, if_neg (by simpa using hP), mul_zero]

end Cert.KernelIdeal.HandVal

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.Val.Ref.lean ====
/-
  The reference's value: its result array, read index by index, is the specification's function of the argument arrays.

  The reference computes h = x · Wᵀ, reads src = idx[0, ·] and dst = idx[1, ·], wraps a negative source word by the table's
  height, gathers the rows of h at the wrapped words (clamped into the table), scales row e by w[e], adds the scaled rows into a
  zero array at the rows dst names (an edge whose dst word is no row index is dropped), and adds the bias to every row.  Read at
  (n, d) that is  (0 + Σ_{e : dst e = n} w e · h (srcRow (src e), d)) + bias d  with  h (n', d) = Σ_k x (n', k) · W (d, k).
-/
import proofs.«428513_j63428077027476_3_alg».proof.Proof.Gen.ReferenceIdeal.Run
import proofs.«428513_j63428077027476_3_alg».proof.Proof.Gen.ReferenceIdeal.Read
import proofs.«428513_j63428077027476_3_alg».proof.Proof.Val.Spec
import proofs.«428513_j63428077027476_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.ReferenceIdeal.Read

/-! ## The index words -/

/-- The source word of edge e is idx[0, e]: row 0 of the index array, flattened. -/
theorem src_apply (idx : IVec S2x1250000 32) (e : Fin 1250000) :
    val_main_v3 (F := Ideal) idx (ix1 e) = idx (ix2 (0 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The destination word of edge e is idx[1, e]: row 1 of the index array, flattened. -/
theorem dst_apply (idx : IVec S2x1250000 32) (e : Fin 1250000) :
    val_main_v5 (F := Ideal) idx (ix1 e) = idx (ix2 (1 : Fin 2) e) := by
  rw [val_main_v5_apply, val_main_v4_apply]
  congr 1
  funext a
  refine Fin.ext ?_
  match a with
  | ⟨0, _⟩ => rfl
  | ⟨1, _⟩ => exact Nat.mod_eq_of_lt e.isLt

/-- The wrapped source word of edge e: the word itself if it is non-negative, the word plus 50000 otherwise. -/
theorem wrapped_apply (idx : IVec S2x1250000 32) (e : Fin 1250000) :
    val_main_v11 (F := Ideal) idx (ix1 e)
      = (if (idx (ix2 (0 : Fin 2) e)).slt 0#32 then idx (ix2 (0 : Fin 2) e) + 50000#32 else idx (ix2 (0 : Fin 2) e)) := by
  rw [val_main_v11_apply, val_main_v8_apply, val_main_v10_apply, val_main_v7_apply, val_main_v9_apply, val_main_c_apply,
    val_main_c_0_apply, src_apply]
  cases h : (idx (ix2 (0 : Fin 2) e)).slt 0#32
  · simp [Scalar.select, IntOp.cmpi, IntOp.addi, h]
  · simp [Scalar.select, IntOp.cmpi, IntOp.addi, h]

/-- The start word the gather reads for result row e is the wrapped source word of e. -/
theorem start_apply (idx : IVec S2x1250000 32) (e : Fin 1250000) :
    val_main_v12 (F := Ideal) idx (ix2 e (0 : Fin 1))
      = (if (idx (ix2 (0 : Fin 2) e)).slt 0#32 then idx (ix2 (0 : Fin 2) e) + 50000#32 else idx (ix2 (0 : Fin 2) e)) := by
  have hi : idx_main_v12 (ix2 e (0 : Fin 1)) = ix1 e := by
    funext a
    refine Fin.ext ?_
    match a with
    | ⟨0, _⟩ => rfl
  rw [val_main_v12_apply, hi, wrapped_apply]

/-- The destination word the scatter reads for update row e is idx[1, e]. -/
theorem dest_apply (idx : IVec S2x1250000 32) (e : Fin 1250000) :
    val_main_v17 (F := Ideal) idx (ix2 e (0 : Fin 1)) = idx (ix2 (1 : Fin 2) e) := by
  have hi : idx_main_v17 (ix2 e (0 : Fin 1)) = ix1 e := by
    funext a
    refine Fin.ext ?_
    match a with
    | ⟨0, _⟩ => rfl
  rw [val_main_v17_apply, hi, dst_apply]

/-! ## The float arrays -/

/-- The product x · Wᵀ read at (n, d) is the specification's h. -/
theorem h_apply (W : FVec Ideal S64x256 .f32) (x : FVec Ideal S50000x256 .f32) (n : Fin 50000) (d : Fin 64) :
    val_main_v1 (F := Ideal) W x (ix2 n d) = Cert.Spec.hRow W x n d := by
  rw [val_main_v1_apply]
  unfold Cert.Spec.hRow
  refine Finset.sum_congr rfl fun k _ => ?_
  rw [val_main_v0_apply]
  have el : lidx_main_v1 (ix2 n d) k = ix2 n k := by
    funext a
    refine Fin.ext ?_
    match a with
    | ⟨0, _⟩ => rfl
    | ⟨1, _⟩ => rfl
  have er : idx_main_v0 (ridx_main_v1 (ix2 n d) k) = ix2 d k := by
    funext a
    refine Fin.ext ?_
    match a with
    | ⟨0, _⟩ => rfl
    | ⟨1, _⟩ => rfl
  rw [el, er]

/-- The edge weights broadcast along the feature axis read w[e] at (e, d). -/
theorem weight_apply (w : FVec Ideal S1250000 .f32) (e : Fin 1250000) (d : Fin 64) :
    val_main_v14 (F := Ideal) w (ix2 e d) = w (ix1 e) := by
  rw [val_main_v14_apply, val_main_v6_apply]
  congr 1
  funext a
  refine Fin.ext ?_
  match a with
  | ⟨0, _⟩ => rfl

/-- The gather's dimension numbers are a row gather's. -/
theorem gather_eq : gather_S50000x64_S1250000x1_S1250000x64_1_0_n_n_0_1_164
    = RowOps.rowGather 50000 1250000 64 gather_S50000x64_S1250000x1_S1250000x64_1_0_n_n_0_1_164_wf := rfl

/-- The scatter's dimension numbers are a row scatter's. -/
theorem scatter_eq : scatter_S50000x64_S1250000x1_S1250000x64_1_0_0_1
    = RowOps.rowScatter 50000 1250000 64 scatter_S50000x64_S1250000x1_S1250000x64_1_0_0_1_wf := rfl

/-- The gathered rows read at (e, d): h at the row the source word of e names. -/
theorem gathered_apply (W : FVec Ideal S64x256 .f32) (idx : IVec S2x1250000 32) (x : FVec Ideal S50000x256 .f32)
    (e : Fin 1250000) (d : Fin 64) :
    val_main_v13 (F := Ideal) W idx x (ix2 e d)
      = Cert.Spec.hRow W x (Cert.Spec.srcRow (idx (ix2 (0 : Fin 2) e))) d := by
  unfold val_main_v13
  rw [gather_eq]
  generalize hy : val_main_v1 (F := Ideal) W x = y
  rw [RowOps.rowGather_apply (by norm_num) _ y (val_main_v12 (F := Ideal) idx) e d, ← hy, h_apply]
  refine congrArg (fun r => Cert.Spec.hRow W x r d) (Fin.ext ?_)
  show min (BitVec.toInt (val_main_v12 (F := Ideal) idx (ix2 e (0 : Fin 1)))).toNat (50000 - 1)
    = (Cert.Spec.srcRow (idx (ix2 (0 : Fin 2) e))).val
  rw [start_apply]
  rfl

/-- The messages read at (e, d): w[e] · h (srcRow (src e), d). -/
theorem msg_apply (W : FVec Ideal S64x256 .f32) (idx : IVec S2x1250000 32) (w : FVec Ideal S1250000 .f32)
    (x : FVec Ideal S50000x256 .f32) (e : Fin 1250000) (d : Fin 64) :
    val_main_v15 (F := Ideal) W idx w x (ix2 e d)
      = w (ix1 e) * Cert.Spec.hRow W x (Cert.Spec.srcRow (idx (ix2 (0 : Fin 2) e))) d := by
  rw [val_main_v15_apply, weight_apply, gathered_apply]
  rfl

/-- The zero array reads 0 everywhere. -/
theorem zeros_apply (i : S50000x64.Idx) : (val_main_v16 (F := Ideal) i : EReal) = 0 := by
  rw [val_main_v16_apply, val_main_cst_apply]
  show Ideal.ofBits .f32 0x00000000#32 = 0
  exact Ideal.ofBits_zero_f32

/-- The bias broadcast along the node axis reads bias[d] at (n, d). -/
theorem bias_apply (b : FVec Ideal S64 .f32) (n : Fin 50000) (d : Fin 64) :
    val_main_v20 (F := Ideal) b (ix2 n d) = b (ix1 d) := by
  rw [val_main_v20_apply, val_main_v19_apply]
  congr 1
  funext a
  refine Fin.ext ?_
  match a with
  | ⟨0, _⟩ => rfl

/-- The scatter-add of update rows u into the array z by the destination words di, read at (n, d): z (n, d) plus u's column d
    summed over the rows whose destination word, read signed, is n. -/
theorem scatterAdd_apply (z : FVec Ideal S50000x64 .f32) (di : IVec S1250000x1 32) (u : FVec Ideal S1250000x64 .f32)
    (n : Fin 50000) (d : Fin 64) :
    Host.scatterAdd scatter_S50000x64_S1250000x1_S1250000x64_1_0_0_1 z di u (ix2 n d)
      = z (ix2 n d) + ∑ e ∈ Finset.univ.filter (fun e : Fin 1250000 => (di (ix2 e (0 : Fin 1))).toInt = (n.val : ℤ)),
          u (ix2 e d) := by
  have hs : Host.scatterAdd scatter_S50000x64_S1250000x1_S1250000x64_1_0_0_1 z di u (ix2 n d)
      = Ideal.hostScatterAdd (RowOps.rowScatter 50000 1250000 64 scatter_S50000x64_S1250000x1_S1250000x64_1_0_0_1_wf)
          z di u (ix2 n d) := by
    rw [scatter_eq]
    unfold Host.scatterAdd
    rw [Ideal.hostScatterAdd_def]
  rw [hs]
  exact RowOps.rowScatterAdd_apply _ z di u n d

/-- The edges the scatter sends to row n are the edges whose destination word idx[1, e], read signed, is n. -/
theorem dest_filter (idx : IVec S2x1250000 32) (n : Fin 50000) :
    (Finset.univ.filter (fun e : Fin 1250000 => (val_main_v17 (F := Ideal) idx (ix2 e (0 : Fin 1))).toInt = (n.val : ℤ)))
      = Finset.univ.filter (fun e : Fin 1250000 => (idx (ix2 (1 : Fin 2) e)).toInt = (n.val : ℤ)) :=
  Finset.filter_congr (fun e _ => by rw [dest_apply])

/-- The aggregated messages read at (n, d): the messages' column d summed over the edges whose destination word is n. -/
theorem agg_apply (W : FVec Ideal S64x256 .f32) (idx : IVec S2x1250000 32) (w : FVec Ideal S1250000 .f32)
    (x : FVec Ideal S50000x256 .f32) (n : Fin 50000) (d : Fin 64) :
    val_main_v18 (F := Ideal) W idx w x (ix2 n d)
      = ∑ e ∈ Finset.univ.filter (fun e : Fin 1250000 => (idx (ix2 (1 : Fin 2) e)).toInt = (n.val : ℤ)),
          w (ix1 e) * Cert.Spec.hRow W x (Cert.Spec.srcRow (idx (ix2 (0 : Fin 2) e))) d := by
  unfold val_main_v18
  rw [scatterAdd_apply, zeros_apply, zero_add, dest_filter]
  exact Finset.sum_congr rfl fun e _ => msg_apply W idx w x e d

/-! ## The result -/

/-- The reference's last stage read at (n, d): the aggregated messages plus the bias. -/
theorem result_apply (W : FVec Ideal S64x256 .f32) (b : FVec Ideal S64 .f32) (idx : IVec S2x1250000 32)
    (w : FVec Ideal S1250000 .f32) (x : FVec Ideal S50000x256 .f32) (n : Fin 50000) (d : Fin 64) :
    val_main_v21 (F := Ideal) W b idx w x (ix2 n d)
      = (∑ e ∈ Finset.univ.filter (fun e : Fin 1250000 => (idx (ix2 (1 : Fin 2) e)).toInt = (n.val : ℤ)),
          w (ix1 e) * Cert.Spec.hRow W x (Cert.Spec.srcRow (idx (ix2 (0 : Fin 2) e))) d) + b (ix1 d) := by
  rw [val_main_v21_apply, Ideal.addf_def, agg_apply, bias_apply]

/-- The reference's last stage is the specification's function of the argument arrays. -/
theorem result_eq (W : FVec Ideal S64x256 .f32) (b : FVec Ideal S64 .f32) (idx : IVec S2x1250000 32)
    (w : FVec Ideal S1250000 .f32) (x : FVec Ideal S50000x256 .f32) :
    val_main_v21 (F := Ideal) W b idx w x = Cert.Spec.G W b idx w x := by
  funext (j : S50000x64.Idx)
  show val_main_v21 (F := Ideal) W b idx w x j
    = (∑ e ∈ Finset.univ.filter (fun e : Fin 1250000 => (idx (ix2 (1 : Fin 2) e)).toInt = ((j 0).val : ℤ)),
        w (ix1 e) * Cert.Spec.hRow W x (Cert.Spec.srcRow (idx (ix2 (0 : Fin 2) e))) (j 1)) + b (ix1 (j 1))
  rw [← result_apply W b idx w x (j 0) (j 1)]
  exact congrArg (val_main_v21 (F := Ideal) W b idx w x) (eq_ix2 j)

/-- The reference's result array — the composed term its run ends at — is the specification's function of the argument arrays. -/
theorem ref_eq (W : FVec Ideal S64x256 .f32) (b : FVec Ideal S64 .f32) (idx : IVec S2x1250000 32) (w : FVec Ideal S1250000 .f32) (x : FVec Ideal S50000x256 .f32) :
    addf (Host.scatterAdd scatter_S50000x64_S1250000x1_S1250000x64_1_0_0_1 (broadcastInDim S50000x64 ![] bcast_S_S50000x64 (constant S_ .f32 0x00000000#32)) (broadcastInDim S1250000x1 ![0] bcast_S1250000_S1250000x1_0 (shapeCast _ (extractStridedSlice S1x1250000 ![1, 0] idx slices_S2x1250000_S1x1250000_1_0) shapeCasts_S1x1250000_S1250000)) (mulf (broadcastInDim S1250000x64 ![0, 1] bcast_S1250000x1_S1250000x64_0_1 (broadcastInDim S1250000x1 ![0] bcast_S1250000_S1250000x1_0 w)) (Host.gather gather_S50000x64_S1250000x1_S1250000x64_1_0_n_n_0_1_164 (Host.dotGeneral dot_S50000x256_S256x64_S50000x64_1_0_0_1_n_n none x (transpose S256x64 [1, 0] W transposes_S64x256_S256x64_1_0)) (broadcastInDim S1250000x1 ![0] bcast_S1250000_S1250000x1_0 (select (cmpi .slt (shapeCast _ (extractStridedSlice S1x1250000 ![0, 0] idx slices_S2x1250000_S1x1250000_0_0) shapeCasts_S1x1250000_S1250000) (broadcastInDim S1250000 ![] bcast_S_S1250000 (constantI S_ 32 0#32))) (addi (shapeCast _ (extractStridedSlice S1x1250000 ![0, 0] idx slices_S2x1250000_S1x1250000_0_0) shapeCasts_S1x1250000_S1250000) (broadcastInDim S1250000 ![] bcast_S_S1250000 (constantI S_ 32 50000#32))) (shapeCast _ (extractStridedSlice S1x1250000 ![0, 0] idx slices_S2x1250000_S1x1250000_0_0) shapeCasts_S1x1250000_S1250000)))))) (broadcastInDim S50000x64 ![0, 1] bcast_S1x64_S50000x64_0_1 (broadcastInDim S1x64 ![1] bcast_S64_S1x64_1 b))
      = Cert.Spec.G W b idx w x :=
  (val_main_v21_eq (F := Ideal) W b idx w x).trans (result_eq W b idx w x)

end Cert.ReferenceIdeal.RefValue

end
-- ==== Proof.Val.PreRange.lean ====
/-
  The source-node words' range, read back from the printed input predicate.

  The predicate's result is one bit: the conjunction (bitwise and) of five reductions.  The last of them is the
  and-reduction, over all 1250000 edges, of  (0 ≤ src e) and (src e < 50000),  both signed comparisons of 32-bit words,
  where  src  is row 0 of the [2, 1250000] index array viewed as a vector (a unit-stride slice of row 0, then the
  reshape that drops the unit axis).  If the result bit is 1 then the last conjunct is 1, an and-reduction that is 1
  met only 1s, and a comparison bit that is 1 is the order of the signed values; the constants 0 and 50000 read as
  themselves.  The four other conjuncts (finiteness of the float arguments) are never opened: the statement about the
  chain's tail is made for arbitrary earlier bits.
-/
import proofs.«428513_j63428077027476_3_alg».proof.Pre_finite_inputs
import Idealize.ShloMosaic.Lib.StableHlo.Predicate
import Idealize.ShloMosaic.Lib.ReduceAll
import Idealize.ShloMosaic.Lib.Pipeline.Value
import Idealize.ShloMosaic.Lib.ValueIdx

noncomputable section

namespace Cert.Pre_finite_inputs.Range

open Idealize.ShloMosaic Idealize.ShloMosaic.ValueIdx
open Cert.Pre_finite_inputs

/-- The scalar shape has one index. -/
instance : Subsingleton S_.Idx := ⟨fun a b => funext fun d => d.elim0⟩

/-- Row 0 of the index array as a vector: the slice of row 0, its unit axis dropped, reads at edge `e` the array at (0, e). -/
theorem src_read [Facts] (a2 : IVec S2x1250000 32) (e : Fin 1250000) :
    shapeCast S1250000 (extractStridedSlice S1x1250000 ![0, 0] a2 Facts.slices_S2x1250000_S1x1250000_0_0)
      Facts.shapeCasts_S1x1250000_S1250000 (ix1 e) = a2 (ix2 (0 : Fin 2) e) := by
  refine (shapeCast_dropUnit_apply ![1250000] _ Facts.shapeCasts_S1x1250000_S1250000 (ix1 e)).trans ?_
  refine extractStridedSlice_apply ![0, 0] a2 Facts.slices_S2x1250000_S1x1250000_0_0 _ (ix2 (0 : Fin 2) e) fun a => ?_
  match a with
  | ⟨0, _⟩ => rfl
  | ⟨1, _⟩ => exact (Nat.zero_add _).symm

/-- The tail of the predicate's chain, for ANY earlier bits: if its result bit is 1, every source word is in [0, 50000). -/
theorem part1_range {F : FTy → Type} [FloatOps F] [Facts] (a2 : IVec S2x1250000 32) (v13 : IVec S_ 1) (v16 : IVec S50000x256 1)
    (h : fn_part1 (F := F) a2 v13 v16 ix0 = 1#1) (e : Fin 1250000) :
    0 ≤ (a2 (ix2 (0 : Fin 2) e)).toInt ∧ (a2 (ix2 (0 : Fin 2) e)).toInt < 50000 := by
  -- the result bit is  (earlier bits) and (the reduction over the edges)
  obtain ⟨-, hall⟩ := IntOp.andi_eq_one.1 h
  -- an and-reduction that is 1 met a 1 at every edge
  have he := Host.reduce_andi_all _ _ _ _ _ hall (ix1 e)
  obtain ⟨hge, hlt⟩ := IntOp.andi_eq_one.1 he
  -- each comparison bit is the order of the signed values; the compared word is the array at (0, e)
  have hge' := IntOp.cmpi_sge.1 hge
  have hlt' := IntOp.cmpi_slt.1 hlt
  rw [src_read a2 e] at hge' hlt'
  exact ⟨hge', hlt'⟩

theorem src_range {F : FTy → Type} [FloatOps F] [hP : Cert.Pre_finite_inputs.Facts]
    (a0 : FVec F S64x256 .f32) (a1 : FVec F S64 .f32) (a2 : IVec S2x1250000 32) (a3 : FVec F S1250000 .f32) (a4 : FVec F S50000x256 .f32)
    (h : Cert.Pre_finite_inputs.fn (F := F) a0 a1 a2 a3 a4 = fun _ => 1#1) (e : Fin 1250000) :
    0 ≤ (a2 (ValueIdx.ix2 (0 : Fin 2) e)).toInt ∧ (a2 (ValueIdx.ix2 (0 : Fin 2) e)).toInt < 50000 :=
  part1_range (F := F) a2 _ _ (congrFun h ix0) e

end Cert.Pre_finite_inputs.Range

end
-- ==== Proof.lean ====
/-
  The certificate of a graph message-passing layer: h = x · Wᵀ, msg[e] = w[e] · h[src[e]], out[n] = Σ_{e : dst[e] = n} msg[e] + bias.

  The kernel program computes it with three kernel regions, each gather and scatter done as a product with a one-hot matrix:
  h_T = W · x_padᵀ over node blocks; msg_T[:, e] = w[e] · Σ_n h_T[:, n] · [n = src[e]], the node range swept in eight slices;
  agg_T[:, n] = Σ_e msg_T[:, e] · [dst[e] = n] + bias, accumulated in a scratch buffer over 1221 edge blocks per node block.
  Nodes are padded to 51200 with zero rows and edges to 1250304 with edges from and to the last padding node; the result is
  agg_T transposed and cut to the 50000 real nodes. The reference gathers rows of h (a negative source index counted from the end, the
  index clamped into the table) and scatter-adds the messages (a destination index outside the node range dropped).

  On the extended reals the two agree where every source index is a node index, 0 ≤ src[e] < 50000 (outside it the reference's gather
  clamps or wraps while the one-hot product reads zero): a sum of products with a one-hot vector is the selected entry, a destination
  index outside the node range matches no column on either side, the padding edges land on a padding node, and the remaining difference
  is the order of the factors and of the summation. Both programs' frames: every execution terminates, nothing faults, and the argument
  arrays end as launched — the kernel program's from its run through the three regions, the reference's from its run.
-/
import proofs.«428513_j63428077027476_3_alg».proof.Defs
import proofs.«428513_j63428077027476_3_alg».proof.Proof.Gen.Kernel
import proofs.«428513_j63428077027476_3_alg».proof.Proof.Gen.KernelIdeal
import proofs.«428513_j63428077027476_3_alg».proof.Proof.Gen.ReferenceIdeal
import proofs.«428513_j63428077027476_3_alg».proof.Proof.Gen.Pre_finite_inputs
import proofs.«428513_j63428077027476_3_alg».proof.Proof.K.Run
import proofs.«428513_j63428077027476_3_alg».proof.Proof.KI.Run
import proofs.«428513_j63428077027476_3_alg».proof.Proof.Val.Final
import proofs.«428513_j63428077027476_3_alg».proof.Proof.Val.Ref
import proofs.«428513_j63428077027476_3_alg».proof.Proof.Val.PreRange
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's function of the arguments in their
    result buffers: the kernel program by its run and the value of its three regions, under the source indices' range the
    precondition states; the reference by its run read index by index. -/
theorem algebraic : Cert.algebraic_KernelIdeal_ReferenceIdeal := by
  intro m ρ m' ρ' hpre hagree
  refine ⟨fun c => Cert.KernelIdeal.Gen.V13 m (Cert.KernelIdeal.Hand.outs m) c Cert.KernelIdeal.main_v14,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.RefValue.ref_eq]
  exact (Cert.KernelIdeal.HandVal.kernel_value m c
    (fun e => Cert.Pre_finite_inputs.Range.src_range _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
